-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S256x128 : Shape := ⟨2, ![256, 128]⟩
abbrev S128x1 : Shape := ⟨2, ![128, 1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S40000x128 .f32) (main_arg1 : IVec S2x640000 32) (main_arg2 : IVec S40000 32) (main_arg3 : FVec F S256x128 .f32) (main_arg4 : FVec F S256x128 .f32) (main_arg5 : FVec F S128x1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S40000x128 : Shape := ⟨2, ![40000, 128]⟩
abbrev S2x640000 : Shape := ⟨2, ![2, 640000]⟩
abbrev S40000 : Shape := ⟨1, ![40000]⟩
abbrev S256x128 : Shape := ⟨2, ![256, 128]⟩
abbrev S128x1 : Shape := ⟨2, ![128, 1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x1 : Shape := ⟨2, ![40000, 1]⟩
abbrev S640000x128 : Shape := ⟨2, ![640000, 128]⟩
abbrev S128x128 : Shape := ⟨2, ![128, 128]⟩
abbrev S4000x128 : Shape := ⟨2, ![4000, 128]⟩
abbrev S256x1 : Shape := ⟨2, ![256, 1]⟩
abbrev S4000x1 : Shape := ⟨2, ![4000, 1]⟩
abbrev S1x256 : Shape := ⟨2, ![1, 256]⟩
abbrev S4000x256 : Shape := ⟨2, ![4000, 256]⟩
abbrev S256 : Shape := ⟨1, ![256]⟩

abbrev nBuf : Space → Nat
  | .hbm => 61
  | .vmem => 24
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S256x128, .f32⟩
  | .hbm, ⟨4, _⟩ => ⟨S256x128, .f32⟩
  | .hbm, ⟨5, _⟩ => ⟨S128x1, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .f32⟩
  | .hbm, ⟨11, _⟩ => ⟨S640000, .f32⟩
  | .hbm, ⟨12, _⟩ => ⟨S_, .f32⟩
  | .hbm, ⟨13, _⟩ => ⟨S40000, .f32⟩
  | .hbm, ⟨14, _⟩ => ⟨S640000x1, .i32⟩
  | .hbm, ⟨15, _⟩ => ⟨S40000, .f32⟩
  | .hbm, ⟨16, _⟩ => ⟨S_, .f32⟩
  | .hbm, ⟨17, _⟩ => ⟨S40000, .f32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .f32⟩
  | .hbm, ⟨22, _⟩ => ⟨S40000x1, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S_, .f32⟩
  | .hbm, ⟨33, _⟩ => ⟨S40000x128, .f32⟩
  | .hbm, ⟨34, _⟩ => ⟨S640000x1, .i32⟩
  | .hbm, ⟨35, _⟩ => ⟨S40000x128, .f32⟩
  | .hbm, ⟨36, _⟩ => ⟨S40000x128, .f32⟩
  | .hbm, ⟨37, _⟩ => ⟨S40000x128, .f32⟩
  | .hbm, ⟨38, _⟩ => ⟨S128x128, .f32⟩
  | .hbm, ⟨39, _⟩ => ⟨S128x128, .f32⟩
  | .hbm, ⟨40, _⟩ => ⟨S40000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S40000x128, .f32⟩
  | .hbm, ⟨52, _⟩ => ⟨S640000x1, .i32⟩
  | .hbm, ⟨53, _⟩ => ⟨S40000x128, .f32⟩
  | .hbm, ⟨54, _⟩ => ⟨S40000x128, .f32⟩
  | .hbm, ⟨55, _⟩ => ⟨S40000x128, .f32⟩
  | .hbm, ⟨56, _⟩ => ⟨S128x128, .f32⟩
  | .hbm, ⟨57, _⟩ => ⟨S128x128, .f32⟩
  | .hbm, ⟨58, _⟩ => ⟨S40000x128, .f32⟩
  | .hbm, ⟨59, _⟩ => ⟨S40000x1, .i32⟩
  | .hbm, ⟨60, _⟩ => ⟨S256x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S128x128, .f32⟩
  | .local _ .vmem, ⟨14, _⟩ => ⟨S4000x128, .f32⟩
  | .local _ .vmem, ⟨15, _⟩ => ⟨S4000x128, .f32⟩
  | .local _ .vmem, ⟨16, _⟩ => ⟨S4000x1, .i32⟩
  | .local _ .vmem, ⟨17, _⟩ => ⟨S4000x1, .i32⟩
  | .local _ .vmem, ⟨18, _⟩ => ⟨S4000x128, .f32⟩
  | .local _ .vmem, ⟨19, _⟩ => ⟨S4000x128, .f32⟩
  | .local _ .vmem, ⟨20, _⟩ => ⟨S128x1, .f32⟩
  | .local _ .vmem, ⟨21, _⟩ => ⟨S256x1, .f32⟩
  | .local _ .vmem, ⟨22, _⟩ => ⟨S256x128, .f32⟩
  | .local _ .vmem, ⟨23, _⟩ => ⟨S1x256, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_scratch0 : Ref sig .tc := ⟨.vmem, 22, rfl⟩
abbrev cc2_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_13 : BitVec 32 := 0#32
  let v37 : BitVec 1 := Scalar.cmpi .ne v36 c0_i32_13
  v37

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S4000x128_S4000x128 : S4000x128.ShapeCasts S4000x128
  shapeCasts_S40000_S40000x1 : S40000.ShapeCasts S40000x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x1_d0_w32 : S4000x1.Iotas .tc 32 [0]
  natLt_1_32 : 1 < 32
  iota_S4000x256_d1_w32 : S4000x256.Iotas .tc 32 [1]
  broadcasts_S4000x1_S4000x256 : S4000x1.Broadcasts S4000x256
  reduces_S4000x256_S256 : S4000x256.Reduces [0] S256
  shapeCasts_S256_S1x256 : S256.ShapeCasts S1x256
  transposes_S1x256_p1_0_S256x1 : S1x256.Transposes [1, 0] S256x1
  broadcasts_S256x1_S256x128 : S256x1.Broadcasts S256x128
  inb_S128x1_S128x1_0_0 : ∀ a, (![0, 0] : Fin 2 → Nat) a + S128x1.size a ≤ S128x1.size a
  h_S128x1 : 0 < S128x1.numel
  inb_S256x1_S256x1_0_0 : ∀ a, (![0, 0] : Fin 2 → Nat) a + S256x1.size a ≤ S256x1.size a
  h_S256x1 : 0 < S256x1.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S4000x256_S4000x128_S256x128_0_0_1_1_n_n_wf : DotDims.WF S4000x256 S4000x128 S256x128 [0] [0] [1] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S40000x128.size a
  hwx0_4 : ∀ i : grid0.Coords, EltTy.bits .f32 = 32 ∨ (Rect.block (s := S40000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S40000x128.size a
  hwx1_4 : ∀ i : grid1.Coords, EltTy.bits .f32 = 32 ∨ (Rect.block (s := S40000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x1.size a ≤ S40000x1.size a
  hwx2_0 : ∀ i : grid2.Coords, EltTy.bits .i32 = 32 ∨ (Rect.block (s := S40000x1) S4000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S40000x128.size a
  hwx2_1 : ∀ i : grid2.Coords, EltTy.bits .f32 = 32 ∨ (Rect.block (s := S40000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S256x1.size a
  hwx2_3 : ∀ i : grid2.Coords, EltTy.bits .f32 = 32 ∨ (Rect.block (s := S256x1) S256x1.size (cc2_transform_3 i) (hinb2_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x256_S4000x128_S256x128_0_0_1_1_n_n : DotDims S4000x256 S4000x128 S256x128 where
  lhsContracting := [0]
  rhsContracting := [0]
  lhsNonContracting := [1]
  rhsNonContracting := [1]
  lhsBatch := []
  rhsBatch := []
  wf := dot_S4000x256_S4000x128_S256x128_0_0_1_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S256x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S256x128 : Shape := ⟨2, ![256, 128]⟩
abbrev S128x1 : Shape := ⟨2, ![128, 1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S40000x256 : Shape := ⟨2, ![40000, 256]⟩
abbrev S256 : Shape := ⟨1, ![256]⟩
abbrev S256x1 : Shape := ⟨2, ![256, 1]⟩

abbrev nBuf : Space → Nat
  | .hbm => 96
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S256x128, .f32⟩
  | .hbm, ⟨4, _⟩ => ⟨S256x128, .f32⟩
  | .hbm, ⟨5, _⟩ => ⟨S128x1, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S40000x128, .f32⟩
  | .hbm, ⟨21, _⟩ => ⟨S640000x1, .i32⟩
  | .hbm, ⟨22, _⟩ => ⟨S40000x128, .f32⟩
  | .hbm, ⟨23, _⟩ => ⟨S_, .f32⟩
  | .hbm, ⟨24, _⟩ => ⟨S640000, .f32⟩
  | .hbm, ⟨25, _⟩ => ⟨S_, .f32⟩
  | .hbm, ⟨26, _⟩ => ⟨S40000, .f32⟩
  | .hbm, ⟨27, _⟩ => ⟨S640000x1, .i32⟩
  | .hbm, ⟨28, _⟩ => ⟨S40000, .f32⟩
  | .hbm, ⟨29, _⟩ => ⟨S_, .f32⟩
  | .hbm, ⟨30, _⟩ => ⟨S40000, .f32⟩
  | .hbm, ⟨31, _⟩ => ⟨S40000, .f32⟩
  | .hbm, ⟨32, _⟩ => ⟨S40000x1, .f32⟩
  | .hbm, ⟨33, _⟩ => ⟨S40000x128, .f32⟩
  | .hbm, ⟨34, _⟩ => ⟨S40000x128, .f32⟩
  | .hbm, ⟨35, _⟩ => ⟨S40000x256, .f32⟩
  | .hbm, ⟨36, _⟩ => ⟨S40000x128, .f32⟩
  | .hbm, ⟨37, _⟩ => ⟨S_, .f32⟩
  | .hbm, ⟨38, _⟩ => ⟨S40000x128, .f32⟩
  | .hbm, ⟨39, _⟩ => ⟨S40000x128, .f32⟩
  | .hbm, ⟨40, _⟩ => ⟨S1x640000, .i32⟩
  | .hbm, ⟨41, _⟩ => ⟨S640000, .i32⟩
  | .hbm, ⟨42, _⟩ => ⟨S1x640000, .i32⟩
  | .hbm, ⟨43, _⟩ => ⟨S640000, .i32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S_, .f32⟩
  | .hbm, ⟨54, _⟩ => ⟨S40000x128, .f32⟩
  | .hbm, ⟨55, _⟩ => ⟨S640000x1, .i32⟩
  | .hbm, ⟨56, _⟩ => ⟨S40000x128, .f32⟩
  | .hbm, ⟨57, _⟩ => ⟨S_, .f32⟩
  | .hbm, ⟨58, _⟩ => ⟨S640000, .f32⟩
  | .hbm, ⟨59, _⟩ => ⟨S_, .f32⟩
  | .hbm, ⟨60, _⟩ => ⟨S40000, .f32⟩
  | .hbm, ⟨61, _⟩ => ⟨S640000x1, .i32⟩
  | .hbm, ⟨62, _⟩ => ⟨S40000, .f32⟩
  | .hbm, ⟨63, _⟩ => ⟨S_, .f32⟩
  | .hbm, ⟨64, _⟩ => ⟨S40000, .f32⟩
  | .hbm, ⟨65, _⟩ => ⟨S40000, .f32⟩
  | .hbm, ⟨66, _⟩ => ⟨S40000x1, .f32⟩
  | .hbm, ⟨67, _⟩ => ⟨S40000x128, .f32⟩
  | .hbm, ⟨68, _⟩ => ⟨S40000x128, .f32⟩
  | .hbm, ⟨69, _⟩ => ⟨S40000x256, .f32⟩
  | .hbm, ⟨70, _⟩ => ⟨S40000x128, .f32⟩
  | .hbm, ⟨71, _⟩ => ⟨S_, .f32⟩
  | .hbm, ⟨72, _⟩ => ⟨S256x128, .f32⟩
  | .hbm, ⟨73, _⟩ => ⟨S40000x1, .i32⟩
  | .hbm, ⟨74, _⟩ => ⟨S256x128, .f32⟩
  | .hbm, ⟨75, _⟩ => ⟨S_, .f32⟩
  | .hbm, ⟨76, _⟩ => ⟨S40000, .f32⟩
  | .hbm, ⟨77, _⟩ => ⟨S_, .f32⟩
  | .hbm, ⟨78, _⟩ => ⟨S256, .f32⟩
  | .hbm, ⟨79, _⟩ => ⟨S40000x1, .i32⟩
  | .hbm, ⟨80, _⟩ => ⟨S256, .f32⟩
  | .hbm, ⟨81, _⟩ => ⟨S_, .f32⟩
  | .hbm, ⟨82, _⟩ => ⟨S256, .f32⟩
  | .hbm, ⟨83, _⟩ => ⟨S256, .f32⟩
  | .hbm, ⟨84, _⟩ => ⟨S256x1, .f32⟩
  | .hbm, ⟨85, _⟩ => ⟨S256x128, .f32⟩
  | .hbm, ⟨86, _⟩ => ⟨S256x128, .f32⟩
  | .hbm, ⟨87, _⟩ => ⟨S256x1, .f32⟩
  | .hbm, ⟨88, _⟩ => ⟨S256x1, .f32⟩
  | .hbm, ⟨89, _⟩ => ⟨S256x1, .f32⟩
  | .hbm, ⟨90, _⟩ => ⟨S_, .f32⟩
  | .hbm, ⟨91, _⟩ => ⟨S256x1, .f32⟩
  | .hbm, ⟨92, _⟩ => ⟨S256x1, .f32⟩
  | .hbm, ⟨93, _⟩ => ⟨S_, .f32⟩
  | .hbm, ⟨94, _⟩ => ⟨S256x1, .f32⟩
  | .hbm, ⟨95, _⟩ => ⟨S256x1, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  concatenates_S40000x128_S40000x128_S40000x256_d1 : Shape.Concatenates [S40000x128, S40000x128] S40000x256 1
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S_S256x1 : S_.BroadcastsInDim S256x1 (![] : Fin 0 → Fin S256x1.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x256_S256x128_S40000x128_1_0_0_1_n_n_wf : DotDims.WF S40000x256 S256x128 S40000x128 [1] [0] [0] [1] [] []
  scatter_S256x128_S40000x1_S40000x128_1_0_0_1_wf : ScatterDims.WF S256x128 S40000x1 S40000x128 [1] [0] [0] 1
  scatter_S256_S40000x1_S40000_n_0_0_1_wf : ScatterDims.WF S256 S40000x1 S40000 [] [0] [0] 1
  dot_S256x128_S128x1_S256x1_1_0_0_1_n_n_wf : DotDims.WF S256x128 S128x1 S256x1 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def scatter_S256x128_S40000x1_S40000x128_1_0_0_1 : ScatterDims S256x128 S40000x1 S40000x128 where
  updateWindowDims := [1]
  insertedWindowDims := [0]
  scatterDimsToOperandDims := [0]
  indexVectorDim := 1
  wf := scatter_S256x128_S40000x1_S40000x128_1_0_0_1_wf
def scatter_S256_S40000x1_S40000_n_0_0_1 : ScatterDims S256 S40000x1 S40000 where
  updateWindowDims := []
  insertedWindowDims := [0]
  scatterDimsToOperandDims := [0]
  indexVectorDim := 1
  wf := scatter_S256_S40000x1_S40000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.K.Data01.lean ====
/-
  The two linear layers' launches (regions 0 and 1 of the program), as proof data for the pipeline library, stated at a
  parameter `V`: the TensorCore's buffer contents when the region is entered.

  Each region walks ten row tiles of 4000 rows. At a tile the body reads four whole staging buffers — the tile of the
  node features, the tile of the aggregated neighbour features, and the two 128 x 128 halves of the layer's weight —
  and stores one whole 4000 x 128 tile: the sum of the two products (region 0 then takes the maximum with zero).
  So after the body every input buffer still holds its block and the output buffer holds the body's one stored value,
  a function of the four input blocks; nothing is kept between tiles.
-/
import proofs.«425775_j85358180040740_2_alg».proof.Proof.Gen.Kernel.Launch
import proofs.«425775_j85358180040740_2_alg».proof.Proof.Gen.Kernel.Skeleton
import proofs.«425775_j85358180040740_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 -/

/-- Window `w`'s block at tile `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 4000 x 128 tile and the whole 128 x 128 weight half, as rectangles. -/
abbrev rT : Rect S4000x128 := Rect.unit (s := S4000x128) ![0, 0] S4000x128.size inb_S4000x128_S4000x128_0_0
abbrev rW : Rect S128x128 := Rect.unit (s := S128x128) ![0, 0] S128x128.size inb_S128x128_S128x128_0_0

/-- What region 0's body leaves in the output tile's buffer, from the four input blocks (features, aggregated
    features, the weight's upper half, its lower half): its one store. -/
def out0_4 (x0 x1 : Vec F S4000x128 .f32) (x2 x3 : Vec F S128x128 .f32) : Vec F S4000x128 .f32 :=
  View.canon [⟨rT, k0_pay1 (View.ld x0 rT) (View.ld x2 rW) (View.ld x1 rT) (View.ld x3 rW)⟩]

/-- The one store is of the whole tile. -/
theorem cover0_4 (p0 : Vec F S4000x128 .f32) (y : S4000x128.Idx) :
    ∃ pc ∈ ([⟨rT, p0⟩] : List (View.Piece (Elt F) S4000x128 .f32)), y ∈ pc.1.set :=
  View.cover_of_tiled [⟨rT, p0⟩] S4000x128.size (by rfl) y

/-- Region 0's proof data on core `c`: the arrays as found; after the body each input buffer at its block, the output
    buffer at the stored tile; nothing carried between tiles, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## Region 1 -/

/-- Window `w`'s block at tile `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What region 1's body leaves in the output tile's buffer, from the four input blocks: its one store. -/
def out1_4 (x0 x1 : Vec F S4000x128 .f32) (x2 x3 : Vec F S128x128 .f32) : Vec F S4000x128 .f32 :=
  View.canon [⟨rT, k1_pay1 (View.ld x0 rT) (View.ld x2 rW) (View.ld x1 rT) (View.ld x3 rW)⟩]

/-- Region 1's proof data on core `c`, as region 0's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Regions

end Cert.Kernel.Fr

end
-- ==== Proof.K.Vals.lean ====
/-
  The TensorCore's buffer contents at each boundary of the program, as a fold from the launch memory.

  The program is three host stretches and three kernel launches, alternating. A host stretch rewrites the buffers its
  operations write and leaves every other buffer alone; a launch leaves in each of its arrays what its write-backs
  leave there (an input array is never written back, so it keeps its entry contents) and every other buffer as it
  found it. So the contents at a boundary are determined by the contents at the previous one, and, starting from the
  launch memory, by the memory alone. The even-numbered contents are at a launch's exit, the odd-numbered ones at a
  launch's entry; the entry contents are what a launch's proof data are stated at.
-/
import proofs.«425775_j85358180040740_2_alg».proof.Proof.K.Data01

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Launch, first host stretch, first kernel launch -/

/-- Core `c`'s buffers at launch. -/
abbrev W0 : Dev nD → Valuation τ sig (Elt F) := fun c b => (s₀ m ρ).mem ((c : Dev nD), b)
/-- After the first host stretch: the entry of the first kernel launch. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the first launch's exit: each of its arrays at what the write-backs of all its tiles leave, every other buffer
    as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At the exit each array holds what the launch leaves in it, and every buffer that is no array of the launch holds
    what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ## Second host stretch, second kernel launch -/

/-- After the second host stretch: the entry of the second kernel launch. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At the second launch's exit: each of its arrays at what the write-backs of all its tiles leave, every other buffer
    as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Third host stretch -/

/-- After the third host stretch: the entry of the third kernel launch. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b

end Cert.Kernel.Fr

end
-- ==== Proof.K.B01.lean ====
/-
  The two linear layers' bodies meet their regions' loops.

  Each region walks ten row tiles. At a tile the loop hands the body five staging buffers: four inputs (the tile of
  features, the tile of aggregated neighbour features, the two halves of the layer's weight) and the output tile's
  buffer. The body reads the four inputs whole and stores one whole tile. Shown here, for each region and every tile:
  the inputs hold their blocks of the arrays when the body starts (whether the block was brought in at this tile or
  kept from an earlier one), and the body returns them unchanged with the output buffer at the stored tile, a function
  of the four blocks. Nothing is carried from tile to tile.
-/
import proofs.«425775_j85358180040740_2_alg».proof.Proof.K.Data01

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the first linear layer

At a row tile the body reads the tile of node features (window 0), the tile of aggregated neighbour features
(window 1) and the two 128 x 128 halves of the weight (windows 2 and 3), and writes one whole 4000 x 128 tile into
the output's buffer (window 4): the sum of the two products, then the maximum with zero. -/

/-! ### What each input buffer holds when the body starts

An input window's buffer holds its block of the array at every tile. Where the tile's block was brought in just
before, that is what a fetch puts there; where it was not (the two weight halves have one block for all ten tiles, so
they are brought in once), the block index has not moved and the body before left the buffer as it found it. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ### The body on five whole buffers -/

set_option maxHeartbeats 1000000 in
/-- The body, given the four input buffers at contents x0 (features), x1 (aggregated features), x2 and x3 (the
    weight's halves) and the output buffer at anything: it reads the four inputs whole, reads the output buffer
    (a value it does not use), and stores one whole tile. It ends with the inputs as they were and the output
    buffer at the stored tile, out0_4 x0 x1 x2 x3. The one store covers the buffer, so what the buffer reads
    afterwards is the stored value at every index. -/
theorem sound_kernel0 (c : Dev nD) (E : Set ℕ) (i : grid0.Coords)
    (arg1 : Memref sig .tc .vmem S4000x128 .f32) (harg1 : arg1.IsWhole)
    (arg2 : Memref sig .tc .vmem S4000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S4000x128 .f32) (harg5 : arg5.IsWhole)
    (x0 x1 : Vec F S4000x128 .f32) (x2 x3 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__sage_matmul_kernel i arg1 harg1 arg2 harg2 arg3 harg3 arg4 harg4 arg5 harg5) K := by
  simp only [cc0__sage_matmul_kernel_eq_skeleton]; unfold cc0__sage_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ### The body at a tile -/

/-- What the body is given at tile t: the region's invariant, the core's debts (none), and the five buffers, the
    inputs at what they hold before the body and the output at whatever it holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it gives back: the same invariant and debts, and the five buffers at what the body leaves in them. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any tile: the four input buffers hold their blocks, so the body's run on five whole buffers applies
    at those blocks; the invariant and the debts are neither read nor changed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the region's loop, at every tile. -/
theorem body_obligation0 (c : Dev nD) : BodyObligation (dat0 (F := F) V c) (defs₀ (F := F)) Variants.none () Set.univ := fun t => by
  rw [bigSep_W0, bigSep_W0]
  exact sound_body0 V c t

/-! ## Region 1: the second linear layer

The same walk over ten row tiles, on the second layer's arrays: at a tile the body reads the tile of the first
layer's output (window 0), the tile of its aggregated neighbour values (window 1) and the two 128 x 128 halves of
the second weight (windows 2 and 3), and writes one whole 4000 x 128 tile (window 4): the sum of the two products,
with no maximum taken. -/

/-! ### What each input buffer holds when the body starts -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ### The body on five whole buffers -/

set_option maxHeartbeats 1000000 in
/-- The second layer's body on the four input buffers at x0, x1, x2, x3 and the output buffer at anything: four whole
    reads, a read of the output buffer that is not used, one whole-tile store. The inputs come back as they were and
    the output buffer holds out1_4 x0 x1 x2 x3; the tile covered by the store is the whole buffer (the rectangle
    is the one of region 0, so the same covering fact serves). -/
theorem sound_kernel1 (c : Dev nD) (E : Set ℕ) (i : grid1.Coords)
    (arg1 : Memref sig .tc .vmem S4000x128 .f32) (harg1 : arg1.IsWhole)
    (arg2 : Memref sig .tc .vmem S4000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S4000x128 .f32) (harg5 : arg5.IsWhole)
    (x0 x1 : Vec F S4000x128 .f32) (x2 x3 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__sage_matmul_kernel i arg1 harg1 arg2 harg2 arg3 harg3 arg4 harg4 arg5 harg5) K := by
  simp only [cc1__sage_matmul_kernel_eq_skeleton]; unfold cc1__sage_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ### The body at a tile -/

/-- What the body is given at tile t of region 1. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any tile of region 1: the inputs hold their blocks, the run on five whole buffers applies there, the
    invariant and the debts pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the region's loop, at every tile of region 1. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.K.R2Runs.lean ====
/-
  The pooling launch (region 2): what its three runs share.

  The region walks the ten row tiles once more. It keeps two running totals between tiles, in two scratch buffers of its
  own: per graph and feature column the sum of the rows seen so far (256 x 128), and per graph the number of rows seen so
  far (1 x 256). At the first tile it first sets both to zero; at every tile it adds the tile's contribution; at the last
  tile it also divides, applies the read-out weight and the logistic function and stores the 256 answers into the output
  block, which is written back only then. So a tile falls in one of three cases — first, middle, last — decided by its
  number alone.
-/
import proofs.«425775_j85358180040740_2_alg».proof.Proof.K.Data01

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at tile `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every tile, whether the pipeline fetched it there or
    kept it from the tile before (the read-out weight's block index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## The two branch conditions -/

/-- "This is the first tile": the body's first conditional, as a chain over the tile's number. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last tile": the body's second conditional. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Before the last tile the output block is idle: nothing is stored into it and it is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last tile it is live. -/
theorem liveAt2_3 : ∀ t : Fin cfg2.N, cond2_1 (grid2.coords t) → cfg2.idle 3 (grid2.coords t) = false := by decide +kernel

/-! ## The memrefs the body is called with -/

/-- One staging buffer of the output window, through which its contents are stated. -/
abbrev VO2_3 : View sig .tc .vmem S256x1 .f32 := (Memref.whole cc2_stg3_0 : Memref sig .tc .vmem S256x1 .f32).view
abbrev ms2_0 (t : Fin cfg2.N) : Memref sig .tc .vmem S4000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1 .f32 := win2_3.stage (cfg2.slots t 3)
abbrev hs2_3 (t : Fin cfg2.N) : (ms2_3 t).IsWhole := hstage2_3 ((cfg2.slots t 3).cast nbuf2_3)
/-- The two running totals' buffers. -/
abbrev scM2_0 : Memref sig .tc .vmem S256x128 .f32 := Memref.whole cc2_scratch0
abbrev scM2_1 : Memref sig .tc .vmem S1x256 .f32 := Memref.whole cc2_scratch1
abbrev VS2_0 : View sig .tc .vmem S256x128 .f32 := scM2_0.view
abbrev VS2_1 : View sig .tc .vmem S1x256 .f32 := scM2_1.view

end Cert.Kernel.Fr

end
-- ==== Proof.K.R2RunA.lean ====
/-
  The pooling body at the FIRST tile: both running totals are set to zero, then the tile's contribution is added to
  each; the output block is left alone. The lists of stored pieces each total's buffer ends with are found by running
  the body.
-/
import proofs.«425775_j85358180040740_2_alg».proof.Proof.K.R2Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the first tile, on whole staging memrefs — the three inputs at their contents, the output block at contents
    handed back untouched, the two totals' buffers at anything — the body runs to the continuation holding the inputs and
    the output block as they were and each total's buffer with its pieces written. -/
noncomputable def kernelRun2_A (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i)
    (x0 : Vec F S4000x1 .i32) (x1 : Vec F S4000x128 .f32) (x2 : Vec F S128x1 .f32) :
    Σ' (LS0 : List (View.Piece (Elt F) S256x128 .f32)), { LS1 : List (View.Piece (Elt F) S1x256 .f32) //
      ∀ (xi3 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__pool_mlp_kernel i arg1 harg1 arg2 harg2 arg3 harg3 arg4 harg4 arg5 harg5 arg6 harg6) K } := by
  refine ⟨?_, ?_, fun xi3 E K => ?run⟩
  case run =>
    simp only [cc2__pool_mlp_kernel_eq_skeleton]; unfold cc2__pool_mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Fr

end
-- ==== Proof.K.R2RunB.lean ====
/-
  The pooling body at a MIDDLE tile: the tile's contribution is added to each running total, read at what the tile
  before left; the output block is left alone.
-/
import proofs.«425775_j85358180040740_2_alg».proof.Proof.K.R2RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a middle tile, on whole staging memrefs — the three inputs at their contents, the output block at contents handed
    back untouched, the two totals' buffers at what the tile before left (`xs0`, `xs1`) — the body runs to the
    continuation holding the inputs and the output block as they were and each total's buffer with its pieces written. -/
noncomputable def kernelRun2_B (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i)
    (x0 : Vec F S4000x1 .i32) (x1 : Vec F S4000x128 .f32) (x2 : Vec F S128x1 .f32) (xs0 : Vec F S256x128 .f32) (xs1 : Vec F S1x256 .f32) :
    Σ' (LS0 : List (View.Piece (Elt F) S256x128 .f32)), { LS1 : List (View.Piece (Elt F) S1x256 .f32) //
      ∀ (xi3 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__pool_mlp_kernel i arg1 harg1 arg2 harg2 arg3 harg3 arg4 harg4 arg5 harg5 arg6 harg6) K } := by
  refine ⟨?_, ?_, fun xi3 E K => ?run⟩
  case run =>
    simp only [cc2__pool_mlp_kernel_eq_skeleton]; unfold cc2__pool_mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Fr

end
-- ==== Proof.K.R2RunC.lean ====
/-
  The pooling body at the LAST tile: the tile's contribution is added to each running total, then the totals are read
  back, divided, multiplied with the read-out weight, passed through the logistic function and stored into the output block.
-/
import proofs.«425775_j85358180040740_2_alg».proof.Proof.K.R2RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the last tile, on whole staging memrefs — the three inputs at their contents, the output block at anything, the
    two totals' buffers at what the tile before left (`xs0`, `xs1`) — the body runs to the continuation holding the inputs
    as they were and the output block and each total's buffer with its pieces written. -/
noncomputable def kernelRun2_C (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i)
    (x0 : Vec F S4000x1 .i32) (x1 : Vec F S4000x128 .f32) (x2 : Vec F S128x1 .f32) (xs0 : Vec F S256x128 .f32) (xs1 : Vec F S1x256 .f32) :
    Σ' (L3 : List (View.Piece (Elt F) S256x1 .f32)) (LS0 : List (View.Piece (Elt F) S256x128 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__pool_mlp_kernel i arg1 harg1 arg2 harg2 arg3 harg3 arg4 harg4 arg5 harg5 arg6 harg6) K } := by
  refine ⟨?_, ?_, ?_, fun E K => ?run⟩
  case run =>
    simp only [cc2__pool_mlp_kernel_eq_skeleton]; unfold cc2__pool_mlp_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.Kernel.Fr

end
-- ==== Proof.K.R2.lean ====
/-
  The pooling launch (region 2) as proof data: what the two running totals and the output block hold after each tile,
  the invariant that carries the totals from one tile to the next, and the body's obligation at every tile.

  After tile `n` the first scratch buffer holds, per graph and feature column, the sum over the rows of tiles `0 … n`
  that belong to the graph; the second holds, per graph, the number of those rows. Both are defined here by recursion
  on the tile: the first tile's run starts them from zero, every later tile's run adds to what the tile before left.
  The output block holds the answers after the last tile; at the earlier tiles it is idle.
-/
import proofs.«425775_j85358180040740_2_alg».proof.Proof.K.R2RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- The first tile's pieces for the row-sum total cover its buffer. -/
theorem scover2_A_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i) (x0 : Vec F S4000x1 .i32) (x1 : Vec F S4000x128 .f32) (x2 : Vec F S128x1 .f32) (y : S256x128.Idx) :
    ∃ pc ∈ (kernelRun2_A (F := F) c i arg1 harg1 arg2 harg2 arg3 harg3 arg4 harg4 arg5 harg5 arg6 harg6 hc0 hc1 x0 x1 x2).1, y ∈ pc.1.set :=
  View.cover_of_tiledL (kernelRun2_A (F := F) c i arg1 harg1 arg2 harg2 arg3 harg3 arg4 harg4 arg5 harg5 arg6 harg6 hc0 hc1 x0 x1 x2).1 S256x128.size (by sl_kernel_rfl) y
/-- and for the row-count total. -/
theorem scover2_A_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i) (x0 : Vec F S4000x1 .i32) (x1 : Vec F S4000x128 .f32) (x2 : Vec F S128x1 .f32) (y : S1x256.Idx) :
    ∃ pc ∈ (kernelRun2_A (F := F) c i arg1 harg1 arg2 harg2 arg3 harg3 arg4 harg4 arg5 harg5 arg6 harg6 hc0 hc1 x0 x1 x2).2.1, y ∈ pc.1.set :=
  View.cover_of_tiledL (kernelRun2_A (F := F) c i arg1 harg1 arg2 harg2 arg3 harg3 arg4 harg4 arg5 harg5 arg6 harg6 hc0 hc1 x0 x1 x2).2.1 S1x256.size (by sl_kernel_rfl) y

/-- What the first tile leaves in the row-sum total: its pieces read back. -/
def sout2_A_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i) (x0 : Vec F S4000x1 .i32) (x1 : Vec F S4000x128 .f32) (x2 : Vec F S128x1 .f32) : Vec F S256x128 .f32 :=
  VS2_0.read (Elt F) (VS2_0.writes (Elt F) VS2_0.junk (kernelRun2_A (F := F) c i arg1 harg1 arg2 harg2 arg3 harg3 arg4 harg4 arg5 harg5 arg6 harg6 hc0 hc1 x0 x1 x2).1)
def sout2_A_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i) (x0 : Vec F S4000x1 .i32) (x1 : Vec F S4000x128 .f32) (x2 : Vec F S128x1 .f32) : Vec F S1x256 .f32 :=
  VS2_1.read (Elt F) (VS2_1.writes (Elt F) VS2_1.junk (kernelRun2_A (F := F) c i arg1 harg1 arg2 harg2 arg3 harg3 arg4 harg4 arg5 harg5 arg6 harg6 hc0 hc1 x0 x1 x2).2.1)

theorem scover2_B_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i) (x0 : Vec F S4000x1 .i32) (x1 : Vec F S4000x128 .f32) (x2 : Vec F S128x1 .f32) (xs0 : Vec F S256x128 .f32) (xs1 : Vec F S1x256 .f32) (y : S256x128.Idx) :
    ∃ pc ∈ (kernelRun2_B (F := F) c i arg1 harg1 arg2 harg2 arg3 harg3 arg4 harg4 arg5 harg5 arg6 harg6 hc0 hc1 x0 x1 x2 xs0 xs1).1, y ∈ pc.1.set :=
  View.cover_of_tiledL (kernelRun2_B (F := F) c i arg1 harg1 arg2 harg2 arg3 harg3 arg4 harg4 arg5 harg5 arg6 harg6 hc0 hc1 x0 x1 x2 xs0 xs1).1 S256x128.size (by sl_kernel_rfl) y
theorem scover2_B_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i) (x0 : Vec F S4000x1 .i32) (x1 : Vec F S4000x128 .f32) (x2 : Vec F S128x1 .f32) (xs0 : Vec F S256x128 .f32) (xs1 : Vec F S1x256 .f32) (y : S1x256.Idx) :
    ∃ pc ∈ (kernelRun2_B (F := F) c i arg1 harg1 arg2 harg2 arg3 harg3 arg4 harg4 arg5 harg5 arg6 harg6 hc0 hc1 x0 x1 x2 xs0 xs1).2.1, y ∈ pc.1.set :=
  View.cover_of_tiledL (kernelRun2_B (F := F) c i arg1 harg1 arg2 harg2 arg3 harg3 arg4 harg4 arg5 harg5 arg6 harg6 hc0 hc1 x0 x1 x2 xs0 xs1).2.1 S1x256.size (by sl_kernel_rfl) y

/-- What a middle tile leaves in the totals, over what the tile before left (`xs0`, `xs1`). -/
def sout2_B_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i) (x0 : Vec F S4000x1 .i32) (x1 : Vec F S4000x128 .f32) (x2 : Vec F S128x1 .f32) (xs0 : Vec F S256x128 .f32) (xs1 : Vec F S1x256 .f32) : Vec F S256x128 .f32 :=
  VS2_0.read (Elt F) (VS2_0.writes (Elt F) VS2_0.junk (kernelRun2_B (F := F) c i arg1 harg1 arg2 harg2 arg3 harg3 arg4 harg4 arg5 harg5 arg6 harg6 hc0 hc1 x0 x1 x2 xs0 xs1).1)
def sout2_B_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i) (x0 : Vec F S4000x1 .i32) (x1 : Vec F S4000x128 .f32) (x2 : Vec F S128x1 .f32) (xs0 : Vec F S256x128 .f32) (xs1 : Vec F S1x256 .f32) : Vec F S1x256 .f32 :=
  VS2_1.read (Elt F) (VS2_1.writes (Elt F) VS2_1.junk (kernelRun2_B (F := F) c i arg1 harg1 arg2 harg2 arg3 harg3 arg4 harg4 arg5 harg5 arg6 harg6 hc0 hc1 x0 x1 x2 xs0 xs1).2.1)

/-- The last tile's one store into the output block is of the whole block. -/
theorem cover2_C_3 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) (y : S256x1.Idx) :
    ∃ pc ∈ (kernelRun2_C (F := F) c i arg1 harg1 arg2 harg2 arg3 harg3 arg4 harg4 arg5 harg5 arg6 harg6 hc0 hc1 x0 x1 x2 xs0 xs1).1, y ∈ pc.1.set :=
  View.cover_of_tiledL (kernelRun2_C (F := F) c i arg1 harg1 arg2 harg2 arg3 harg3 arg4 harg4 arg5 harg5 arg6 harg6 hc0 hc1 x0 x1 x2 xs0 xs1).1 S256x1.size (by sl_kernel_rfl) y
theorem scover2_C_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) (y : S256x128.Idx) :
    ∃ pc ∈ (kernelRun2_C (F := F) c i arg1 harg1 arg2 harg2 arg3 harg3 arg4 harg4 arg5 harg5 arg6 harg6 hc0 hc1 x0 x1 x2 xs0 xs1).2.1, y ∈ pc.1.set :=
  View.cover_of_tiledL (kernelRun2_C (F := F) c i arg1 harg1 arg2 harg2 arg3 harg3 arg4 harg4 arg5 harg5 arg6 harg6 hc0 hc1 x0 x1 x2 xs0 xs1).2.1 S256x128.size (by sl_kernel_rfl) y
theorem scover2_C_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) (y : S1x256.Idx) :
    ∃ pc ∈ (kernelRun2_C (F := F) c i arg1 harg1 arg2 harg2 arg3 harg3 arg4 harg4 arg5 harg5 arg6 harg6 hc0 hc1 x0 x1 x2 xs0 xs1).2.2.1, y ∈ pc.1.set :=
  View.cover_of_tiledL (kernelRun2_C (F := F) c i arg1 harg1 arg2 harg2 arg3 harg3 arg4 harg4 arg5 harg5 arg6 harg6 hc0 hc1 x0 x1 x2 xs0 xs1).2.2.1 S1x256.size (by sl_kernel_rfl) y

/-- What the last tile leaves in the output block and in the totals. -/
def out2_C_3 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) : Vec F S256x1 .f32 :=
  VO2_3.read (Elt F) (VO2_3.writes (Elt F) VO2_3.junk (kernelRun2_C (F := F) c i arg1 harg1 arg2 harg2 arg3 harg3 arg4 harg4 arg5 harg5 arg6 harg6 hc0 hc1 x0 x1 x2 xs0 xs1).1)
def sout2_C_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) : Vec F S256x128 .f32 :=
  VS2_0.read (Elt F) (VS2_0.writes (Elt F) VS2_0.junk (kernelRun2_C (F := F) c i arg1 harg1 arg2 harg2 arg3 harg3 arg4 harg4 arg5 harg5 arg6 harg6 hc0 hc1 x0 x1 x2 xs0 xs1).2.1)
def sout2_C_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) : Vec F S1x256 .f32 :=
  VS2_1.read (Elt F) (VS2_1.writes (Elt F) VS2_1.junk (kernelRun2_C (F := F) c i arg1 harg1 arg2 harg2 arg3 harg3 arg4 harg4 arg5 harg5 arg6 harg6 hc0 hc1 x0 x1 x2 xs0 xs1).2.2.1)

section Regions
variable (V : (c : Dev nD) → (b : Ref sig .tc) → Buf (Elt F) ((c : Thread nD τ).loc b))

/-! ## Tile by tile -/

/-- What the output block (a placeholder before the last tile, where it is idle) and the two running totals hold after
    the body at tile `n`: the case the tile's number selects, run at the tile's memrefs and input blocks, the totals
    read at what tile `n - 1` left. -/
def outsAt2 (c : Dev nD) : (n : ℕ) → n < cfg2.N → Vec F S256x1 .f32 × Vec F S256x128 .f32 × Vec F S1x256 .f32
  | 0, hn => (VO2_3.junk,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h1 : (n + 1) % 10 = 9 then
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2)
    else
      (VO2_3.junk,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => (fun h => by (try dsimp only at h); have hN : n + 1 < 10 := lt_of_lt_of_eq hn (show cfg2.N = 10 from N_2); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => (fun h => by (try dsimp only at h); have hN : n + 1 < 10 := lt_of_lt_of_eq hn (show cfg2.N = 10 from N_2); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2)

end Regions

section Regions
variable (V : (c : Dev nD) → (b : Ref sig .tc) → Buf (Elt F) ((c : Thread nD τ).loc b))

/-- `outsAt2` at the first tile. -/
theorem outsAt2_A (c : Dev nD) (t : Fin cfg2.N) (h0 : t.val % 10 = 0) (h1 : ¬t.val % 10 = 9) :
    outsAt2 V c t.val t.isLt = (VO2_3.junk,
      sout2_A_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t),
      sout2_A_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)) := by
  obtain ⟨n, hn⟩ := t
  have hN : n < 10 := lt_of_lt_of_eq hn (show cfg2.N = 10 from N_2)
  cases n with
  | zero => exact rfl
  | succ n => exact (by exfalso; (try dsimp only at h0); omega)

/-- `outsAt2` at a middle tile: over what the tile before left. -/
theorem outsAt2_B (c : Dev nD) (t : Fin cfg2.N) (h0 : ¬t.val % 10 = 0) (h1 : ¬t.val % 10 = 9) :
    outsAt2 V c t.val t.isLt = (VO2_3.junk,
      sout2_B_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_B_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- `outsAt2` at the last tile: over what the tile before left. -/
theorem outsAt2_C (c : Dev nD) (t : Fin cfg2.N) (h0 : ¬t.val % 10 = 0) (h1 : t.val % 10 = 9) :
    outsAt2 V c t.val t.isLt = (
      out2_C_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_C_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_C_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The invariant between tiles -/

/-- The core's scoped buffers that belong to the other two launches, each whole at some contents: they ride along. -/
def Others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region, with the two totals' buffers as memrefs owned at some contents. -/
theorem PhiA2_eq (c : Dev nD) :
    (Pipeline.ΦA spec2 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ d, owns (c : Thread nD τ) scM2_0 fullShare d) ∗ (∃ d, owns (c : Thread nD τ) scM2_1 fullShare d)) ∗ (∃ r, prngReg c r)) := by
  unfold Pipeline.ΦA; rw [scopedRest2_eq]; simp only [scM2_0, scM2_1, owns_whole]; try rfl

theorem PhiA2_fwd (c : Dev nD) :
    (Pipeline.ΦA spec2 c : sProp 𝕄)
      ⊢ iprop(Others2 (F := F) c ∗ (∃ d, owns (c : Thread nD τ) scM2_0 fullShare d) ∗ (∃ d, owns (c : Thread nD τ) scM2_1 fullShare d) ∗ (∃ r, prngReg c r)) := by
  rw [PhiA2_eq]; unfold Others2
  iintro ⟨⟨H1, H2, H3, H4, H5, H6, H7, H8, H9, H10, H11, H12, H13, H14, H15, H16, HS0, HS1⟩, Hg⟩
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HS0]; · iexact HS0
  isplitl [HS1]; · iexact HS1
  iexact Hg

theorem PhiA2_bwd (c : Dev nD) :
    iprop(Others2 (F := F) c ∗ (∃ d, owns (c : Thread nD τ) scM2_0 fullShare d) ∗ (∃ d, owns (c : Thread nD τ) scM2_1 fullShare d) ∗ (∃ r, prngReg c r))
      ⊢ (Pipeline.ΦA spec2 c : sProp 𝕄) := by
  rw [PhiA2_eq]; unfold Others2
  iintro ⟨⟨H1, H2, H3, H4, H5, H6, H7, H8, H9, H10, H11, H12, H13, H14, H15, H16⟩, HS0, HS1, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    iexact HS1
  iexact Hg

/-- The region's invariant before tile `n`: before the first tile what the launch hands over (both totals' buffers at
    anything); afterwards the other launches' buffers riding along, each total's buffer at what tile `n - 1` left in it,
    and the generator register at some state. -/
def PhiS2 (c : Dev nD) : (n : ℕ) → n ≤ cfg2.N → sProp 𝕄
  | 0, _ => Pipeline.ΦA spec2 c
  | n + 1, hn => iprop(Others2 c ∗ owns (c : Thread nD τ) scM2_0 fullShare ((outsAt2 V c n hn).2.1) ∗ owns (c : Thread nD τ) scM2_1 fullShare ((outsAt2 V c n hn).2.2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(Others2 c ∗ owns (c : Thread nD τ) scM2_0 fullShare ((outsAt2 V c n hn).2.1) ∗ owns (c : Thread nD τ) scM2_1 fullShare ((outsAt2 V c n hn).2.2) ∗ (∃ r, prngReg c r)) := rfl

theorem PhiS2_pos (c : Dev nD) (n : ℕ) (h : n ≤ cfg2.N) (hz : n ≠ 0) :
    PhiS2 V c n h = iprop(Others2 c ∗ owns (c : Thread nD τ) scM2_0 fullShare ((outsAt2 V c (n - 1) (by omega)).2.1) ∗ owns (c : Thread nD τ) scM2_1 fullShare ((outsAt2 V c (n - 1) (by omega)).2.2) ∗ (∃ r, prngReg c r)) := by
  cases n with
  | zero => exact absurd rfl hz
  | succ n => rfl

/-! ## The proof data -/

/-- Region 2's proof data on core `c`: the arrays as found; after the body at tile `t` each input buffer at its block
    and the output buffer at `outsAt2`'s first component; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any tile. The input buffers hold their blocks; the tile's number says which of the three cases it is;
    the invariant hands the body the two totals' buffers at what the tile before left (at anything, at the first tile)
    and takes them back at this tile's contents; before the last tile the output block is handed back untouched, at the
    last tile it holds the answers. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h1 : t.val % 10 = 9
  · have h0 : ¬t.val % 10 = 0 := by omega
    have hz : t.val ≠ 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    rw [outsAt2_C V c t h0 h1]
    unfold out2_C_3 sout2_C_0 sout2_C_1; (try dsimp only)
    rw [PhiS2_castSucc V c t, PhiS2_pos V c _ _ hz]
    iintro ⟨⟨HO, HS0, HS1, Hg⟩, Ho, ⟨%d0, H0⟩, ⟨%d1, H1⟩, ⟨%d2, H2⟩, ⟨%d3, H3⟩⟩
    iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HO HS0 HS1 Hg]
    · isplitl [HO]; · iexact HO
      isplitl [HS0]
      · unfold owns; iexists _; isplitr
        swap; · iexact HS0
        ipureintro; exact View.read_writes_of_cover _ _ _ _ _ (scover2_C_0 c _ _ _ _ _ _ _ _ _ _ _ _ _ _ _ _ _ _ _ _)
      isplitl [HS1]
      · unfold owns; iexists _; isplitr
        swap; · iexact HS1
        ipureintro; exact View.read_writes_of_cover _ _ _ _ _ (scover2_C_1 c _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C_3 c _ _ _ _ _ _ _ _ _ _ _ _ _ _ _ _ _ _ _ _)
  · rw [Dat.leavesExact_idle (dat2 V c) 3 t (idleAt2_3 t (fun h => h1 ((hcond2_1 t).mp h))) (noFlush2_3 t (fun h => h1 ((hcond2_1 t).mp h)))]
    by_cases h0 : t.val % 10 = 0
    · have hz : t.val = 0 := by omega
      rw [outsAt2_A V c t h0 h1]
      unfold sout2_A_0 sout2_A_1; (try dsimp only)
      rw [PhiS2_castSucc V c t, PhiS2_zero V c _ _ hz]
      iintro ⟨HΦ, Ho, ⟨%d0, H0⟩, ⟨%d1, H1⟩, ⟨%d2, H2⟩, ⟨%d3, H3⟩⟩
      ihave HΦ' := (PhiA2_fwd (F := F) c) $$ HΦ
      icases HΦ' with ⟨HO, HS0, HS1, Hg⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HO HS0 HS1 Hg]
      · isplitl [HO]; · iexact HO
        isplitl [HS0]
        · unfold owns; iexists _; isplitr
          swap; · iexact HS0
          ipureintro; exact View.read_writes_of_cover _ _ _ _ _ (scover2_A_0 c _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · have hz : t.val ≠ 0 := by omega
      rw [outsAt2_B V c t h0 h1]
      unfold sout2_B_0 sout2_B_1; (try dsimp only)
      rw [PhiS2_castSucc V c t, PhiS2_pos V c _ _ hz]
      iintro ⟨⟨HO, HS0, HS1, Hg⟩, Ho, ⟨%d0, H0⟩, ⟨%d1, H1⟩, ⟨%d2, H2⟩, ⟨%d3, H3⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HO HS0 HS1 Hg]
      · isplitl [HO]; · iexact HO
        isplitl [HS0]
        · unfold owns; iexists _; isplitr
          swap; · iexact HS0
          ipureintro; exact View.read_writes_of_cover _ _ _ _ _ (scover2_B_0 c _ _ _ _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every tile. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last tile the invariant gives the launch's resources back: the totals' named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl, PhiS2_pos V c _ _ hne]
  iintro ⟨HO, HS0, HS1, Hg⟩
  iapply (PhiA2_bwd (F := F) c)
  isplitl [HO]; · iexact HO
  isplitl [HS0]; · iexists _; iexact HS0
  isplitl [HS1]; · iexists _; iexact HS1
  iexact Hg

end Regions

end Cert.Kernel.Fr

end
-- ==== Proof.K.Run.lean ====
/-
  The run of the whole program: three host stretches and three kernel launches, alternating, from the launch memory to
  the return.

  Between two items a core holds every unscoped buffer whole, at the contents the fold of the boundary contents gives,
  beside its random-generator register at some state and the record that it owes no other core anything. A host
  stretch takes the buffers from one boundary's contents to the next by running its operations; a kernel launch splits
  its arrays out of the buffers, runs its grid under its invariant, and puts the arrays back at what the write-backs
  left. Chaining the six items from the launch gives, at the return, every unscoped buffer at the last boundary's
  contents. Those contents, read at an argument's buffer, walk back through the fold to the launch memory, because no
  host operation writes an argument and no launch has an argument as an output array: this is the frame claim.
-/
import proofs.«425775_j85358180040740_2_alg».proof.Proof.K.Vals
import proofs.«425775_j85358180040740_2_alg».proof.Proof.K.B01
import proofs.«425775_j85358180040740_2_alg».proof.Proof.K.R2
import proofs.«425775_j85358180040740_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The last boundary: the third launch's exit -/

/-- At the third launch's exit: each of its arrays at what the write-backs leave (the output column is written back
    once, after the last tile), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No host operation writes an argument, and a launch that has an argument among its arrays has it as an input, which
is never written back. So the last contents at an argument's buffer are, step by step backwards, the launch memory's. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_arr m ρ c 2).trans (((dat2 (V5 m ρ) c).arrAt_in 2 rfl _).trans (A_eq2 (V5 m ρ) c 2))
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data and the thread state -/

/-- No launch has a prefetched table. -/
abbrev adm : (p : Fin 3) → (pcfgs (F := F) p).Adm := fun p => (cfgs p).toPCfg_adm
/-- Each launch's proof data, at the contents the launch is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything, so no semaphore is assigned a level. -/
abbrev L : GSem nD τ sig → Finset Unit := fun _ => ∅
abbrev lv : GSem nD τ sig → Unit → ℕ := fun _ _ => 0
/-- What a core holds beside its buffers through every item: its generator register at some state, and the record
    that it owes nothing. -/
abbrev R (c : Dev nD) : sProp 𝕄 := iprop((∃ r, prngReg c r) ∗ ∃ W, owes (c : Thread nD τ) (0 : CellTallies nD τ sig Unit) W)
/-- A host stretch as an item of the run: over the unscoped buffers from the contents `W`, with `R` beside them; it
    ends with the buffers at what its operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the record of owing nothing: every unscoped buffer at the last contents, the
    generator register at some state. -/
abbrev Tₙ (c : Dev nD) : sProp 𝕄 := iprop(StableHlo.held (c : Thread nD τ) (Pipeline.ucRefs τ sig) (W6 m ρ c) ∗ ∃ r, prngReg c r)

/-! ## The launches as items of the run -/

set_option backward.isDefEq.respectTransparency.types false in
/-- The first kernel launch over the thread state: entered with every unscoped buffer at `W1`, left with them at `W2`.
    Its arrays are split out of the unscoped buffers at entry and put back, at the exit contents, at the end; the generator
    register goes into the launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel launch over the thread state: entered with every unscoped buffer at `W3`, left with them at
    `W4`; otherwise as the first. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third kernel launch over the thread state: entered with every unscoped buffer at `W5`, left with them at `W6`,
    the last contents. Its invariant carries two accumulators from tile to tile, so it is not the plain one at every tile;
    but at the first tile it follows from the plain one (the accumulators hold anything) and at the last it gives the
    plain one back, so the entry and the exit are those of the other two launches with that step put in between. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m ρ 2 c).Φ 0 from hin2 (V5 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ Pipeline.ΦA spec2 c from hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six items, and the run -/

/-- The six items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the six items. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state each core's every unscoped buffer holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame claim at any `F`: the program runs, and every argument array ends holding its launch contents. Each
    argument's buffer is unscoped, so the run gives its final contents as the fold's last, which are the launch
    memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.Kernel.Fr

end
-- ==== Proof.KI.Data01.lean ====
/-
  The two linear layers' launches (regions 0 and 1 of the program), as proof data for the pipeline library, stated at a
  parameter `V`: the TensorCore's buffer contents when the region is entered.

  Each region walks ten row tiles of 4000 rows. At a tile the body reads four whole staging buffers — the tile of the
  node features, the tile of the aggregated neighbour features, and the two 128 x 128 halves of the layer's weight —
  and stores one whole 4000 x 128 tile: the sum of the two products (region 0 then takes the maximum with zero).
  So after the body every input buffer still holds its block and the output buffer holds the body's one stored value,
  a function of the four input blocks; nothing is kept between tiles.
-/
import proofs.«425775_j85358180040740_2_alg».proof.Proof.Gen.KernelIdeal.Launch
import proofs.«425775_j85358180040740_2_alg».proof.Proof.Gen.KernelIdeal.Skeleton
import proofs.«425775_j85358180040740_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 -/

/-- Window `w`'s block at tile `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 4000 x 128 tile and the whole 128 x 128 weight half, as rectangles. -/
abbrev rT : Rect S4000x128 := Rect.unit (s := S4000x128) ![0, 0] S4000x128.size inb_S4000x128_S4000x128_0_0
abbrev rW : Rect S128x128 := Rect.unit (s := S128x128) ![0, 0] S128x128.size inb_S128x128_S128x128_0_0

/-- What region 0's body leaves in the output tile's buffer, from the four input blocks (features, aggregated
    features, the weight's upper half, its lower half): its one store. -/
def out0_4 (x0 x1 : Vec F S4000x128 .f32) (x2 x3 : Vec F S128x128 .f32) : Vec F S4000x128 .f32 :=
  View.canon [⟨rT, k0_pay1 (View.ld x0 rT) (View.ld x2 rW) (View.ld x1 rT) (View.ld x3 rW)⟩]

/-- The one store is of the whole tile. -/
theorem cover0_4 (p0 : Vec F S4000x128 .f32) (y : S4000x128.Idx) :
    ∃ pc ∈ ([⟨rT, p0⟩] : List (View.Piece (Elt F) S4000x128 .f32)), y ∈ pc.1.set :=
  View.cover_of_tiled [⟨rT, p0⟩] S4000x128.size (by rfl) y

/-- Region 0's proof data on core `c`: the arrays as found; after the body each input buffer at its block, the output
    buffer at the stored tile; nothing carried between tiles, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## Region 1 -/

/-- Window `w`'s block at tile `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What region 1's body leaves in the output tile's buffer, from the four input blocks: its one store. -/
def out1_4 (x0 x1 : Vec F S4000x128 .f32) (x2 x3 : Vec F S128x128 .f32) : Vec F S4000x128 .f32 :=
  View.canon [⟨rT, k1_pay1 (View.ld x0 rT) (View.ld x2 rW) (View.ld x1 rT) (View.ld x3 rW)⟩]

/-- Region 1's proof data on core `c`, as region 0's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Regions

end Cert.KernelIdeal.Fr

end
-- ==== Proof.KI.Vals.lean ====
/-
  The TensorCore's buffer contents at each boundary of the program, as a fold from the launch memory.

  The program is three host stretches and three kernel launches, alternating. A host stretch rewrites the buffers its
  operations write and leaves every other buffer alone; a launch leaves in each of its arrays what its write-backs
  leave there (an input array is never written back, so it keeps its entry contents) and every other buffer as it
  found it. So the contents at a boundary are determined by the contents at the previous one, and, starting from the
  launch memory, by the memory alone. The even-numbered contents are at a launch's exit, the odd-numbered ones at a
  launch's entry; the entry contents are what a launch's proof data are stated at.
-/
import proofs.«425775_j85358180040740_2_alg».proof.Proof.KI.Data01

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Launch, first host stretch, first kernel launch -/

/-- Core `c`'s buffers at launch. -/
abbrev W0 : Dev nD → Valuation τ sig (Elt F) := fun c b => (s₀ m ρ).mem ((c : Dev nD), b)
/-- After the first host stretch: the entry of the first kernel launch. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the first launch's exit: each of its arrays at what the write-backs of all its tiles leave, every other buffer
    as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At the exit each array holds what the launch leaves in it, and every buffer that is no array of the launch holds
    what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ## Second host stretch, second kernel launch -/

/-- After the second host stretch: the entry of the second kernel launch. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At the second launch's exit: each of its arrays at what the write-backs of all its tiles leave, every other buffer
    as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Third host stretch -/

/-- After the third host stretch: the entry of the third kernel launch. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b

end Cert.KernelIdeal.Fr

end
-- ==== Proof.KI.B01.lean ====
/-
  The two linear layers' bodies meet their regions' loops.

  Each region walks ten row tiles. At a tile the loop hands the body five staging buffers: four inputs (the tile of
  features, the tile of aggregated neighbour features, the two halves of the layer's weight) and the output tile's
  buffer. The body reads the four inputs whole and stores one whole tile. Shown here, for each region and every tile:
  the inputs hold their blocks of the arrays when the body starts (whether the block was brought in at this tile or
  kept from an earlier one), and the body returns them unchanged with the output buffer at the stored tile, a function
  of the four blocks. Nothing is carried from tile to tile.
-/
import proofs.«425775_j85358180040740_2_alg».proof.Proof.KI.Data01

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the first linear layer

At a row tile the body reads the tile of node features (window 0), the tile of aggregated neighbour features
(window 1) and the two 128 x 128 halves of the weight (windows 2 and 3), and writes one whole 4000 x 128 tile into
the output's buffer (window 4): the sum of the two products, then the maximum with zero. -/

/-! ### What each input buffer holds when the body starts

An input window's buffer holds its block of the array at every tile. Where the tile's block was brought in just
before, that is what a fetch puts there; where it was not (the two weight halves have one block for all ten tiles, so
they are brought in once), the block index has not moved and the body before left the buffer as it found it. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ### The body on five whole buffers -/

set_option maxHeartbeats 1000000 in
/-- The body, given the four input buffers at contents x0 (features), x1 (aggregated features), x2 and x3 (the
    weight's halves) and the output buffer at anything: it reads the four inputs whole, reads the output buffer
    (a value it does not use), and stores one whole tile. It ends with the inputs as they were and the output
    buffer at the stored tile, out0_4 x0 x1 x2 x3. The one store covers the buffer, so what the buffer reads
    afterwards is the stored value at every index. -/
theorem sound_kernel0 (c : Dev nD) (E : Set ℕ) (i : grid0.Coords)
    (arg1 : Memref sig .tc .vmem S4000x128 .f32) (harg1 : arg1.IsWhole)
    (arg2 : Memref sig .tc .vmem S4000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S4000x128 .f32) (harg5 : arg5.IsWhole)
    (x0 x1 : Vec F S4000x128 .f32) (x2 x3 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__sage_matmul_kernel i arg1 harg1 arg2 harg2 arg3 harg3 arg4 harg4 arg5 harg5) K := by
  simp only [cc0__sage_matmul_kernel_eq_skeleton]; unfold cc0__sage_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ### The body at a tile -/

/-- What the body is given at tile t: the region's invariant, the core's debts (none), and the five buffers, the
    inputs at what they hold before the body and the output at whatever it holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it gives back: the same invariant and debts, and the five buffers at what the body leaves in them. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any tile: the four input buffers hold their blocks, so the body's run on five whole buffers applies
    at those blocks; the invariant and the debts are neither read nor changed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the region's loop, at every tile. -/
theorem body_obligation0 (c : Dev nD) : BodyObligation (dat0 (F := F) V c) (defs₀ (F := F)) Variants.none () Set.univ := fun t => by
  rw [bigSep_W0, bigSep_W0]
  exact sound_body0 V c t

/-! ## Region 1: the second linear layer

The same walk over ten row tiles, on the second layer's arrays: at a tile the body reads the tile of the first
layer's output (window 0), the tile of its aggregated neighbour values (window 1) and the two 128 x 128 halves of
the second weight (windows 2 and 3), and writes one whole 4000 x 128 tile (window 4): the sum of the two products,
with no maximum taken. -/

/-! ### What each input buffer holds when the body starts -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ### The body on five whole buffers -/

set_option maxHeartbeats 1000000 in
/-- The second layer's body on the four input buffers at x0, x1, x2, x3 and the output buffer at anything: four whole
    reads, a read of the output buffer that is not used, one whole-tile store. The inputs come back as they were and
    the output buffer holds out1_4 x0 x1 x2 x3; the tile covered by the store is the whole buffer (the rectangle
    is the one of region 0, so the same covering fact serves). -/
theorem sound_kernel1 (c : Dev nD) (E : Set ℕ) (i : grid1.Coords)
    (arg1 : Memref sig .tc .vmem S4000x128 .f32) (harg1 : arg1.IsWhole)
    (arg2 : Memref sig .tc .vmem S4000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S4000x128 .f32) (harg5 : arg5.IsWhole)
    (x0 x1 : Vec F S4000x128 .f32) (x2 x3 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__sage_matmul_kernel i arg1 harg1 arg2 harg2 arg3 harg3 arg4 harg4 arg5 harg5) K := by
  simp only [cc1__sage_matmul_kernel_eq_skeleton]; unfold cc1__sage_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ### The body at a tile -/

/-- What the body is given at tile t of region 1. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any tile of region 1: the inputs hold their blocks, the run on five whole buffers applies there, the
    invariant and the debts pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the region's loop, at every tile of region 1. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.KI.R2Runs.lean ====
/-
  The pooling launch (region 2): what its three runs share.

  The region walks the ten row tiles once more. It keeps two running totals between tiles, in two scratch buffers of its
  own: per graph and feature column the sum of the rows seen so far (256 x 128), and per graph the number of rows seen so
  far (1 x 256). At the first tile it first sets both to zero; at every tile it adds the tile's contribution; at the last
  tile it also divides, applies the read-out weight and the logistic function and stores the 256 answers into the output
  block, which is written back only then. So a tile falls in one of three cases — first, middle, last — decided by its
  number alone.
-/
import proofs.«425775_j85358180040740_2_alg».proof.Proof.KI.Data01

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at tile `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every tile, whether the pipeline fetched it there or
    kept it from the tile before (the read-out weight's block index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## The two branch conditions -/

/-- "This is the first tile": the body's first conditional, as a chain over the tile's number. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last tile": the body's second conditional. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Before the last tile the output block is idle: nothing is stored into it and it is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last tile it is live. -/
theorem liveAt2_3 : ∀ t : Fin cfg2.N, cond2_1 (grid2.coords t) → cfg2.idle 3 (grid2.coords t) = false := by decide +kernel

/-! ## The memrefs the body is called with -/

/-- One staging buffer of the output window, through which its contents are stated. -/
abbrev VO2_3 : View sig .tc .vmem S256x1 .f32 := (Memref.whole cc2_stg3_0 : Memref sig .tc .vmem S256x1 .f32).view
abbrev ms2_0 (t : Fin cfg2.N) : Memref sig .tc .vmem S4000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1 .f32 := win2_3.stage (cfg2.slots t 3)
abbrev hs2_3 (t : Fin cfg2.N) : (ms2_3 t).IsWhole := hstage2_3 ((cfg2.slots t 3).cast nbuf2_3)
/-- The two running totals' buffers. -/
abbrev scM2_0 : Memref sig .tc .vmem S256x128 .f32 := Memref.whole cc2_scratch0
abbrev scM2_1 : Memref sig .tc .vmem S1x256 .f32 := Memref.whole cc2_scratch1
abbrev VS2_0 : View sig .tc .vmem S256x128 .f32 := scM2_0.view
abbrev VS2_1 : View sig .tc .vmem S1x256 .f32 := scM2_1.view

end Cert.KernelIdeal.Fr

end
-- ==== Proof.KI.R2RunA.lean ====
/-
  The pooling body at the FIRST tile: both running totals are set to zero, then the tile's contribution is added to
  each; the output block is left alone. The lists of stored pieces each total's buffer ends with are found by running
  the body.
-/
import proofs.«425775_j85358180040740_2_alg».proof.Proof.KI.R2Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At the first tile, on whole staging memrefs — the three inputs at their contents, the output block at contents
    handed back untouched, the two totals' buffers at anything — the body runs to the continuation holding the inputs and
    the output block as they were and each total's buffer with its pieces written. -/
noncomputable def kernelRun2_A (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i)
    (x0 : Vec F S4000x1 .i32) (x1 : Vec F S4000x128 .f32) (x2 : Vec F S128x1 .f32) :
    Σ' (LS0 : List (View.Piece (Elt F) S256x128 .f32)), { LS1 : List (View.Piece (Elt F) S1x256 .f32) //
      ∀ (xi3 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__pool_mlp_kernel i arg1 harg1 arg2 harg2 arg3 harg3 arg4 harg4 arg5 harg5 arg6 harg6) K } := by
  refine ⟨?_, ?_, fun xi3 E K => ?run⟩
  case run =>
    simp only [cc2__pool_mlp_kernel_eq_skeleton]; unfold cc2__pool_mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Fr

end
-- ==== Proof.KI.R2RunB.lean ====
/-
  The pooling body at a MIDDLE tile: the tile's contribution is added to each running total, read at what the tile
  before left; the output block is left alone.
-/
import proofs.«425775_j85358180040740_2_alg».proof.Proof.KI.R2RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a middle tile, on whole staging memrefs — the three inputs at their contents, the output block at contents handed
    back untouched, the two totals' buffers at what the tile before left (`xs0`, `xs1`) — the body runs to the
    continuation holding the inputs and the output block as they were and each total's buffer with its pieces written. -/
noncomputable def kernelRun2_B (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i)
    (x0 : Vec F S4000x1 .i32) (x1 : Vec F S4000x128 .f32) (x2 : Vec F S128x1 .f32) (xs0 : Vec F S256x128 .f32) (xs1 : Vec F S1x256 .f32) :
    Σ' (LS0 : List (View.Piece (Elt F) S256x128 .f32)), { LS1 : List (View.Piece (Elt F) S1x256 .f32) //
      ∀ (xi3 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__pool_mlp_kernel i arg1 harg1 arg2 harg2 arg3 harg3 arg4 harg4 arg5 harg5 arg6 harg6) K } := by
  refine ⟨?_, ?_, fun xi3 E K => ?run⟩
  case run =>
    simp only [cc2__pool_mlp_kernel_eq_skeleton]; unfold cc2__pool_mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Fr

end
-- ==== Proof.KI.R2RunC.lean ====
/-
  The pooling body at the LAST tile: the tile's contribution is added to each running total, then the totals are read
  back, divided, multiplied with the read-out weight, passed through the logistic function and stored into the output block.
-/
import proofs.«425775_j85358180040740_2_alg».proof.Proof.KI.R2RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At the last tile, on whole staging memrefs — the three inputs at their contents, the output block at anything, the
    two totals' buffers at what the tile before left (`xs0`, `xs1`) — the body runs to the continuation holding the inputs
    as they were and the output block and each total's buffer with its pieces written. -/
noncomputable def kernelRun2_C (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i)
    (x0 : Vec F S4000x1 .i32) (x1 : Vec F S4000x128 .f32) (x2 : Vec F S128x1 .f32) (xs0 : Vec F S256x128 .f32) (xs1 : Vec F S1x256 .f32) :
    Σ' (L3 : List (View.Piece (Elt F) S256x1 .f32)) (LS0 : List (View.Piece (Elt F) S256x128 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__pool_mlp_kernel i arg1 harg1 arg2 harg2 arg3 harg3 arg4 harg4 arg5 harg5 arg6 harg6) K } := by
  refine ⟨?_, ?_, ?_, fun E K => ?run⟩
  case run =>
    simp only [cc2__pool_mlp_kernel_eq_skeleton]; unfold cc2__pool_mlp_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.KernelIdeal.Fr

end
-- ==== Proof.KI.R2.lean ====
/-
  The pooling launch (region 2) as proof data: what the two running totals and the output block hold after each tile,
  the invariant that carries the totals from one tile to the next, and the body's obligation at every tile.

  After tile `n` the first scratch buffer holds, per graph and feature column, the sum over the rows of tiles `0 … n`
  that belong to the graph; the second holds, per graph, the number of those rows. Both are defined here by recursion
  on the tile: the first tile's run starts them from zero, every later tile's run adds to what the tile before left.
  The output block holds the answers after the last tile; at the earlier tiles it is idle.
-/
import proofs.«425775_j85358180040740_2_alg».proof.Proof.KI.R2RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- The first tile's pieces for the row-sum total cover its buffer. -/
theorem scover2_A_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i) (x0 : Vec F S4000x1 .i32) (x1 : Vec F S4000x128 .f32) (x2 : Vec F S128x1 .f32) (y : S256x128.Idx) :
    ∃ pc ∈ (kernelRun2_A (F := F) c i arg1 harg1 arg2 harg2 arg3 harg3 arg4 harg4 arg5 harg5 arg6 harg6 hc0 hc1 x0 x1 x2).1, y ∈ pc.1.set :=
  View.cover_of_tiledL (kernelRun2_A (F := F) c i arg1 harg1 arg2 harg2 arg3 harg3 arg4 harg4 arg5 harg5 arg6 harg6 hc0 hc1 x0 x1 x2).1 S256x128.size (by sl_kernel_rfl) y
/-- and for the row-count total. -/
theorem scover2_A_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i) (x0 : Vec F S4000x1 .i32) (x1 : Vec F S4000x128 .f32) (x2 : Vec F S128x1 .f32) (y : S1x256.Idx) :
    ∃ pc ∈ (kernelRun2_A (F := F) c i arg1 harg1 arg2 harg2 arg3 harg3 arg4 harg4 arg5 harg5 arg6 harg6 hc0 hc1 x0 x1 x2).2.1, y ∈ pc.1.set :=
  View.cover_of_tiledL (kernelRun2_A (F := F) c i arg1 harg1 arg2 harg2 arg3 harg3 arg4 harg4 arg5 harg5 arg6 harg6 hc0 hc1 x0 x1 x2).2.1 S1x256.size (by sl_kernel_rfl) y

/-- What the first tile leaves in the row-sum total: its pieces read back. -/
def sout2_A_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i) (x0 : Vec F S4000x1 .i32) (x1 : Vec F S4000x128 .f32) (x2 : Vec F S128x1 .f32) : Vec F S256x128 .f32 :=
  VS2_0.read (Elt F) (VS2_0.writes (Elt F) VS2_0.junk (kernelRun2_A (F := F) c i arg1 harg1 arg2 harg2 arg3 harg3 arg4 harg4 arg5 harg5 arg6 harg6 hc0 hc1 x0 x1 x2).1)
def sout2_A_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i) (x0 : Vec F S4000x1 .i32) (x1 : Vec F S4000x128 .f32) (x2 : Vec F S128x1 .f32) : Vec F S1x256 .f32 :=
  VS2_1.read (Elt F) (VS2_1.writes (Elt F) VS2_1.junk (kernelRun2_A (F := F) c i arg1 harg1 arg2 harg2 arg3 harg3 arg4 harg4 arg5 harg5 arg6 harg6 hc0 hc1 x0 x1 x2).2.1)

theorem scover2_B_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i) (x0 : Vec F S4000x1 .i32) (x1 : Vec F S4000x128 .f32) (x2 : Vec F S128x1 .f32) (xs0 : Vec F S256x128 .f32) (xs1 : Vec F S1x256 .f32) (y : S256x128.Idx) :
    ∃ pc ∈ (kernelRun2_B (F := F) c i arg1 harg1 arg2 harg2 arg3 harg3 arg4 harg4 arg5 harg5 arg6 harg6 hc0 hc1 x0 x1 x2 xs0 xs1).1, y ∈ pc.1.set :=
  View.cover_of_tiledL (kernelRun2_B (F := F) c i arg1 harg1 arg2 harg2 arg3 harg3 arg4 harg4 arg5 harg5 arg6 harg6 hc0 hc1 x0 x1 x2 xs0 xs1).1 S256x128.size (by sl_kernel_rfl) y
theorem scover2_B_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i) (x0 : Vec F S4000x1 .i32) (x1 : Vec F S4000x128 .f32) (x2 : Vec F S128x1 .f32) (xs0 : Vec F S256x128 .f32) (xs1 : Vec F S1x256 .f32) (y : S1x256.Idx) :
    ∃ pc ∈ (kernelRun2_B (F := F) c i arg1 harg1 arg2 harg2 arg3 harg3 arg4 harg4 arg5 harg5 arg6 harg6 hc0 hc1 x0 x1 x2 xs0 xs1).2.1, y ∈ pc.1.set :=
  View.cover_of_tiledL (kernelRun2_B (F := F) c i arg1 harg1 arg2 harg2 arg3 harg3 arg4 harg4 arg5 harg5 arg6 harg6 hc0 hc1 x0 x1 x2 xs0 xs1).2.1 S1x256.size (by sl_kernel_rfl) y

/-- What a middle tile leaves in the totals, over what the tile before left (`xs0`, `xs1`). -/
def sout2_B_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i) (x0 : Vec F S4000x1 .i32) (x1 : Vec F S4000x128 .f32) (x2 : Vec F S128x1 .f32) (xs0 : Vec F S256x128 .f32) (xs1 : Vec F S1x256 .f32) : Vec F S256x128 .f32 :=
  VS2_0.read (Elt F) (VS2_0.writes (Elt F) VS2_0.junk (kernelRun2_B (F := F) c i arg1 harg1 arg2 harg2 arg3 harg3 arg4 harg4 arg5 harg5 arg6 harg6 hc0 hc1 x0 x1 x2 xs0 xs1).1)
def sout2_B_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i) (x0 : Vec F S4000x1 .i32) (x1 : Vec F S4000x128 .f32) (x2 : Vec F S128x1 .f32) (xs0 : Vec F S256x128 .f32) (xs1 : Vec F S1x256 .f32) : Vec F S1x256 .f32 :=
  VS2_1.read (Elt F) (VS2_1.writes (Elt F) VS2_1.junk (kernelRun2_B (F := F) c i arg1 harg1 arg2 harg2 arg3 harg3 arg4 harg4 arg5 harg5 arg6 harg6 hc0 hc1 x0 x1 x2 xs0 xs1).2.1)

/-- The last tile's one store into the output block is of the whole block. -/
theorem cover2_C_3 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) (y : S256x1.Idx) :
    ∃ pc ∈ (kernelRun2_C (F := F) c i arg1 harg1 arg2 harg2 arg3 harg3 arg4 harg4 arg5 harg5 arg6 harg6 hc0 hc1 x0 x1 x2 xs0 xs1).1, y ∈ pc.1.set :=
  View.cover_of_tiledL (kernelRun2_C (F := F) c i arg1 harg1 arg2 harg2 arg3 harg3 arg4 harg4 arg5 harg5 arg6 harg6 hc0 hc1 x0 x1 x2 xs0 xs1).1 S256x1.size (by sl_kernel_rfl) y
theorem scover2_C_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) (y : S256x128.Idx) :
    ∃ pc ∈ (kernelRun2_C (F := F) c i arg1 harg1 arg2 harg2 arg3 harg3 arg4 harg4 arg5 harg5 arg6 harg6 hc0 hc1 x0 x1 x2 xs0 xs1).2.1, y ∈ pc.1.set :=
  View.cover_of_tiledL (kernelRun2_C (F := F) c i arg1 harg1 arg2 harg2 arg3 harg3 arg4 harg4 arg5 harg5 arg6 harg6 hc0 hc1 x0 x1 x2 xs0 xs1).2.1 S256x128.size (by sl_kernel_rfl) y
theorem scover2_C_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) (y : S1x256.Idx) :
    ∃ pc ∈ (kernelRun2_C (F := F) c i arg1 harg1 arg2 harg2 arg3 harg3 arg4 harg4 arg5 harg5 arg6 harg6 hc0 hc1 x0 x1 x2 xs0 xs1).2.2.1, y ∈ pc.1.set :=
  View.cover_of_tiledL (kernelRun2_C (F := F) c i arg1 harg1 arg2 harg2 arg3 harg3 arg4 harg4 arg5 harg5 arg6 harg6 hc0 hc1 x0 x1 x2 xs0 xs1).2.2.1 S1x256.size (by sl_kernel_rfl) y

/-- What the last tile leaves in the output block and in the totals. -/
def out2_C_3 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) : Vec F S256x1 .f32 :=
  VO2_3.read (Elt F) (VO2_3.writes (Elt F) VO2_3.junk (kernelRun2_C (F := F) c i arg1 harg1 arg2 harg2 arg3 harg3 arg4 harg4 arg5 harg5 arg6 harg6 hc0 hc1 x0 x1 x2 xs0 xs1).1)
def sout2_C_0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) : Vec F S256x128 .f32 :=
  VS2_0.read (Elt F) (VS2_0.writes (Elt F) VS2_0.junk (kernelRun2_C (F := F) c i arg1 harg1 arg2 harg2 arg3 harg3 arg4 harg4 arg5 harg5 arg6 harg6 hc0 hc1 x0 x1 x2 xs0 xs1).2.1)
def sout2_C_1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) : Vec F S1x256 .f32 :=
  VS2_1.read (Elt F) (VS2_1.writes (Elt F) VS2_1.junk (kernelRun2_C (F := F) c i arg1 harg1 arg2 harg2 arg3 harg3 arg4 harg4 arg5 harg5 arg6 harg6 hc0 hc1 x0 x1 x2 xs0 xs1).2.2.1)

section Regions
variable (V : (c : Dev nD) → (b : Ref sig .tc) → Buf (Elt F) ((c : Thread nD τ).loc b))

/-! ## Tile by tile -/

/-- What the output block (a placeholder before the last tile, where it is idle) and the two running totals hold after
    the body at tile `n`: the case the tile's number selects, run at the tile's memrefs and input blocks, the totals
    read at what tile `n - 1` left. -/
def outsAt2 (c : Dev nD) : (n : ℕ) → n < cfg2.N → Vec F S256x1 .f32 × Vec F S256x128 .f32 × Vec F S1x256 .f32
  | 0, hn => (VO2_3.junk,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h1 : (n + 1) % 10 = 9 then
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2)
    else
      (VO2_3.junk,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => (fun h => by (try dsimp only at h); have hN : n + 1 < 10 := lt_of_lt_of_eq hn (show cfg2.N = 10 from N_2); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => (fun h => by (try dsimp only at h); have hN : n + 1 < 10 := lt_of_lt_of_eq hn (show cfg2.N = 10 from N_2); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2)

end Regions

section Regions
variable (V : (c : Dev nD) → (b : Ref sig .tc) → Buf (Elt F) ((c : Thread nD τ).loc b))

/-- `outsAt2` at the first tile. -/
theorem outsAt2_A (c : Dev nD) (t : Fin cfg2.N) (h0 : t.val % 10 = 0) (h1 : ¬t.val % 10 = 9) :
    outsAt2 V c t.val t.isLt = (VO2_3.junk,
      sout2_A_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t),
      sout2_A_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)) := by
  obtain ⟨n, hn⟩ := t
  have hN : n < 10 := lt_of_lt_of_eq hn (show cfg2.N = 10 from N_2)
  cases n with
  | zero => exact rfl
  | succ n => exact (by exfalso; (try dsimp only at h0); omega)

/-- `outsAt2` at a middle tile: over what the tile before left. -/
theorem outsAt2_B (c : Dev nD) (t : Fin cfg2.N) (h0 : ¬t.val % 10 = 0) (h1 : ¬t.val % 10 = 9) :
    outsAt2 V c t.val t.isLt = (VO2_3.junk,
      sout2_B_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_B_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- `outsAt2` at the last tile: over what the tile before left. -/
theorem outsAt2_C (c : Dev nD) (t : Fin cfg2.N) (h0 : ¬t.val % 10 = 0) (h1 : t.val % 10 = 9) :
    outsAt2 V c t.val t.isLt = (
      out2_C_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_C_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_C_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The invariant between tiles -/

/-- The core's scoped buffers that belong to the other two launches, each whole at some contents: they ride along. -/
def Others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region, with the two totals' buffers as memrefs owned at some contents. -/
theorem PhiA2_eq (c : Dev nD) :
    (Pipeline.ΦA spec2 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ d, owns (c : Thread nD τ) scM2_0 fullShare d) ∗ (∃ d, owns (c : Thread nD τ) scM2_1 fullShare d)) ∗ (∃ r, prngReg c r)) := by
  unfold Pipeline.ΦA; rw [scopedRest2_eq]; simp only [scM2_0, scM2_1, owns_whole]; try rfl

theorem PhiA2_fwd (c : Dev nD) :
    (Pipeline.ΦA spec2 c : sProp 𝕄)
      ⊢ iprop(Others2 (F := F) c ∗ (∃ d, owns (c : Thread nD τ) scM2_0 fullShare d) ∗ (∃ d, owns (c : Thread nD τ) scM2_1 fullShare d) ∗ (∃ r, prngReg c r)) := by
  rw [PhiA2_eq]; unfold Others2
  iintro ⟨⟨H1, H2, H3, H4, H5, H6, H7, H8, H9, H10, H11, H12, H13, H14, H15, H16, HS0, HS1⟩, Hg⟩
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HS0]; · iexact HS0
  isplitl [HS1]; · iexact HS1
  iexact Hg

theorem PhiA2_bwd (c : Dev nD) :
    iprop(Others2 (F := F) c ∗ (∃ d, owns (c : Thread nD τ) scM2_0 fullShare d) ∗ (∃ d, owns (c : Thread nD τ) scM2_1 fullShare d) ∗ (∃ r, prngReg c r))
      ⊢ (Pipeline.ΦA spec2 c : sProp 𝕄) := by
  rw [PhiA2_eq]; unfold Others2
  iintro ⟨⟨H1, H2, H3, H4, H5, H6, H7, H8, H9, H10, H11, H12, H13, H14, H15, H16⟩, HS0, HS1, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    iexact HS1
  iexact Hg

/-- The region's invariant before tile `n`: before the first tile what the launch hands over (both totals' buffers at
    anything); afterwards the other launches' buffers riding along, each total's buffer at what tile `n - 1` left in it,
    and the generator register at some state. -/
def PhiS2 (c : Dev nD) : (n : ℕ) → n ≤ cfg2.N → sProp 𝕄
  | 0, _ => Pipeline.ΦA spec2 c
  | n + 1, hn => iprop(Others2 c ∗ owns (c : Thread nD τ) scM2_0 fullShare ((outsAt2 V c n hn).2.1) ∗ owns (c : Thread nD τ) scM2_1 fullShare ((outsAt2 V c n hn).2.2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(Others2 c ∗ owns (c : Thread nD τ) scM2_0 fullShare ((outsAt2 V c n hn).2.1) ∗ owns (c : Thread nD τ) scM2_1 fullShare ((outsAt2 V c n hn).2.2) ∗ (∃ r, prngReg c r)) := rfl

theorem PhiS2_pos (c : Dev nD) (n : ℕ) (h : n ≤ cfg2.N) (hz : n ≠ 0) :
    PhiS2 V c n h = iprop(Others2 c ∗ owns (c : Thread nD τ) scM2_0 fullShare ((outsAt2 V c (n - 1) (by omega)).2.1) ∗ owns (c : Thread nD τ) scM2_1 fullShare ((outsAt2 V c (n - 1) (by omega)).2.2) ∗ (∃ r, prngReg c r)) := by
  cases n with
  | zero => exact absurd rfl hz
  | succ n => rfl

/-! ## The proof data -/

/-- Region 2's proof data on core `c`: the arrays as found; after the body at tile `t` each input buffer at its block
    and the output buffer at `outsAt2`'s first component; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any tile. The input buffers hold their blocks; the tile's number says which of the three cases it is;
    the invariant hands the body the two totals' buffers at what the tile before left (at anything, at the first tile)
    and takes them back at this tile's contents; before the last tile the output block is handed back untouched, at the
    last tile it holds the answers. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h1 : t.val % 10 = 9
  · have h0 : ¬t.val % 10 = 0 := by omega
    have hz : t.val ≠ 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    rw [outsAt2_C V c t h0 h1]
    unfold out2_C_3 sout2_C_0 sout2_C_1; (try dsimp only)
    rw [PhiS2_castSucc V c t, PhiS2_pos V c _ _ hz]
    iintro ⟨⟨HO, HS0, HS1, Hg⟩, Ho, ⟨%d0, H0⟩, ⟨%d1, H1⟩, ⟨%d2, H2⟩, ⟨%d3, H3⟩⟩
    iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HO HS0 HS1 Hg]
    · isplitl [HO]; · iexact HO
      isplitl [HS0]
      · unfold owns; iexists _; isplitr
        swap; · iexact HS0
        ipureintro; exact View.read_writes_of_cover _ _ _ _ _ (scover2_C_0 c _ _ _ _ _ _ _ _ _ _ _ _ _ _ _ _ _ _ _ _)
      isplitl [HS1]
      · unfold owns; iexists _; isplitr
        swap; · iexact HS1
        ipureintro; exact View.read_writes_of_cover _ _ _ _ _ (scover2_C_1 c _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C_3 c _ _ _ _ _ _ _ _ _ _ _ _ _ _ _ _ _ _ _ _)
  · rw [Dat.leavesExact_idle (dat2 V c) 3 t (idleAt2_3 t (fun h => h1 ((hcond2_1 t).mp h))) (noFlush2_3 t (fun h => h1 ((hcond2_1 t).mp h)))]
    by_cases h0 : t.val % 10 = 0
    · have hz : t.val = 0 := by omega
      rw [outsAt2_A V c t h0 h1]
      unfold sout2_A_0 sout2_A_1; (try dsimp only)
      rw [PhiS2_castSucc V c t, PhiS2_zero V c _ _ hz]
      iintro ⟨HΦ, Ho, ⟨%d0, H0⟩, ⟨%d1, H1⟩, ⟨%d2, H2⟩, ⟨%d3, H3⟩⟩
      ihave HΦ' := (PhiA2_fwd (F := F) c) $$ HΦ
      icases HΦ' with ⟨HO, HS0, HS1, Hg⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HO HS0 HS1 Hg]
      · isplitl [HO]; · iexact HO
        isplitl [HS0]
        · unfold owns; iexists _; isplitr
          swap; · iexact HS0
          ipureintro; exact View.read_writes_of_cover _ _ _ _ _ (scover2_A_0 c _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · have hz : t.val ≠ 0 := by omega
      rw [outsAt2_B V c t h0 h1]
      unfold sout2_B_0 sout2_B_1; (try dsimp only)
      rw [PhiS2_castSucc V c t, PhiS2_pos V c _ _ hz]
      iintro ⟨⟨HO, HS0, HS1, Hg⟩, Ho, ⟨%d0, H0⟩, ⟨%d1, H1⟩, ⟨%d2, H2⟩, ⟨%d3, H3⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HO HS0 HS1 Hg]
      · isplitl [HO]; · iexact HO
        isplitl [HS0]
        · unfold owns; iexists _; isplitr
          swap; · iexact HS0
          ipureintro; exact View.read_writes_of_cover _ _ _ _ _ (scover2_B_0 c _ _ _ _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every tile. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last tile the invariant gives the launch's resources back: the totals' named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl, PhiS2_pos V c _ _ hne]
  iintro ⟨HO, HS0, HS1, Hg⟩
  iapply (PhiA2_bwd (F := F) c)
  isplitl [HO]; · iexact HO
  isplitl [HS0]; · iexists _; iexact HS0
  isplitl [HS1]; · iexists _; iexact HS1
  iexact Hg

end Regions

end Cert.KernelIdeal.Fr

end
-- ==== Proof.KI.Run.lean ====
/-
  The run of the whole program: three host stretches and three kernel launches, alternating, from the launch memory to
  the return.

  Between two items a core holds every unscoped buffer whole, at the contents the fold of the boundary contents gives,
  beside its random-generator register at some state and the record that it owes no other core anything. A host
  stretch takes the buffers from one boundary's contents to the next by running its operations; a kernel launch splits
  its arrays out of the buffers, runs its grid under its invariant, and puts the arrays back at what the write-backs
  left. Chaining the six items from the launch gives, at the return, every unscoped buffer at the last boundary's
  contents. Those contents, read at an argument's buffer, walk back through the fold to the launch memory, because no
  host operation writes an argument and no launch has an argument as an output array: this is the frame claim.
-/
import proofs.«425775_j85358180040740_2_alg».proof.Proof.KI.Vals
import proofs.«425775_j85358180040740_2_alg».proof.Proof.KI.B01
import proofs.«425775_j85358180040740_2_alg».proof.Proof.KI.R2
import proofs.«425775_j85358180040740_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The last boundary: the third launch's exit -/

/-- At the third launch's exit: each of its arrays at what the write-backs leave (the output column is written back
    once, after the last tile), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No host operation writes an argument, and a launch that has an argument among its arrays has it as an input, which
is never written back. So the last contents at an argument's buffer are, step by step backwards, the launch memory's. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_arr m ρ c 2).trans (((dat2 (V5 m ρ) c).arrAt_in 2 rfl _).trans (A_eq2 (V5 m ρ) c 2))
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data and the thread state -/

/-- No launch has a prefetched table. -/
abbrev adm : (p : Fin 3) → (pcfgs (F := F) p).Adm := fun p => (cfgs p).toPCfg_adm
/-- Each launch's proof data, at the contents the launch is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything, so no semaphore is assigned a level. -/
abbrev L : GSem nD τ sig → Finset Unit := fun _ => ∅
abbrev lv : GSem nD τ sig → Unit → ℕ := fun _ _ => 0
/-- What a core holds beside its buffers through every item: its generator register at some state, and the record
    that it owes nothing. -/
abbrev R (c : Dev nD) : sProp 𝕄 := iprop((∃ r, prngReg c r) ∗ ∃ W, owes (c : Thread nD τ) (0 : CellTallies nD τ sig Unit) W)
/-- A host stretch as an item of the run: over the unscoped buffers from the contents `W`, with `R` beside them; it
    ends with the buffers at what its operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the record of owing nothing: every unscoped buffer at the last contents, the
    generator register at some state. -/
abbrev Tₙ (c : Dev nD) : sProp 𝕄 := iprop(StableHlo.held (c : Thread nD τ) (Pipeline.ucRefs τ sig) (W6 m ρ c) ∗ ∃ r, prngReg c r)

/-! ## The launches as items of the run -/

set_option backward.isDefEq.respectTransparency.types false in
/-- The first kernel launch over the thread state: entered with every unscoped buffer at `W1`, left with them at `W2`.
    Its arrays are split out of the unscoped buffers at entry and put back, at the exit contents, at the end; the generator
    register goes into the launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel launch over the thread state: entered with every unscoped buffer at `W3`, left with them at
    `W4`; otherwise as the first. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third kernel launch over the thread state: entered with every unscoped buffer at `W5`, left with them at `W6`,
    the last contents. Its invariant carries two accumulators from tile to tile, so it is not the plain one at every tile;
    but at the first tile it follows from the plain one (the accumulators hold anything) and at the last it gives the
    plain one back, so the entry and the exit are those of the other two launches with that step put in between. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m ρ 2 c).Φ 0 from hin2 (V5 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ Pipeline.ΦA spec2 c from hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six items, and the run -/

/-- The six items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the six items. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state each core's every unscoped buffer holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame claim at any `F`: the program runs, and every argument array ends holding its launch contents. Each
    argument's buffer is unscoped, so the run gives its final contents as the fold's last, which are the launch
    memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.KernelIdeal.Fr

end
-- ==== Proof.Val.Spec.lean ====
/-
  The network as plain mathematics on the extended reals: two neighbour-averaging linear layers, a mean over each graph's
  nodes, a linear read-out and the logistic function.

  Everything is a function of coordinates. The edge list enters through two functions of the edge number: `row e`, the
  node whose features edge `e` carries (its source, as an index into the node table), and `dst e`, the 32-bit word naming
  the node that receives them; an edge whose word, read signed, names no node is dropped. `bat r` is the word naming
  node `r`'s graph. Sums that a scatter builds start from the scatter's zero operand, which is why they are written
  `0 + ∑ …`.
-/
import Idealize.ShloMosaic.PureOps.Ideal
import Mathlib.Algebra.BigOperators.Fin

noncomputable section

namespace Cert.Spec

open Idealize.ShloMosaic
open scoped BigOperators

/-- An edge's source word as the row lookup normalises it: a negative word has the row count added. -/
def srcWord (s : BitVec 32) : BitVec 32 := Scalar.select (IntOp.cmpi .slt s 0#32) (IntOp.addi s 40000#32) s

/-- The node whose features an edge with source word `s` carries: the normalised word read signed and brought into
    the node table's range. -/
def rowOf (s : BitVec 32) : Fin 40000 := ⟨min (srcWord s).toInt.toNat 39999, by omega⟩

/-- What the edges deliver at node `n`: the sum of `u e` over the edges whose destination word is `n`. -/
def seg (dst : Fin 640000 → BitVec 32) (u : Fin 640000 → EReal) (n : Fin 40000) : EReal :=
  0 + ∑ e : Fin 640000, if (dst e).toInt = (n.val : ℤ) then u e else 0

/-- The number of edges arriving at node `n`, and never less than one: the divisor of the average. -/
def degree (dst : Fin 640000 → BitVec 32) (n : Fin 40000) : EReal := max (seg dst (fun _ => 1) n) 1

/-- The average of the neighbours' features arriving at node `n`, column `c`. -/
def mean (row : Fin 640000 → Fin 40000) (dst : Fin 640000 → BitVec 32) (feat : Fin 40000 → Fin 128 → EReal)
    (n : Fin 40000) (c : Fin 128) : EReal :=
  Ideal.div (seg dst (fun e => feat (row e) c) n) (degree dst n)

/-- One linear layer on a node's own features beside its neighbours' average: the weight's first 128 rows act on the
    node's features, its last 128 on the average. -/
def layer (feat agg : Fin 40000 → Fin 128 → EReal) (W : Fin 256 → Fin 128 → EReal) (p : Fin 40000) (q : Fin 128) : EReal :=
  (∑ k : Fin 128, feat p k * W ⟨k.val, by omega⟩ q) + ∑ k : Fin 128, agg p k * W ⟨128 + k.val, by omega⟩ q

/-- The first layer's output: the layer, cut off below at zero. -/
def hidden1 (row : Fin 640000 → Fin 40000) (dst : Fin 640000 → BitVec 32) (x : Fin 40000 → Fin 128 → EReal)
    (W1 : Fin 256 → Fin 128 → EReal) (p : Fin 40000) (q : Fin 128) : EReal :=
  max (layer x (mean row dst x) W1 p q) 0

/-- The second layer's output. -/
def hidden2 (row : Fin 640000 → Fin 40000) (dst : Fin 640000 → BitVec 32) (x : Fin 40000 → Fin 128 → EReal)
    (W1 W2 : Fin 256 → Fin 128 → EReal) (p : Fin 40000) (q : Fin 128) : EReal :=
  layer (hidden1 row dst x W1) (mean row dst (hidden1 row dst x W1)) W2 p q

/-- The sum over graph `g`'s nodes of `u`. -/
def gsum (bat : Fin 40000 → BitVec 32) (u : Fin 40000 → EReal) (g : Fin 256) : EReal :=
  0 + ∑ r : Fin 40000, if (bat r).toInt = (g.val : ℤ) then u r else 0

/-- The mean over graph `g`'s nodes of column `d` of `h` (a graph without nodes divides by one). -/
def pooled (bat : Fin 40000 → BitVec 32) (h : Fin 40000 → Fin 128 → EReal) (g : Fin 256) (d : Fin 128) : EReal :=
  Ideal.div (gsum bat (fun r => h r d) g) (max (gsum bat (fun _ => 1) g) 1)

/-- The network's answer for graph `g`. -/
def answer (row : Fin 640000 → Fin 40000) (dst : Fin 640000 → BitVec 32) (bat : Fin 40000 → BitVec 32)
    (x : Fin 40000 → Fin 128 → EReal) (W1 W2 : Fin 256 → Fin 128 → EReal) (Wfc : Fin 128 → EReal) (g : Fin 256) : EReal :=
  Ideal.logistic (∑ d : Fin 128, pooled bat (hidden2 row dst x W1 W2) g d * Wfc d)

end Cert.Spec

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.Val.Conv.lean ====
/-
  What the two linear layers leave in their output arrays, entry by entry, on the extended reals.

  A layer's output array has 40000 rows and 128 columns and is written in ten tiles of 4000 rows. At a tile the body
  multiplies the tile of node features by the upper half of the weight, multiplies the tile of aggregated neighbour
  features by the lower half, and adds the two products (the first layer then takes the maximum with zero). A product
  into a zero accumulator is, at row r and column q, the sum over k < 128 of left (r, k) times right (k, q).

  Row r of tile t is row 4000 t + r of the arrays the tiles are cut from, and the two weight halves are read whole at
  every tile; every row p lies in exactly the tile p / 4000. So entry (p, q) of the output array is the sum over k of
  features (p, k) times upper (k, q) plus the sum over k of aggregated (p, k) times lower (k, q), cut off below at zero
  in the first layer. The input arrays are never written, so they end as they were found.
-/
import proofs.«425775_j85358180040740_2_alg».proof.Proof.KI.Data01
import proofs.«425775_j85358180040740_2_alg».proof.Proof.Val.Spec
import proofs.«425775_j85358180040740_2_alg».proof.Proof.LibPlainMatmul
import Idealize.ShloMosaic.Lib.Pipeline.Value
import Idealize.ShloMosaic.Lib.ValueIdx
import Idealize.ShloMosaic.Lib.IdealHost

noncomputable section

namespace Cert.KernelIdeal.Val

open Idealize.ShloMosaic Idealize.ShloMosaic.TcCoe Idealize.ShloMosaic.ValueIdx Cert.KernelIdeal Cert.KernelIdeal.Gen Cert.KernelIdeal.Fr
open scoped BigOperators

/-! ## One tile's arithmetic -/

/-- The first layer's stored value at row r, column q of a tile, from the four values the body read: the two products'
    sum, cut off below at zero. The reshapes to the same shape are the identity; each product into the zero accumulator
    is the plain sum over the contracted axis; the zero word is the real number zero. -/
theorem convPay0_apply (v0 v4 : FVec Ideal S4000x128 .f32) (v1 v6 : FVec Ideal S128x128 .f32) (r : Fin 4000) (q : Fin 128) :
    k0_pay1 (F := Ideal) v0 v1 v4 v6 (ix2 r q)
      = max ((∑ k : Fin 128, v0 (ix2 r k) * v1 (ix2 k q)) + ∑ k : Fin 128, v4 (ix2 r k) * v6 (ix2 k q)) 0 := by
  unfold k0_pay1
  rw [shapeCast_self v1, shapeCast_self v4, shapeCast_self v6]
  have e0 := Cert.Lib.PlainMatmul.matmul_zero_apply (φ₁ := .f32) (φ₂ := .f32) dot_S4000x128_S128x128_S4000x128_1_0_0_1_n_n
    rfl rfl rfl rfl rfl rfl (some .fp32) v0 v1 r q
  have e1 := Cert.Lib.PlainMatmul.matmul_zero_apply (φ₁ := .f32) (φ₂ := .f32) dot_S4000x128_S128x128_S4000x128_1_0_0_1_n_n
    rfl rfl rfl rfl rfl rfl (some .fp32) v4 v6 r q
  rw [maximumf_apply, addf_apply, broadcast_apply]
  exact congrArg₂ max (congrArg₂ (· + ·) e0 e1) Ideal.ofBits_zero_f32

/-- The second layer's stored value at row r, column q of a tile: the two products' sum. -/
theorem convPay1_apply (v0 v5 : FVec Ideal S4000x128 .f32) (v2 v7 : FVec Ideal S128x128 .f32) (r : Fin 4000) (q : Fin 128) :
    k1_pay1 (F := Ideal) v0 v2 v5 v7 (ix2 r q)
      = (∑ k : Fin 128, v0 (ix2 r k) * v2 (ix2 k q)) + ∑ k : Fin 128, v5 (ix2 r k) * v7 (ix2 k q) := by
  unfold k1_pay1
  rw [shapeCast_self v0, shapeCast_self v2, shapeCast_self v5, shapeCast_self v7]
  have e0 := Cert.Lib.PlainMatmul.matmul_zero_apply (φ₁ := .f32) (φ₂ := .f32) dot_S4000x128_S128x128_S4000x128_1_0_0_1_n_n
    rfl rfl rfl rfl rfl rfl (some .fp32) v0 v2 r q
  have e1 := Cert.Lib.PlainMatmul.matmul_zero_apply (φ₁ := .f32) (φ₂ := .f32) dot_S4000x128_S128x128_S4000x128_1_0_0_1_n_n
    rfl rfl rfl rfl rfl rfl (some .fp32) v5 v7 r q
  rw [addf_apply]
  exact congrArg₂ (· + ·) e0 e1

/-- The offsets of a whole-buffer access are zero on both axes. -/
theorem hz : (![0, 0] : Fin 2 → Nat) = fun _ => 0 := funext fun a => by fin_cases a <;> rfl

/-- What the first layer's body leaves in the output tile's buffer, at row r and column q, from the four input blocks
    x0 (features), x1 (aggregated features), x2 (upper half), x3 (lower half): its one store covers the buffer, and each
    whole-buffer read is the block itself. -/
theorem tile0 (x0 x1 : Vec Ideal S4000x128 .f32) (x2 x3 : Vec Ideal S128x128 .f32) (r : Fin 4000) (q : Fin 128) :
    out0_4 (F := Ideal) x0 x1 x2 x3 (ix2 r q)
      = max ((∑ k : Fin 128, x0 (ix2 r k) * x2 (ix2 k q)) + ∑ k : Fin 128, x1 (ix2 r k) * x3 (ix2 k q)) 0 := by
  unfold out0_4
  rw [View.canon_unit_zero hz]
  simp only [View.ld_unit_zero (S := S4000x128) hz, View.ld_unit_zero (S := S128x128) hz]
  exact convPay0_apply x0 x1 x2 x3 r q

/-- The same for the second layer's body. -/
theorem tile1 (x0 x1 : Vec Ideal S4000x128 .f32) (x2 x3 : Vec Ideal S128x128 .f32) (r : Fin 4000) (q : Fin 128) :
    out1_4 (F := Ideal) x0 x1 x2 x3 (ix2 r q)
      = (∑ k : Fin 128, x0 (ix2 r k) * x2 (ix2 k q)) + ∑ k : Fin 128, x1 (ix2 r k) * x3 (ix2 k q) := by
  unfold out1_4
  rw [View.canon_unit_zero hz]
  simp only [View.ld_unit_zero (S := S4000x128) hz, View.ld_unit_zero (S := S128x128) hz]
  exact convPay1_apply x0 x1 x2 x3 r q

section Arrays
variable (V : (c : Dev nD) → (b : Ref sig .tc) → Buf (Elt Ideal) ((c : Thread nD τ).loc b))

/-! ## The first layer's output array -/

/-- The first layer as one function of its four arrays: entry (p, q) is the row p of the features against column q of
    the weight's upper half, plus row p of the aggregated features against column q of the lower half, cut off below at
    zero. -/
def conv0 (a0 a1 : Vec Ideal S40000x128 .f32) (w0 w1 : Vec Ideal S128x128 .f32) : Vec Ideal S40000x128 .f32 :=
  fun i => max ((∑ k : Fin 128, a0 (ix2 ⟨(i 0).val, idx2_lt0 i⟩ k) * w0 (ix2 k ⟨(i 1).val, idx2_lt1 i⟩))
    + ∑ k : Fin 128, a1 (ix2 ⟨(i 0).val, idx2_lt0 i⟩ k) * w1 (ix2 k ⟨(i 1).val, idx2_lt1 i⟩)) 0

/-- Where each window's block sits at tile t, decided over the ten tiles: the two feature windows and the output
    window are at block row t, the two weight halves always at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row r of the features' tile t is row 4000 t + r of the features. -/
theorem rows0_0 (c : Dev nD) (t : Fin cfg0.N) (r : Fin 4000) (k : Fin 128) (p : Fin 40000) (hp : p.val = 4000 * t.val + r.val) :
    (iblk0 V c 0 t : Vec Ideal S4000x128 .f32) (ix2 r k) = (V c main_arg0 : S40000x128.Idx → EReal) (ix2 p k) := by
  obtain ⟨e0, e1, -⟩ := idx0 t
  unfold iblk0
  rw [View.read_apply]
  show (V c main_arg0 : S40000x128.Idx → EReal) _ = _
  congr 1
  funext a
  apply Fin.ext
  match a with
  | ⟨0, _⟩ => show win0_0.index t (0 : Fin 2) * 4000 + 1 * r.val = p.val; omega
  | ⟨1, _⟩ => show win0_0.index t (1 : Fin 2) * 128 + 1 * k.val = k.val; omega

/-- Row r of the aggregated features' tile t is row 4000 t + r of the aggregated features. -/
theorem rows0_1 (c : Dev nD) (t : Fin cfg0.N) (r : Fin 4000) (k : Fin 128) (p : Fin 40000) (hp : p.val = 4000 * t.val + r.val) :
    (iblk0 V c 1 t : Vec Ideal S4000x128 .f32) (ix2 r k) = (V c main_v24 : S40000x128.Idx → EReal) (ix2 p k) := by
  obtain ⟨-, -, e0, e1, -⟩ := idx0 t
  unfold iblk0
  rw [View.read_apply]
  show (V c main_v24 : S40000x128.Idx → EReal) _ = _
  congr 1
  funext a
  apply Fin.ext
  match a with
  | ⟨0, _⟩ => show win0_1.index t (0 : Fin 2) * 4000 + 1 * r.val = p.val; omega
  | ⟨1, _⟩ => show win0_1.index t (1 : Fin 2) * 128 + 1 * k.val = k.val; omega

/-- The upper half's block is the whole upper half, at every tile. -/
theorem whole0_2 (c : Dev nD) (t : Fin cfg0.N) (k q : Fin 128) :
    (iblk0 V c 2 t : Vec Ideal S128x128 .f32) (ix2 k q) = (V c main_v25 : S128x128.Idx → EReal) (ix2 k q) := by
  obtain ⟨-, -, -, -, e0, e1, -⟩ := idx0 t
  unfold iblk0
  rw [View.read_apply]
  show (V c main_v25 : S128x128.Idx → EReal) _ = _
  congr 1
  funext a
  apply Fin.ext
  match a with
  | ⟨0, _⟩ => show win0_2.index t (0 : Fin 2) * 128 + 1 * k.val = k.val; omega
  | ⟨1, _⟩ => show win0_2.index t (1 : Fin 2) * 128 + 1 * q.val = q.val; omega

/-- The lower half's block is the whole lower half, at every tile. -/
theorem whole0_3 (c : Dev nD) (t : Fin cfg0.N) (k q : Fin 128) :
    (iblk0 V c 3 t : Vec Ideal S128x128 .f32) (ix2 k q) = (V c main_v26 : S128x128.Idx → EReal) (ix2 k q) := by
  obtain ⟨-, -, -, -, -, -, e0, e1, -⟩ := idx0 t
  unfold iblk0
  rw [View.read_apply]
  show (V c main_v26 : S128x128.Idx → EReal) _ = _
  congr 1
  funext a
  apply Fin.ext
  match a with
  | ⟨0, _⟩ => show win0_3.index t (0 : Fin 2) * 128 + 1 * k.val = k.val; omega
  | ⟨1, _⟩ => show win0_3.index t (1 : Fin 2) * 128 + 1 * q.val = q.val; omega

/-- What tile t writes back is rows 4000 t … 4000 t + 3999 of the layer's function of the four arrays: the tile's
    entry (r, q) lands at row 4000 t + r, and the blocks it was computed from are those rows of the two feature arrays
    and the whole weight halves. -/
theorem flushed0_eq (c : Dev nD) (t : Fin cfg0.N) :
    (dat0 (F := Ideal) V c).flushed 4 t
      = ((cfg0.win 4).blk t).view.read (Elt Ideal) (conv0 (V c main_arg0) (V c main_v24) (V c main_v25) (V c main_v26)) := by
  show (cfg0.win 4).cut (grid0.coords t) ((dat0 V c).after 4 t) = _
  rw [after0_4]
  funext j
  obtain ⟨r, q, rfl⟩ : ∃ (r : Fin 4000) (q : Fin 128), j = ix2 r q := ⟨j 0, j 1, eq_ix2 j⟩
  rw [View.read_apply]
  obtain ⟨-, -, -, -, -, -, -, -, e8, e9⟩ := idx0 t
  have hN : cfg0.N = 10 := N_0
  have ht : t.val < 10 := hN ▸ t.isLt
  have hp : 4000 * t.val + r.val < 40000 := by have := r.isLt; omega
  have hemb : ((cfg0.win 4).blk t).view.emb (ix2 r q) = ix2 (⟨4000 * t.val + r.val, hp⟩ : Fin 40000) q := by
    funext a
    apply Fin.ext
    match a with
    | ⟨0, _⟩ => show win0_4.index t (0 : Fin 2) * 4000 + 1 * r.val = 4000 * t.val + r.val; omega
    | ⟨1, _⟩ => show win0_4.index t (1 : Fin 2) * 128 + 1 * q.val = q.val; omega
  rw [hemb]
  refine (tile0 (iblk0 V c 0 t) (iblk0 V c 1 t) (iblk0 V c 2 t) (iblk0 V c 3 t) r q).trans ?_
  unfold conv0
  refine congrArg₂ max (congrArg₂ (· + ·) (Finset.sum_congr rfl fun k _ => ?_) (Finset.sum_congr rfl fun k _ => ?_)) rfl
  · exact congrArg₂ (· * ·) (rows0_0 V c t r k ⟨_, hp⟩ rfl) (whole0_2 V c t k q)
  · exact congrArg₂ (· * ·) (rows0_1 V c t r k ⟨_, hp⟩ rfl) (whole0_3 V c t k q)

/-- An entry of the output array is in tile t's block iff, on each axis, its coordinate is within the block's range. -/
theorem mem_blk0 (t : Fin cfg0.N) (i : S40000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v27).slice (win0_4.rect t)).set ↔ _
  rw [View.set_slice_whole, Rect.mem_set_unit]
  exact Iff.rfl

/-- Every entry is written: row p lies in tile p / 4000, and every tile is written back. -/
theorem cover0 (i : S40000x128.Idx) : ∃ t : Fin cfg0.N, (cfg0.win 4).flush t = true ∧ i ∈ ((cfg0.win 4).blk t).view.set := by
  have hi0 : (i 0).val < 40000 := idx2_lt0 i
  have hi1 : (i 1).val < 128 := idx2_lt1 i
  have hN : cfg0.N = 10 := N_0
  refine ⟨⟨(i 0).val / 4000, by rw [hN]; omega⟩, flush0_4 _, ?_⟩
  rw [mem_blk0]
  obtain ⟨-, -, -, -, -, -, -, -, e8, e9⟩ := idx0 ⟨(i 0).val / 4000, by rw [hN]; omega⟩
  intro a
  match a with
  | ⟨0, _⟩ => show win0_4.index _ (0 : Fin 2) * 4000 ≤ (i 0).val ∧ (i 0).val < win0_4.index _ (0 : Fin 2) * 4000 + 4000; rw [e8]; show (i 0).val / 4000 * 4000 ≤ (i 0).val ∧ (i 0).val < (i 0).val / 4000 * 4000 + 4000; omega
  | ⟨1, _⟩ => show win0_4.index _ (1 : Fin 2) * 128 ≤ (i 1).val ∧ (i 1).val < win0_4.index _ (1 : Fin 2) * 128 + 128; rw [e9]; omega

/-- The first layer's output array after the ten tiles: the layer's function of the four arrays as the region found
    them. -/
theorem final0 (c : Dev nD) :
    (dat0 (F := Ideal) V c).arrAt 4 cfg0.N = conv0 (V c main_arg0) (V c main_v24) (V c main_v25) (V c main_v26) :=
  (dat0 V c).arrAt_eq_of_cover 4 _ (fun t _ => flushed0_eq V c t) cover0

/-- Read at entry (p, q). The four arrays enter as matrices a0, a1, w0, w1 of extended reals that are the region's
    arrays (so the products and sums are the extended reals'). -/
theorem arr0_apply (c : Dev nD) (p : Fin 40000) (q : Fin 128)
    (a0 a1 : Vec Ideal S40000x128 .f32) (w0 w1 : Vec Ideal S128x128 .f32)
    (h0 : a0 = V c main_arg0) (h1 : a1 = V c main_v24) (h2 : w0 = V c main_v25) (h3 : w1 = V c main_v26) :
    (dat0 (F := Ideal) V c).arrAt 4 cfg0.N (ix2 p q)
      = max ((∑ k : Fin 128, a0 (ix2 p k) * w0 (ix2 k q)) + ∑ k : Fin 128, a1 (ix2 p k) * w1 (ix2 k q)) 0 := by
  subst h0 h1 h2 h3
  exact congrFun (final0 V c) (ix2 p q)

/-- Only the fifth window is an output. -/
theorem isIn0 : ∀ w : Fin cfg0.W, w ≠ 4 → (cfg0.win w).isOut = false := by decide

/-- An input window's array is never written back: it ends as the region found it. -/
theorem arr0_in (c : Dev nD) (w : Fin cfg0.W) (hw : w ≠ 4) :
    (dat0 (F := Ideal) V c).arrAt w cfg0.N = V c (Pipeline.arrRef spec0 w) :=
  ((dat0 V c).arrAt_in w (isIn0 w hw) cfg0.N).trans (A_eq0 V c w)

/-! ## The second layer's output array -/

/-- The second layer as one function of its four arrays: as the first, without the cut at zero. -/
def conv1 (a0 a1 : Vec Ideal S40000x128 .f32) (w0 w1 : Vec Ideal S128x128 .f32) : Vec Ideal S40000x128 .f32 :=
  fun i => (∑ k : Fin 128, a0 (ix2 ⟨(i 0).val, idx2_lt0 i⟩ k) * w0 (ix2 k ⟨(i 1).val, idx2_lt1 i⟩))
    + ∑ k : Fin 128, a1 (ix2 ⟨(i 0).val, idx2_lt0 i⟩ k) * w1 (ix2 k ⟨(i 1).val, idx2_lt1 i⟩)

/-- Where each window's block sits at tile t of the second layer's walk, decided over the ten tiles. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row r of tile t of the first layer's output is its row 4000 t + r. -/
theorem rows1_0 (c : Dev nD) (t : Fin cfg1.N) (r : Fin 4000) (k : Fin 128) (p : Fin 40000) (hp : p.val = 4000 * t.val + r.val) :
    (iblk1 V c 0 t : Vec Ideal S4000x128 .f32) (ix2 r k) = (V c main_v27 : S40000x128.Idx → EReal) (ix2 p k) := by
  obtain ⟨e0, e1, -⟩ := idx1 t
  unfold iblk1
  rw [View.read_apply]
  show (V c main_v27 : S40000x128.Idx → EReal) _ = _
  congr 1
  funext a
  apply Fin.ext
  match a with
  | ⟨0, _⟩ => show win1_0.index t (0 : Fin 2) * 4000 + 1 * r.val = p.val; omega
  | ⟨1, _⟩ => show win1_0.index t (1 : Fin 2) * 128 + 1 * k.val = k.val; omega

/-- Row r of tile t of its aggregated neighbour values is their row 4000 t + r. -/
theorem rows1_1 (c : Dev nD) (t : Fin cfg1.N) (r : Fin 4000) (k : Fin 128) (p : Fin 40000) (hp : p.val = 4000 * t.val + r.val) :
    (iblk1 V c 1 t : Vec Ideal S4000x128 .f32) (ix2 r k) = (V c main_v39 : S40000x128.Idx → EReal) (ix2 p k) := by
  obtain ⟨-, -, e0, e1, -⟩ := idx1 t
  unfold iblk1
  rw [View.read_apply]
  show (V c main_v39 : S40000x128.Idx → EReal) _ = _
  congr 1
  funext a
  apply Fin.ext
  match a with
  | ⟨0, _⟩ => show win1_1.index t (0 : Fin 2) * 4000 + 1 * r.val = p.val; omega
  | ⟨1, _⟩ => show win1_1.index t (1 : Fin 2) * 128 + 1 * k.val = k.val; omega

/-- The second weight's upper half is read whole at every tile. -/
theorem whole1_2 (c : Dev nD) (t : Fin cfg1.N) (k q : Fin 128) :
    (iblk1 V c 2 t : Vec Ideal S128x128 .f32) (ix2 k q) = (V c main_v40 : S128x128.Idx → EReal) (ix2 k q) := by
  obtain ⟨-, -, -, -, e0, e1, -⟩ := idx1 t
  unfold iblk1
  rw [View.read_apply]
  show (V c main_v40 : S128x128.Idx → EReal) _ = _
  congr 1
  funext a
  apply Fin.ext
  match a with
  | ⟨0, _⟩ => show win1_2.index t (0 : Fin 2) * 128 + 1 * k.val = k.val; omega
  | ⟨1, _⟩ => show win1_2.index t (1 : Fin 2) * 128 + 1 * q.val = q.val; omega

/-- The second weight's lower half is read whole at every tile. -/
theorem whole1_3 (c : Dev nD) (t : Fin cfg1.N) (k q : Fin 128) :
    (iblk1 V c 3 t : Vec Ideal S128x128 .f32) (ix2 k q) = (V c main_v41 : S128x128.Idx → EReal) (ix2 k q) := by
  obtain ⟨-, -, -, -, -, -, e0, e1, -⟩ := idx1 t
  unfold iblk1
  rw [View.read_apply]
  show (V c main_v41 : S128x128.Idx → EReal) _ = _
  congr 1
  funext a
  apply Fin.ext
  match a with
  | ⟨0, _⟩ => show win1_3.index t (0 : Fin 2) * 128 + 1 * k.val = k.val; omega
  | ⟨1, _⟩ => show win1_3.index t (1 : Fin 2) * 128 + 1 * q.val = q.val; omega

/-- What tile t of the second layer writes back is rows 4000 t … 4000 t + 3999 of the layer's function of its four
    arrays. -/
theorem flushed1_eq (c : Dev nD) (t : Fin cfg1.N) :
    (dat1 (F := Ideal) V c).flushed 4 t
      = ((cfg1.win 4).blk t).view.read (Elt Ideal) (conv1 (V c main_v27) (V c main_v39) (V c main_v40) (V c main_v41)) := by
  show (cfg1.win 4).cut (grid1.coords t) ((dat1 V c).after 4 t) = _
  rw [after1_4]
  funext j
  obtain ⟨r, q, rfl⟩ : ∃ (r : Fin 4000) (q : Fin 128), j = ix2 r q := ⟨j 0, j 1, eq_ix2 j⟩
  rw [View.read_apply]
  obtain ⟨-, -, -, -, -, -, -, -, e8, e9⟩ := idx1 t
  have hN : cfg1.N = 10 := N_1
  have ht : t.val < 10 := hN ▸ t.isLt
  have hp : 4000 * t.val + r.val < 40000 := by have := r.isLt; omega
  have hemb : ((cfg1.win 4).blk t).view.emb (ix2 r q) = ix2 (⟨4000 * t.val + r.val, hp⟩ : Fin 40000) q := by
    funext a
    apply Fin.ext
    match a with
    | ⟨0, _⟩ => show win1_4.index t (0 : Fin 2) * 4000 + 1 * r.val = 4000 * t.val + r.val; omega
    | ⟨1, _⟩ => show win1_4.index t (1 : Fin 2) * 128 + 1 * q.val = q.val; omega
  rw [hemb]
  refine (tile1 (iblk1 V c 0 t) (iblk1 V c 1 t) (iblk1 V c 2 t) (iblk1 V c 3 t) r q).trans ?_
  unfold conv1
  refine congrArg₂ (· + ·) (Finset.sum_congr rfl fun k _ => ?_) (Finset.sum_congr rfl fun k _ => ?_)
  · exact congrArg₂ (· * ·) (rows1_0 V c t r k ⟨_, hp⟩ rfl) (whole1_2 V c t k q)
  · exact congrArg₂ (· * ·) (rows1_1 V c t r k ⟨_, hp⟩ rfl) (whole1_3 V c t k q)

/-- An entry of the second output array is in tile t's block iff each coordinate is within the block's range. -/
theorem mem_blk1 (t : Fin cfg1.N) (i : S40000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v42).slice (win1_4.rect t)).set ↔ _
  rw [View.set_slice_whole, Rect.mem_set_unit]
  exact Iff.rfl

/-- Every entry of the second output array is written: row p lies in tile p / 4000. -/
theorem cover1 (i : S40000x128.Idx) : ∃ t : Fin cfg1.N, (cfg1.win 4).flush t = true ∧ i ∈ ((cfg1.win 4).blk t).view.set := by
  have hi0 : (i 0).val < 40000 := idx2_lt0 i
  have hi1 : (i 1).val < 128 := idx2_lt1 i
  have hN : cfg1.N = 10 := N_1
  refine ⟨⟨(i 0).val / 4000, by rw [hN]; omega⟩, flush1_4 _, ?_⟩
  rw [mem_blk1]
  obtain ⟨-, -, -, -, -, -, -, -, e8, e9⟩ := idx1 ⟨(i 0).val / 4000, by rw [hN]; omega⟩
  intro a
  match a with
  | ⟨0, _⟩ => show win1_4.index _ (0 : Fin 2) * 4000 ≤ (i 0).val ∧ (i 0).val < win1_4.index _ (0 : Fin 2) * 4000 + 4000; rw [e8]; show (i 0).val / 4000 * 4000 ≤ (i 0).val ∧ (i 0).val < (i 0).val / 4000 * 4000 + 4000; omega
  | ⟨1, _⟩ => show win1_4.index _ (1 : Fin 2) * 128 ≤ (i 1).val ∧ (i 1).val < win1_4.index _ (1 : Fin 2) * 128 + 128; rw [e9]; omega

/-- The second layer's output array after the ten tiles. -/
theorem final1 (c : Dev nD) :
    (dat1 (F := Ideal) V c).arrAt 4 cfg1.N = conv1 (V c main_v27) (V c main_v39) (V c main_v40) (V c main_v41) :=
  (dat1 V c).arrAt_eq_of_cover 4 _ (fun t _ => flushed1_eq V c t) cover1

/-- Read at entry (p, q), the four arrays entering as matrices of extended reals that are the region's arrays. -/
theorem arr1_apply (c : Dev nD) (p : Fin 40000) (q : Fin 128)
    (a0 a1 : Vec Ideal S40000x128 .f32) (w0 w1 : Vec Ideal S128x128 .f32)
    (h0 : a0 = V c main_v27) (h1 : a1 = V c main_v39) (h2 : w0 = V c main_v40) (h3 : w1 = V c main_v41) :
    (dat1 (F := Ideal) V c).arrAt 4 cfg1.N (ix2 p q)
      = (∑ k : Fin 128, a0 (ix2 p k) * w0 (ix2 k q)) + ∑ k : Fin 128, a1 (ix2 p k) * w1 (ix2 k q) := by
  subst h0 h1 h2 h3
  exact congrFun (final1 V c) (ix2 p q)

/-- Only the fifth window of the second layer is an output. -/
theorem isIn1 : ∀ w : Fin cfg1.W, w ≠ 4 → (cfg1.win w).isOut = false := by decide

/-- The second layer's input arrays end as the region found them. -/
theorem arr1_in (c : Dev nD) (w : Fin cfg1.W) (hw : w ≠ 4) :
    (dat1 (F := Ideal) V c).arrAt w cfg1.N = V c (Pipeline.arrRef spec1 w) :=
  ((dat1 V c).arrAt_in w (isIn1 w hw) cfg1.N).trans (A_eq1 V c w)

end Arrays

end Cert.KernelIdeal.Val

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.LibBincount.lean ====
/-
  Counting by a scatter that adds: `Host.scatter` with the body the 32-bit addition, `N` scalar updates, an operand
  of `M` words and one-component index vectors (no update window axis, the operand's one axis inserted, the index
  vector on the indices' second axis).

  An update lands where its index word says, the word read SIGNED and not clamped; an update whose index is outside
  `[0, M)` is dropped. So the result at `s` is the operand's word plus the sum of the updates whose index word is `s`
  (`scatter_add_apply`). With the operand all zeros, every update the word `1` and `N < 2 ^ 31`, the result at `s`,
  read unsigned or signed, is the NUMBER of updates whose index word is `s` (`scatter_ones_toNat`,
  `scatter_ones_toInt`).
-/
import Idealize.ShloMosaic.PureOps.Ideal
import Idealize.ShloMosaic.Lib.ValueIdx
import Mathlib.Data.BitVec
import Mathlib.Algebra.BigOperators.Fin

namespace Cert.LibBincount

open Idealize.ShloMosaic Idealize.ShloMosaic.ValueIdx

/-- A left fold whose step adds `u n` at the one place `g n` names (nowhere when it names none), read at one
    place `i0`: the start there plus the `u n` with `g n = some i0`. -/
theorem foldl_step_apply {ι κ A : Type*} [AddMonoid A] (step : (κ → A) → ι → κ → A)
    (g : ι → Option κ) (u : ι → A) [DecidableEq κ]
    (hstep : ∀ r n i', step r n i' = if g n = some i' then r i' + u n else r i')
    (l : List ι) (x : κ → A) (i0 : κ) :
    (l.foldl step x) i0 = x i0 + (l.map fun n => if g n = some i0 then u n else 0).sum := by
  induction l generalizing x with
  | nil => simp
  | cons a l ih =>
    rw [List.foldl_cons, ih, hstep, List.map_cons, List.sum_cons]
    by_cases hg : g a = some i0
    · rw [if_pos hg, if_pos hg, add_assoc]
    · rw [if_neg hg, if_neg hg, zero_add]

/-- A rank-1 index set is its coordinate's range. -/
def idxEquiv1 {n : ℕ} : (⟨1, ![n]⟩ : Shape).Idx ≃ Fin n where
  toFun i := i 0
  invFun a := ix1 a
  left_inv i := (eq_ix1 i).symm
  right_inv _ := rfl

/-- An update of a scatter of scalars at one-component index vectors lands at `s` exactly when its index word,
    read signed, is `s`. -/
theorem resultIdx?_eq_some_iff {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1) (idx : IVec ⟨2, ![N, 1]⟩ w) (n : Fin N) (s : Fin M) :
    d.resultIdx? (ix1 n) idx = some (ix1 s) ↔ (idx (ix2 n 0)).toInt = (s.val : ℤ) := by
  obtain ⟨uw, iw, sd, iv, wf⟩ := d
  simp only at h1 h2 h3 h4
  subst h1 h2 h3 h4
  have hstart : (ScatterDims.mk [] [0] [0] 1 wf).start (ix1 n) idx 0 = (idx (ix2 n 0)).toInt := by
    unfold ScatterDims.start
    rw [dif_pos (show (0 : Fin 1) ∈ (ScatterDims.mk [] [0] [0] 1 wf).scatterDimsToOperandDims from
      List.mem_singleton.mpr rfl)]
    congr 2
    funext b
    refine Fin.ext ?_
    match b with
    | ⟨0, _⟩ => rfl
    | ⟨1, _⟩ => rfl
  have hwin : (ScatterDims.mk [] [0] [0] 1 wf).window (ix1 n) 0 = 0 := by
    unfold ScatterDims.window
    rw [dif_neg]
    intro hmem
    have hk : (ScatterDims.mk [] [0] [0] 1 wf).sKept = [] :=
      (by decide : (List.finRange 1).filter (fun a : Fin 1 => decide (a ∉ ([0] : List (Fin 1)))) = [])
    rw [hk] at hmem
    exact List.not_mem_nil hmem
  unfold ScatterDims.resultIdx?
  by_cases hin : 0 ≤ (idx (ix2 n 0)).toInt ∧ (idx (ix2 n 0)).toInt < (M : ℤ)
  · rw [dif_pos (by
      intro a
      obtain rfl : a = 0 := Subsingleton.elim _ _
      rw [hstart, hwin]
      simpa using hin)]
    rw [Option.some_inj]
    constructor
    · intro hf
      have h0 := congrArg (fun f => (f 0).val) hf
      simp only [hstart, hwin] at h0
      have h0' : ((idx (ix2 n 0)).toInt + ((0 : ℕ) : ℤ)).toNat = s.val := h0
      omega
    · intro ht
      funext a
      obtain rfl : a = 0 := Subsingleton.elim _ _
      apply Fin.ext
      show ((ScatterDims.mk [] [0] [0] 1 wf).start (ix1 n) idx 0
        + (((ScatterDims.mk [] [0] [0] 1 wf).window (ix1 n) 0 : ℕ) : ℤ)).toNat = s.val
      rw [hstart, hwin, ht]
      simp
  · rw [dif_neg (by
      intro hall
      apply hin
      have := hall 0
      rw [hstart, hwin] at this
      simpa using this)]
    constructor
    · intro hf
      cases hf
    · intro ht
      exfalso
      apply hin
      rw [ht]
      exact ⟨by omega, by exact_mod_cast s.isLt⟩

/-- The scatter at `s`: the operand's word plus the updates whose index word, read signed, is `s`. -/
theorem scatter_add_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : IVec ⟨2, ![N, 1]⟩ w) (upd : (⟨1, ![N]⟩ : Shape).Idx → BitVec 32)
    (s : Fin M) :
    Host.scatter d IntOp.addi x idx upd (ix1 s)
      = x (ix1 s) + ∑ n : Fin N, if (idx (ix2 n 0)).toInt = (s.val : ℤ) then upd (ix1 n) else 0 := by
  unfold Host.scatter
  rw [foldl_step_apply _ (fun n => d.resultIdx? ((Shape.rowMajor ⟨1, ![N]⟩).symm n) idx)
    (fun n => upd ((Shape.rowMajor ⟨1, ![N]⟩).symm n)) ?hstep]
  case hstep =>
    intro r n i'
    generalize d.resultIdx? ((Shape.rowMajor ⟨1, ![N]⟩).symm n) idx = o
    cases o with
    | none => simp
    | some i =>
      by_cases hi : i' = i
      · subst hi; simp [IntOp.addi]
      · simp [hi, Ne.symm hi]
  rw [← Fin.sum_univ_def]
  congr 1
  rw [Equiv.sum_comp (Shape.rowMajor ⟨1, ![N]⟩).symm
    (fun i => if d.resultIdx? i idx = some (ix1 s) then upd i else 0)]
  rw [← Equiv.sum_comp (idxEquiv1 (n := N)).symm]
  refine Finset.sum_congr rfl (fun n _ => ?_)
  show (if d.resultIdx? (ix1 n) idx = some (ix1 s) then upd (ix1 n) else 0) = _
  simp only [resultIdx?_eq_some_iff M N d h1 h2 h3 h4 idx n s]

/-- A set of indices below `N < 2 ^ 31` has fewer than `2 ^ 31` members. -/
theorem card_filter_lt (N : ℕ) (hN : N < 2 ^ 31) (p : Fin N → Prop) [DecidablePred p] :
    (Finset.univ.filter p).card < 2 ^ 31 :=
  lt_of_le_of_lt (le_trans (Finset.card_filter_le _ _) (by simp)) hN

/-- A number below `2 ^ 31` cast to a 32-bit word reads back unsigned as itself. -/
theorem toNat_natCast_of_lt (c : ℕ) (hc : c < 2 ^ 31) : ((c : BitVec 32)).toNat = c := by
  rw [BitVec.natCast_eq_ofNat, BitVec.toNat_ofNat]
  exact Nat.mod_eq_of_lt (by omega)

/-- A number below `2 ^ 31` cast to a 32-bit word reads back signed as itself. -/
theorem toInt_natCast_of_lt (c : ℕ) (hc : c < 2 ^ 31) : ((c : BitVec 32)).toInt = (c : ℤ) := by
  rw [BitVec.toInt_eq_toNat_of_lt (by rw [toNat_natCast_of_lt c hc]; omega), toNat_natCast_of_lt c hc]

/-- All-ones updates into zeros: the scatter at `s` is, as a word, the number of updates whose index word is `s`. -/
theorem scatter_ones_eq_card {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    Host.scatter d IntOp.addi x idx upd (ix1 s)
      = ((Finset.univ.filter fun n : Fin N => (idx (ix2 n 0)).toInt = (s.val : ℤ)).card : BitVec 32) := by
  rw [scatter_add_apply M N d h1 h2 h3 h4 x idx upd s, hx, ← Finset.sum_boole]
  have h0 : ∀ a : BitVec 32, 0#32 + a = a := fun a => by simp
  rw [h0]
  refine Finset.sum_congr rfl (fun n _ => ?_)
  rw [hupd]
  simp

/-- All-ones updates into zeros, fewer than `2 ^ 31` of them: the word at `s` read unsigned counts the updates
    whose index word is `s`. -/
theorem scatter_ones_toNat {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toNat
      = (Finset.univ.filter fun n : Fin N => (idx (ix2 n 0)).toInt = (s.val : ℤ)).card := by
  rw [scatter_ones_eq_card M N d h1 h2 h3 h4 x hx idx upd hupd s]
  exact toNat_natCast_of_lt _ (card_filter_lt N hN _)

/-- The same count, the word read signed. -/
theorem scatter_ones_toInt {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toInt
      = ((Finset.univ.filter fun n : Fin N => (idx (ix2 n 0)).toInt = (s.val : ℤ)).card : ℤ) := by
  rw [scatter_ones_eq_card M N d h1 h2 h3 h4 x hx idx upd hupd s]
  exact toInt_natCast_of_lt _ (card_filter_lt N hN _)

end Cert.LibBincount
-- ==== Proof.LibScatterAdd1.lean ====
/-
  The float scatter that adds, at one-component index vectors: an operand of `M` values, `N` scalar updates, no update
  window axis, the operand's one axis inserted, the index vector on the indices' second axis.

  An update lands where its index word says, the word read SIGNED and not clamped; an update whose index is outside
  `[0, M)` is dropped. At the ideal values the colliding updates are added exactly, in no particular order, so the
  result at `s` is the operand's value there plus the sum, over ALL updates, of the update if its index word is `s`
  and of zero if not.
-/
import proofs.«425775_j85358180040740_2_alg».proof.Proof.LibBincount
import Idealize.ShloMosaic.PureOps.Ideal
import Idealize.ShloMosaic.PureOps.Contract
import Idealize.ShloMosaic.Lib.ValueIdx
import Mathlib.Algebra.BigOperators.Fin

namespace Cert.LibScatterAdd1

open Idealize.ShloMosaic Idealize.ShloMosaic.ValueIdx

/-- The exact accumulating scatter at `s`: the operand's value plus the updates whose index word, read signed, is `s`. -/
theorem hostScatterAdd_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![N, 1]⟩ w) (upd : (⟨1, ![N]⟩ : Shape).Idx → EReal)
    (s : Fin M) :
    Ideal.hostScatterAdd d x idx upd (ix1 s)
      = x (ix1 s) + ∑ n : Fin N, if (idx (ix2 n 0)).toInt = (s.val : ℤ) then upd (ix1 n) else 0 := by
  unfold Ideal.hostScatterAdd
  congr 1
  rw [Finset.sum_filter, ← Equiv.sum_comp (Cert.LibBincount.idxEquiv1 (n := N)).symm]
  refine Finset.sum_congr rfl (fun n _ => ?_)
  show (if d.resultIdx? (ix1 n) idx = some (ix1 s) then upd (ix1 n) else 0) = _
  simp only [Cert.LibBincount.resultIdx?_eq_some_iff M N d h1 h2 h3 h4 idx n s]

/-- The same for the host operation as a program states it, at any float format. -/
theorem scatterAdd_apply {w : ℕ} {φ : FTy} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : FVec Ideal ⟨1, ![M]⟩ φ) (idx : IVec ⟨2, ![N, 1]⟩ w) (upd : FVec Ideal ⟨1, ![N]⟩ φ) (s : Fin M) :
    Host.scatterAdd d x idx upd (ix1 s)
      = (x (ix1 s) + ∑ n : Fin N, if (idx (ix2 n 0)).toInt = (s.val : ℤ) then upd (ix1 n) else 0 : EReal) :=
  hostScatterAdd_apply M N d h1 h2 h3 h4 x idx upd s

end Cert.LibScatterAdd1
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Val.Host.lean ====
/-
  What the program's three host stretches leave in the buffers the kernel launches read, at the ideal values, entry by
  entry.

  The first stretch cuts the first layer's 256 x 128 weight into its upper and lower halves and computes the averaged
  neighbour features of the node table: for every edge the source node's row is looked up (a negative source word first
  has the row count added, and the word is then brought into the table's range), the looked-up rows are added into a
  table of zeros at the edges' destination words (a word that names no node drops its row), and row `n` of the sums
  is multiplied by one over the number of edges arriving at `n`, that number taken at least one. Because the divisor
  is at least one it is not zero, and multiplying by its reciprocal is dividing by it: no entry has to be finite.
  The second stretch runs the same lines on the first launch's output and reuses the reciprocals; it also cuts the
  second layer's weight. The third stretch lays the graph numbers of the nodes out as a one-column matrix.
-/
import proofs.«425775_j85358180040740_2_alg».proof.Proof.KI.Vals
import proofs.«425775_j85358180040740_2_alg».proof.Proof.Val.Spec
import proofs.«425775_j85358180040740_2_alg».proof.Proof.Gen.KernelIdeal.Regions
import proofs.«425775_j85358180040740_2_alg».proof.Proof.LibRowGatherScatter
import proofs.«425775_j85358180040740_2_alg».proof.Proof.LibScatterAdd1
import proofs.«425775_j85358180040740_2_alg».proof.Proof.LibColumn
import Idealize.ShloMosaic.Lib.IdealHost
import Idealize.ShloMosaic.Lib.ValueIdx
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.Fr
open scoped BigOperators

variable (m : (ℓ : Loc nD τ sig) → Buf (Elt Ideal) ℓ) (ρ : Dev nD → PrngReg) (c : Dev nD)

/-! ## The arguments on core `c`, at their literal types -/

/-- The node features. -/
abbrev xa : FVec Ideal S40000x128 .f32 := m ((c : Thread nD τ).loc main_arg0)
/-- The edge list: row 0 the source words, row 1 the destination words. -/
abbrev eia : IVec S2x640000 32 := m ((c : Thread nD τ).loc main_arg1)
/-- The graph number of every node. -/
abbrev bta : IVec S40000 32 := m ((c : Thread nD τ).loc main_arg2)
/-- The two layers' weights. -/
abbrev W1a : FVec Ideal S256x128 .f32 := m ((c : Thread nD τ).loc main_arg3)
abbrev W2a : FVec Ideal S256x128 .f32 := m ((c : Thread nD τ).loc main_arg4)
/-- Edge `e`'s source word and destination word. -/
abbrev src (e : Fin 640000) : BitVec 32 := eia m c (ix2 (0 : Fin 2) e)
abbrev dst (e : Fin 640000) : BitVec 32 := eia m c (ix2 (1 : Fin 2) e)

/-! ## A buffer no stretch writes and no launch stores to keeps its launch contents -/

theorem W1_keep (b : Ref sig .tc) (h0 : b ∉ hostOps0_W) :
    W1 m ρ c (Proc.devRef .tc b) = m ((c : Thread nD τ).loc b) :=
  StableHlo.after_of_writes_sub hostOps0 _ hostOps0_writes h0

theorem W2_keep (b : Ref sig .tc) (h0 : b ∉ hostOps0_W) (hr0 : ∀ w, Pipeline.arrRef spec0 w ≠ b) :
    W2 m ρ c (Proc.devRef .tc b) = m ((c : Thread nD τ).loc b) :=
  (W2_of_ne m ρ c b hr0).trans (W1_keep m ρ c b h0)

theorem W3_keep (b : Ref sig .tc) (h0 : b ∉ hostOps0_W) (hr0 : ∀ w, Pipeline.arrRef spec0 w ≠ b) (h1 : b ∉ hostOps1_W) :
    W3 m ρ c (Proc.devRef .tc b) = m ((c : Thread nD τ).loc b) :=
  (StableHlo.after_of_writes_sub hostOps1 _ hostOps1_writes h1).trans (W2_keep m ρ c b h0 hr0)

theorem W4_keep (b : Ref sig .tc) (h0 : b ∉ hostOps0_W) (hr0 : ∀ w, Pipeline.arrRef spec0 w ≠ b) (h1 : b ∉ hostOps1_W)
    (hr1 : ∀ w, Pipeline.arrRef spec1 w ≠ b) :
    W4 m ρ c (Proc.devRef .tc b) = m ((c : Thread nD τ).loc b) :=
  (W4_of_ne m ρ c b hr1).trans (W3_keep m ρ c b h0 hr0 h1)

theorem W5_keep (b : Ref sig .tc) (h0 : b ∉ hostOps0_W) (hr0 : ∀ w, Pipeline.arrRef spec0 w ≠ b) (h1 : b ∉ hostOps1_W)
    (hr1 : ∀ w, Pipeline.arrRef spec1 w ≠ b) (h2 : b ∉ hostOps2_W) :
    W5 m ρ c (Proc.devRef .tc b) = m ((c : Thread nD τ).loc b) :=
  (StableHlo.after_of_writes_sub hostOps2 _ hostOps2_writes h2).trans (W4_keep m ρ c b h0 hr0 h1 hr1)

/-! ## The first stretch: the weight's halves -/

/-- The first stretch writes none of the program's arguments. -/
theorem V1_arg0 : V1 m ρ c main_arg0 = m ((c : Thread nD τ).loc main_arg0) :=
  W1_keep m ρ c main_arg0 (by decide)

/-- Rows `0 … 127` of a 256-row matrix, read at `(k, q)`. -/
theorem upperHalf_apply (w : S256x128.Idx → EReal) (h : S256x128.Slices ![0, 0] S128x128) (k q : Fin 128) :
    extractStridedSlice S128x128 ![0, 0] w h (ix2 k q) = w (ix2 ⟨k.val, by omega⟩ q) :=
  extractStridedSlice_apply _ w h _ _ fun a => by
    match a with
    | ⟨0, _⟩ => show k.val = 0 + k.val; omega
    | ⟨1, _⟩ => show q.val = 0 + q.val; omega

/-- Rows `128 … 255` of a 256-row matrix, read at `(k, q)`. -/
theorem lowerHalf_apply (w : S256x128.Idx → EReal) (h : S256x128.Slices ![128, 0] S128x128) (k q : Fin 128) :
    extractStridedSlice S128x128 ![128, 0] w h (ix2 k q) = w (ix2 ⟨128 + k.val, by omega⟩ q) :=
  extractStridedSlice_apply _ w h _ _ fun a => by
    match a with
    | ⟨0, _⟩ => show 128 + k.val = 128 + k.val; rfl
    | ⟨1, _⟩ => show q.val = 0 + q.val; omega

/-- The first launch's third array as the first stretch computes it. -/
theorem V1_v25_eq : (V1 m ρ c main_v25 : S128x128.Idx → EReal)
    = extractStridedSlice S128x128 ![0, 0] (W1a m c) Facts₀.slices_S256x128_S128x128_0_0 := by
  show StableHlo.after (hostOps0 (F := Ideal)) (W0 m ρ c) (Proc.devRef .tc main_v25) = _
  after_results

/-- The first launch's fourth array as the first stretch computes it. -/
theorem V1_v26_eq : (V1 m ρ c main_v26 : S128x128.Idx → EReal)
    = extractStridedSlice S128x128 ![128, 0] (W1a m c) Facts₀.slices_S256x128_S128x128_128_0 := by
  show StableHlo.after (hostOps0 (F := Ideal)) (W0 m ρ c) (Proc.devRef .tc main_v26) = _
  after_results

/-- The first launch's third array is the upper half of the first layer's weight. -/
theorem V1_v25 (k q : Fin 128) :
    (V1 m ρ c main_v25 : S128x128.Idx → EReal) (ix2 k q) = W1a m c (ix2 ⟨k.val, by omega⟩ q) := by
  rw [V1_v25_eq]; exact upperHalf_apply _ _ k q

/-- The first launch's fourth array is the lower half of the first layer's weight. -/
theorem V1_v26 (k q : Fin 128) :
    (V1 m ρ c main_v26 : S128x128.Idx → EReal) (ix2 k q) = W1a m c (ix2 ⟨128 + k.val, by omega⟩ q) := by
  rw [V1_v26_eq]; exact lowerHalf_apply _ _ k q

/-! ## The first stretch: the edge list's rows, the reciprocal degrees, the averaged features -/

/-- Row `r` of the 2 x 640000 edge list, cut out and flattened, reads at `e` the list's entry `(r, e)`. -/
theorem edgeRow_apply (ei : IVec S2x640000 32) (r : Fin 2) (h : S2x640000.Slices ![r.val, 0] S1x640000)
    (h' : S1x640000.ShapeCasts S640000) (e : Fin 640000) :
    shapeCast S640000 (extractStridedSlice S1x640000 ![r.val, 0] ei h) h' (ix1 e) = ei (ix2 r e) := by
  refine (shapeCast_apply _ h' (ix1 e) (ix2 (0 : Fin 1) e) ?_).trans ?_
  · rw [Shape.rowMajor_val_two, Shape.rowMajor_val_one]
    show 0 * 640000 + e.val = e.val
    omega
  · refine extractStridedSlice_apply _ ei h _ _ fun a => ?_
    match a with
    | ⟨0, _⟩ => show r.val = r.val + 0; rfl
    | ⟨1, _⟩ => show e.val = 0 + e.val; omega

open StableHlo in
/-- The edge list's first row, cut out and flattened. -/
theorem V1_v1_eq : (V1 m ρ c main_v1 : S640000.Idx → BitVec 32)
    = shapeCast S640000 (extractStridedSlice S1x640000 ![0, 0] (eia m c) Facts₀.slices_S2x640000_S1x640000_0_0)
        Facts₀.shapeCasts_S1x640000_S640000 := by
  show StableHlo.after (hostOps0 (F := Ideal)) (W0 m ρ c) (Proc.devRef .tc main_v1) = _
  after_results_simp
  rfl

open StableHlo in
/-- The edge list's second row, cut out and flattened. -/
theorem V1_v3_eq : (V1 m ρ c main_v3 : S640000.Idx → BitVec 32)
    = shapeCast S640000 (extractStridedSlice S1x640000 ![1, 0] (eia m c) Facts₀.slices_S2x640000_S1x640000_1_0)
        Facts₀.shapeCasts_S1x640000_S640000 := by
  show StableHlo.after (hostOps0 (F := Ideal)) (W0 m ρ c) (Proc.devRef .tc main_v3) = _
  after_results_simp
  rfl

/-- The flattened first row of the edge list holds the source words. -/
theorem V1_v1 (e : Fin 640000) : (V1 m ρ c main_v1 : S640000.Idx → BitVec 32) (ix1 e) = src m c e := by
  rw [V1_v1_eq]; exact edgeRow_apply (eia m c) 0 _ _ e

/-- The flattened second row of the edge list holds the destination words. -/
theorem V1_v3 (e : Fin 640000) : (V1 m ρ c main_v3 : S640000.Idx → BitVec 32) (ix1 e) = dst m c e := by
  rw [V1_v3_eq]; exact edgeRow_apply (eia m c) 1 _ _ e
/-! ## The averaging chain, as functions of what it reads

Both averaging stretches run the same lines: look the source word of every edge up in the feature table (a negative
word first has the row count added), add the looked-up rows into a table of zeros at the destination words, and scale
row `n` by the reciprocal of node `n`'s degree. The reciprocal column is computed once, by the first stretch. -/

/-- The reciprocal-degree column as computed from the destination row `d` of the edge list: ones added into zeros at
    the destination words, the maximum with one, one divided by that, as a 40000 x 1 column. -/
def invDegCol (d : IVec S640000 32) : FVec Ideal S40000x1 .f32 :=
  broadcastInDim S40000x1 ![0] Facts₀.bcast_S40000_S40000x1_0
    (Host.divf (F := Ideal)
      (broadcastInDim S40000 ![] Facts₀.bcast_S_S40000 (constant (F := Ideal) S_ .f32 0x3F800000#32))
      (maximumf
        (Host.scatterAdd (F := Ideal) scatter_S40000_S640000x1_S640000_n_0_0_1
          (broadcastInDim S40000 ![] Facts₀.bcast_S_S40000 (constant (F := Ideal) S_ .f32 0x00000000#32))
          (broadcastInDim S640000x1 ![0] Facts₀.bcast_S640000_S640000x1_0 d)
          (broadcastInDim S640000 ![] Facts₀.bcast_S_S640000 (constant (F := Ideal) S_ .f32 0x3F800000#32)))
        (broadcastInDim S40000 ![] Facts₀.bcast_S_S40000 (constant (F := Ideal) S_ .f32 0x3F800000#32))))

/-- The averaged neighbour features as computed from a feature table, the two rows `s`, `d` of the edge list and a
    reciprocal-degree column. -/
def aggrOf (feat : FVec Ideal S40000x128 .f32) (s d : IVec S640000 32) (inv : FVec Ideal S40000x1 .f32) :
    FVec Ideal S40000x128 .f32 :=
  mulf
    (Host.scatterAdd (F := Ideal) scatter_S40000x128_S640000x1_S640000x128_1_0_0_1
      (broadcastInDim S40000x128 ![] Facts₀.bcast_S_S40000x128 (constant (F := Ideal) S_ .f32 0x00000000#32))
      (broadcastInDim S640000x1 ![0] Facts₀.bcast_S640000_S640000x1_0 d)
      (Host.gather gather_S40000x128_S640000x1_S640000x128_1_0_n_n_0_1_1128 feat
        (broadcastInDim S640000x1 ![0] Facts₀.bcast_S640000_S640000x1_0
          (select (cmpi .slt s (broadcastInDim S640000 ![] Facts₀.bcast_S_S640000 (constantI S_ 32 0#32)))
            (addi s (broadcastInDim S640000 ![] Facts₀.bcast_S_S640000 (constantI S_ 32 40000#32))) s))))
    (broadcastInDim S40000x128 ![0, 1] Facts₀.bcast_S40000x1_S40000x128_0_1 inv)

/-! ## The chain's pieces read at an index -/

/-- A rank-1 array laid out as a one-column matrix reads, in row `e`, its entry `e`. -/
theorem edgeCol_apply {α : Type} (d : S640000.Idx → α) (h : S640000.BroadcastsInDim S640000x1 ![0]) (e : Fin 640000)
    (u : Fin 1) : broadcastInDim S640000x1 ![0] h d (ix2 e u) = d (ix1 e) :=
  broadcastInDim_apply _ h d _ _ fun a => by
    match a with
    | ⟨0, _⟩ =>
      show e.val = if (640000 : ℕ) = 1 then 0 else e.val
      rw [if_neg (by decide)]

/-- The same for an array over the nodes. -/
theorem nodeCol_apply {α : Type} (v : S40000.Idx → α) (h : S40000.BroadcastsInDim S40000x1 ![0]) (n : Fin 40000)
    (u : Fin 1) : broadcastInDim S40000x1 ![0] h v (ix2 n u) = v (ix1 n) :=
  broadcastInDim_apply _ h v _ _ fun a => by
    match a with
    | ⟨0, _⟩ =>
      show n.val = if (40000 : ℕ) = 1 then 0 else n.val
      rw [if_neg (by decide)]

/-- A one-column matrix repeated along 128 columns reads, at `(n, q)`, the column's row `n`. -/
theorem colRepeat_apply {α : Type} (v : S40000x1.Idx → α) (h : S40000x1.BroadcastsInDim S40000x128 ![0, 1]) (n : Fin 40000)
    (q : Fin 128) : broadcastInDim S40000x128 ![0, 1] h v (ix2 n q) = v (ix2 n (0 : Fin 1)) :=
  broadcastInDim_apply _ h v _ _ fun a => by
    match a with
    | ⟨0, _⟩ =>
      show n.val = if (40000 : ℕ) = 1 then 0 else n.val
      rw [if_neg (by decide)]
    | ⟨1, _⟩ =>
      show 0 = if (1 : ℕ) = 1 then 0 else q.val
      rw [if_pos rfl]

/-- Rows added into a table at one-word indices, read at `(n, q)`: the table's entry plus the rows whose word, read
    signed, is `n`. -/
theorem rowScatter_apply (X : FVec Ideal S40000x128 .f32) (I : IVec S640000x1 32) (U : FVec Ideal S640000x128 .f32)
    (n : Fin 40000) (q : Fin 128) :
    Host.scatterAdd (F := Ideal) scatter_S40000x128_S640000x1_S640000x128_1_0_0_1 X I U (ix2 n q)
      = (X (ix2 n q) + ∑ e : Fin 640000, if (I (ix2 e 0)).toInt = (n.val : ℤ) then U (ix2 e q) else 0 : EReal) :=
  Cert.Lib.RowGS.scatterAdd_rows_apply scatter_S40000x128_S640000x1_S640000x128_1_0_0_1 rfl rfl rfl rfl X I U n q

/-- Rows looked up in a table at one-word indices, read at `(e, q)`: the table's row named by word `e`, read signed
    and brought into the table's range. -/
theorem rowGather_apply (feat : FVec Ideal S40000x128 .f32) (I : IVec S640000x1 32) (e : Fin 640000) (q : Fin 128)
    (wd : BitVec 32) (hw : I (ix2 e 0) = wd) :
    Host.gather gather_S40000x128_S640000x1_S640000x128_1_0_n_n_0_1_1128 feat I (ix2 e q)
      = feat (ix2 (⟨min wd.toInt.toNat 39999, by omega⟩ : Fin 40000) q) := by
  subst hw
  exact Cert.Lib.RowGS.gather_rows_apply (by decide) gather_S40000x128_S640000x1_S640000x128_1_0_n_n_0_1_1128
    rfl rfl rfl rfl rfl rfl rfl feat I e q

/-- Scalars added into an array at one-word indices, read at `n`. -/
theorem cellScatter_apply (X : FVec Ideal S40000 .f32) (I : IVec S640000x1 32) (U : FVec Ideal S640000 .f32) (n : Fin 40000) :
    Host.scatterAdd (F := Ideal) scatter_S40000_S640000x1_S640000_n_0_0_1 X I U (ix1 n)
      = (X (ix1 n) + ∑ e : Fin 640000, if (I (ix2 e 0)).toInt = (n.val : ℤ) then U (ix1 e) else 0 : EReal) :=
  Cert.LibScatterAdd1.scatterAdd_apply 40000 640000 scatter_S40000_S640000x1_S640000_n_0_0_1 rfl rfl rfl rfl X I U n

/-- Multiplying by the reciprocal of a divisor that is at least one is dividing by it: the divisor is not zero, so
    both quotients are products with its inverse. -/
theorem mul_div_one_of_max (s y : EReal) : s * Ideal.div 1 (max y 1) = Ideal.div s (max y 1) := by
  have hd : max y 1 ≠ 0 := ne_of_gt (lt_of_lt_of_le zero_lt_one (le_max_right y 1))
  unfold Ideal.div
  rw [if_neg hd, if_neg hd, one_mul]

/-- The reciprocal-degree column at node `n`, when the row holds the edges' destination words. -/
theorem invDegCol_apply (d : IVec S640000 32) (dstf : Fin 640000 → BitVec 32) (hd : ∀ e, d (ix1 e) = dstf e) (n : Fin 40000) :
    invDegCol d (ix2 n (0 : Fin 1)) = Ideal.div 1 (Cert.Spec.degree dstf n) := by
  unfold invDegCol
  refine (nodeCol_apply _ _ n 0).trans ?_
  rw [hostDivf_apply, maximumf_apply, cellScatter_apply]
  show Ideal.div (Ideal.ofBits .f32 0x3F800000#32)
      (max (Ideal.ofBits .f32 0x00000000#32 + ∑ e : Fin 640000,
        if ((broadcastInDim S640000x1 ![0] Facts₀.bcast_S640000_S640000x1_0 d) (ix2 e 0)).toInt = (n.val : ℤ)
          then Ideal.ofBits .f32 0x3F800000#32 else 0) (Ideal.ofBits .f32 0x3F800000#32)) = _
  rw [Ideal.ofBits_one_f32, Ideal.ofBits_zero_f32]
  unfold Cert.Spec.degree Cert.Spec.seg
  refine congrArg (fun z : EReal => Ideal.div 1 (max (0 + z) 1)) (Finset.sum_congr rfl fun e _ => ?_)
  rw [edgeCol_apply, hd e]

/-- THE AVERAGE. When the two rows hold the edges' source and destination words and the column holds the reciprocal
    degrees of those destinations, the chain's result at `(n, q)` is the mean, over the edges arriving at node `n`, of
    column `q` of their sources' features. -/
theorem aggrOf_apply (feat : FVec Ideal S40000x128 .f32) (s d : IVec S640000 32) (inv : FVec Ideal S40000x1 .f32)
    (srcf dstf : Fin 640000 → BitVec 32) (hs : ∀ e, s (ix1 e) = srcf e) (hd : ∀ e, d (ix1 e) = dstf e)
    (hinv : ∀ n : Fin 40000, inv (ix2 n (0 : Fin 1)) = Ideal.div 1 (Cert.Spec.degree dstf n))
    (n : Fin 40000) (q : Fin 128) :
    aggrOf feat s d inv (ix2 n q)
      = Cert.Spec.mean (fun e => Cert.Spec.rowOf (srcf e)) dstf (fun p k => feat (ix2 p k)) n q := by
  unfold aggrOf
  rw [mulf_apply, rowScatter_apply, colRepeat_apply, hinv]
  unfold Cert.Spec.mean Cert.Spec.degree
  rw [mul_div_one_of_max]
  refine congrArg (Ideal.div · (max (Cert.Spec.seg dstf (fun _ => 1) n) 1)) ?_
  unfold Cert.Spec.seg
  refine congrArg₂ (· + ·) Ideal.ofBits_zero_f32 (Finset.sum_congr rfl fun e _ => ?_)
  rw [edgeCol_apply, hd e, rowGather_apply feat _ e q (Cert.Spec.srcWord (srcf e))
    ((edgeCol_apply _ _ e 0).trans (congrArg Cert.Spec.srcWord (hs e)))]
  rfl

/-! ## The first stretch: the reciprocal degrees and the averaged node features -/

open StableHlo in
/-- The reciprocal-degree column is the chain's, computed from the flattened second row of the edge list. -/
theorem V1_v12_eq : (V1 m ρ c main_v12 : S40000x1.Idx → EReal) = invDegCol (V1 m ρ c main_v3) := by
  show StableHlo.after (hostOps0 (F := Ideal)) (W0 m ρ c) (Proc.devRef .tc main_v12)
    = invDegCol (StableHlo.after (hostOps0 (F := Ideal)) (W0 m ρ c) (Proc.devRef .tc main_v3))
  after_results_simp
  rfl

open StableHlo in
/-- The first launch's second array is the averaging chain on the node features, the two flattened rows of the edge
    list and the reciprocal-degree column. -/
theorem V1_v24_eq : (V1 m ρ c main_v24 : S40000x128.Idx → EReal)
    = aggrOf (xa m c) (V1 m ρ c main_v1) (V1 m ρ c main_v3) (V1 m ρ c main_v12) := by
  show StableHlo.after (hostOps0 (F := Ideal)) (W0 m ρ c) (Proc.devRef .tc main_v24)
    = aggrOf _ (StableHlo.after (hostOps0 (F := Ideal)) (W0 m ρ c) (Proc.devRef .tc main_v1))
        (StableHlo.after (hostOps0 (F := Ideal)) (W0 m ρ c) (Proc.devRef .tc main_v3))
        (StableHlo.after (hostOps0 (F := Ideal)) (W0 m ρ c) (Proc.devRef .tc main_v12))
  after_results_simp
  rfl

/-- The reciprocal-degree column the first stretch leaves: at node `n`, one over the number of edges arriving at
    `n`, that number taken at least one. -/
theorem V1_v12 (n : Fin 40000) :
    (V1 m ρ c main_v12 : S40000x1.Idx → EReal) (ix2 n (0 : Fin 1)) = Ideal.div 1 (Cert.Spec.degree (dst m c) n) := by
  rw [V1_v12_eq]
  exact invDegCol_apply _ (dst m c) (V1_v3 m ρ c) n

/-- The first launch's second array: the average of the neighbours' node features. -/
theorem V1_v24 (n : Fin 40000) (q : Fin 128) :
    (V1 m ρ c main_v24 : S40000x128.Idx → EReal) (ix2 n q)
      = Cert.Spec.mean (fun e => Cert.Spec.rowOf (src m c e)) (dst m c) (fun p k => xa m c (ix2 p k)) n q := by
  refine (congrFun (V1_v24_eq m ρ c) (ix2 n q)).trans ?_
  exact aggrOf_apply (xa m c) _ _ _ (src m c) (dst m c) (V1_v1 m ρ c) (V1_v3 m ρ c) (V1_v12 m ρ c) n q

/-! ## The second stretch -/

/-- The second stretch does not write the first launch's output, which is what that launch's write-backs left. -/
theorem V3_v27 : V3 m ρ c main_v27 = (dat0 (V1 m ρ) c).arrAt 4 cfg0.N :=
  (StableHlo.after_of_writes_sub hostOps1 _ hostOps1_writes (by decide)).trans (W2_arr m ρ c 4)

/-- The second launch's third array as the second stretch computes it. -/
theorem V3_v40_eq : (V3 m ρ c main_v40 : S128x128.Idx → EReal)
    = extractStridedSlice S128x128 ![0, 0] (W2 m ρ c (Proc.devRef .tc main_arg4)) Facts₀.slices_S256x128_S128x128_0_0 := by
  show StableHlo.after (hostOps1 (F := Ideal)) (W2 m ρ c) (Proc.devRef .tc main_v40) = _
  after_results

/-- The second launch's fourth array as the second stretch computes it. -/
theorem V3_v41_eq : (V3 m ρ c main_v41 : S128x128.Idx → EReal)
    = extractStridedSlice S128x128 ![128, 0] (W2 m ρ c (Proc.devRef .tc main_arg4)) Facts₀.slices_S256x128_S128x128_128_0 := by
  show StableHlo.after (hostOps1 (F := Ideal)) (W2 m ρ c) (Proc.devRef .tc main_v41) = _
  after_results

/-- The second launch's third array is the upper half of the second layer's weight. -/
theorem V3_v40 (k q : Fin 128) :
    (V3 m ρ c main_v40 : S128x128.Idx → EReal) (ix2 k q) = W2a m c (ix2 ⟨k.val, by omega⟩ q) := by
  rw [V3_v40_eq, W2_keep m ρ c main_arg4 (by decide) (by decide)]; exact upperHalf_apply _ _ k q

/-- The second launch's fourth array is the lower half of the second layer's weight. -/
theorem V3_v41 (k q : Fin 128) :
    (V3 m ρ c main_v41 : S128x128.Idx → EReal) (ix2 k q) = W2a m c (ix2 ⟨128 + k.val, by omega⟩ q) := by
  rw [V3_v41_eq, W2_keep m ρ c main_arg4 (by decide) (by decide)]; exact lowerHalf_apply _ _ k q

open StableHlo in
/-- The second launch's second array is the same averaging chain, on the first launch's output and on the edge rows
    and the reciprocal-degree column as the first launch left them. -/
theorem V3_v39_eq : (V3 m ρ c main_v39 : S40000x128.Idx → EReal)
    = aggrOf (W2 m ρ c (Proc.devRef .tc main_v27)) (W2 m ρ c (Proc.devRef .tc main_v1))
        (W2 m ρ c (Proc.devRef .tc main_v3)) (W2 m ρ c (Proc.devRef .tc main_v12)) := by
  show StableHlo.after (hostOps1 (F := Ideal)) (W2 m ρ c) (Proc.devRef .tc main_v39) = _
  after_results_simp
  rfl

/-- The second launch's second array: the average of the neighbours' first-layer outputs. The edge rows and the
    reciprocal degrees are the first stretch's, which neither the first launch nor the second stretch writes. -/
theorem V3_v39 (n : Fin 40000) (q : Fin 128) :
    (V3 m ρ c main_v39 : S40000x128.Idx → EReal) (ix2 n q)
      = Cert.Spec.mean (fun e => Cert.Spec.rowOf (src m c e)) (dst m c)
          (fun p k => (V3 m ρ c main_v27 : S40000x128.Idx → EReal) (ix2 p k)) n q := by
  have e27 : V3 m ρ c main_v27 = W2 m ρ c (Proc.devRef .tc main_v27) :=
    StableHlo.after_of_writes_sub hostOps1 _ hostOps1_writes (by decide)
  have e1 : W2 m ρ c (Proc.devRef .tc main_v1) = V1 m ρ c main_v1 := W2_of_ne m ρ c main_v1 (by decide)
  have e3 : W2 m ρ c (Proc.devRef .tc main_v3) = V1 m ρ c main_v3 := W2_of_ne m ρ c main_v3 (by decide)
  have e12 : W2 m ρ c (Proc.devRef .tc main_v12) = V1 m ρ c main_v12 := W2_of_ne m ρ c main_v12 (by decide)
  refine (congrFun (V3_v39_eq m ρ c) (ix2 n q)).trans ?_
  rw [e27]
  exact aggrOf_apply (W2 m ρ c (Proc.devRef .tc main_v27)) _ _ _ (src m c) (dst m c)
    (fun e => (congrFun e1 (ix1 e)).trans (V1_v1 m ρ c e)) (fun e => (congrFun e3 (ix1 e)).trans (V1_v3 m ρ c e))
    (fun n' => (congrFun e12 (ix2 n' (0 : Fin 1))).trans (V1_v12 m ρ c n')) n q

/-! ## The third stretch -/

/-- The third launch's first array as the third stretch computes it: the graph numbers, reshaped. -/
theorem V5_v43_eq : (V5 m ρ c main_v43 : S40000x1.Idx → BitVec 32)
    = shapeCast S40000x1 (W4 m ρ c (Proc.devRef .tc main_arg2)) Facts₀.shapeCasts_S40000_S40000x1 := by
  show StableHlo.after (hostOps2 (F := Ideal)) (W4 m ρ c) (Proc.devRef .tc main_v43) = _
  after_results
  rfl

/-- The third launch's first array: the nodes' graph numbers as a one-column matrix. -/
theorem V5_v43 (r : Fin 40000) :
    (V5 m ρ c main_v43 : S40000x1.Idx → BitVec 32) (ix2 r (0 : Fin 1)) = bta m c (ix1 r) := by
  rw [V5_v43_eq, W4_keep m ρ c main_arg2 (by decide) (by decide) (by decide) (by decide)]
  exact Cert.Lib.Column.shapeCast_a_a1_apply _ _ r 0

/-- The third stretch does not write the second launch's output, which is what that launch's write-backs left. -/
theorem V5_v42 : V5 m ρ c main_v42 = (dat1 (V3 m ρ) c).arrAt 4 cfg1.N :=
  (StableHlo.after_of_writes_sub hostOps2 _ hostOps2_writes (by decide)).trans (W4_arr m ρ c 4)

/-- The read-out weight reaches the third launch as launched. -/
theorem V5_arg5 : V5 m ρ c main_arg5 = m ((c : Thread nD τ).loc main_arg5) :=
  W5_keep m ρ c main_arg5 (by decide) (by decide) (by decide) (by decide) (by decide)

end Cert.KernelIdeal.Val

end
-- ==== Proof.KI.R2Open.lean ====
/-
  The pooling launch's running totals, opened: each tile's run leaves in the two scratch buffers exactly what the body's
  arithmetic says — the first tile starts both totals from zero and adds its contribution, every later tile adds its
  contribution to what the tile before left — and the last tile stores the answers computed from the totals it has
  just updated.
-/
import proofs.«425775_j85358180040740_2_alg».proof.Proof.KI.R2
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What each case's stores leave, as the body's arithmetic -/

/-- First tile, row-sum total: the zero block is stored, read back, and the tile's contribution added to it. -/
theorem sA0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i) (x0 : Vec F S4000x1 .i32) (x1 : Vec F S4000x128 .f32) (x2 : Vec F S128x1 .f32) :
    sout2_A_0 (F := F) c i arg1 harg1 arg2 harg2 arg3 harg3 arg4 harg4 arg5 harg5 arg6 harg6 hc0 hc1 x0 x1 x2 = k2_pay5 i x0 x1 k2_pay2 := by
  unfold sout2_A_0
  rw [View.read_writes_eq_canon _ _ _ (scover2_A_0 c i arg1 harg1 arg2 harg2 arg3 harg3 arg4 harg4 arg5 harg5 arg6 harg6 hc0 hc1 x0 x1 x2)]
  unfold kernelRun2_A
  dsimp only
  sl_unfold_words
  rw [View.canon_cons_unit_zero (S := S256x128) hz2]
  simp only [View.readCov_unit_zero (S := S1x256) _ hz2, View.readCov_unit_zero (S := S256x128) _ hz2, View.readAt_eq_ld,
    harg1.read_unread, harg2.read_unread, harg3.read_unread, harg5.read_unread, harg6.read_unread,
    View.ld_unit_zero (S := S4000x1) hz2, View.ld_unit_zero (S := S4000x128) hz2, View.ld_unit_zero (S := S128x1) hz2,
    View.ld_unit_zero (S := S256x128) hz2, View.ld_unit_zero (S := S1x256) hz2]

/-- First tile, row-count total. -/
theorem sA1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : cond2_0 i) (hc1 : ¬cond2_1 i) (x0 : Vec F S4000x1 .i32) (x1 : Vec F S4000x128 .f32) (x2 : Vec F S128x1 .f32) :
    sout2_A_1 (F := F) c i arg1 harg1 arg2 harg2 arg3 harg3 arg4 harg4 arg5 harg5 arg6 harg6 hc0 hc1 x0 x1 x2 = k2_pay6 i x0 k2_pay3 := by
  unfold sout2_A_1
  rw [View.read_writes_eq_canon _ _ _ (scover2_A_1 c i arg1 harg1 arg2 harg2 arg3 harg3 arg4 harg4 arg5 harg5 arg6 harg6 hc0 hc1 x0 x1 x2)]
  unfold kernelRun2_A
  dsimp only
  sl_unfold_words
  rw [View.canon_cons_unit_zero (S := S1x256) hz2]
  simp only [View.readCov_unit_zero (S := S1x256) _ hz2, View.readCov_unit_zero (S := S256x128) _ hz2, View.readAt_eq_ld,
    harg1.read_unread, harg2.read_unread, harg3.read_unread, harg5.read_unread, harg6.read_unread,
    View.ld_unit_zero (S := S4000x1) hz2, View.ld_unit_zero (S := S4000x128) hz2, View.ld_unit_zero (S := S128x1) hz2,
    View.ld_unit_zero (S := S256x128) hz2, View.ld_unit_zero (S := S1x256) hz2]

/-- Middle tile: the tile's contribution is added to what the tile before left. -/
theorem sB0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i) (x0 : Vec F S4000x1 .i32) (x1 : Vec F S4000x128 .f32) (x2 : Vec F S128x1 .f32) (xs0 : Vec F S256x128 .f32) (xs1 : Vec F S1x256 .f32) :
    sout2_B_0 (F := F) c i arg1 harg1 arg2 harg2 arg3 harg3 arg4 harg4 arg5 harg5 arg6 harg6 hc0 hc1 x0 x1 x2 xs0 xs1 = k2_pay5 i x0 x1 xs0 := by
  unfold sout2_B_0
  rw [View.read_writes_eq_canon _ _ _ (scover2_B_0 c i arg1 harg1 arg2 harg2 arg3 harg3 arg4 harg4 arg5 harg5 arg6 harg6 hc0 hc1 x0 x1 x2 xs0 xs1)]
  unfold kernelRun2_B
  dsimp only
  sl_unfold_words
  rw [View.canon_unit_zero hz2]
  simp only [View.readCov_unit_zero (S := S1x256) _ hz2, View.readCov_unit_zero (S := S256x128) _ hz2, View.readAt_eq_ld,
    harg1.read_unread, harg2.read_unread, harg3.read_unread, harg5.read_unread, harg6.read_unread,
    View.ld_unit_zero (S := S4000x1) hz2, View.ld_unit_zero (S := S4000x128) hz2, View.ld_unit_zero (S := S128x1) hz2,
    View.ld_unit_zero (S := S256x128) hz2, View.ld_unit_zero (S := S1x256) hz2]

theorem sB1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : ¬cond2_1 i) (x0 : Vec F S4000x1 .i32) (x1 : Vec F S4000x128 .f32) (x2 : Vec F S128x1 .f32) (xs0 : Vec F S256x128 .f32) (xs1 : Vec F S1x256 .f32) :
    sout2_B_1 (F := F) c i arg1 harg1 arg2 harg2 arg3 harg3 arg4 harg4 arg5 harg5 arg6 harg6 hc0 hc1 x0 x1 x2 xs0 xs1 = k2_pay6 i x0 xs1 := by
  unfold sout2_B_1
  rw [View.read_writes_eq_canon _ _ _ (scover2_B_1 c i arg1 harg1 arg2 harg2 arg3 harg3 arg4 harg4 arg5 harg5 arg6 harg6 hc0 hc1 x0 x1 x2 xs0 xs1)]
  unfold kernelRun2_B
  dsimp only
  sl_unfold_words
  rw [View.canon_unit_zero hz2]
  simp only [View.readCov_unit_zero (S := S1x256) _ hz2, View.readCov_unit_zero (S := S256x128) _ hz2, View.readAt_eq_ld,
    harg1.read_unread, harg2.read_unread, harg3.read_unread, harg5.read_unread, harg6.read_unread,
    View.ld_unit_zero (S := S4000x1) hz2, View.ld_unit_zero (S := S4000x128) hz2, View.ld_unit_zero (S := S128x1) hz2,
    View.ld_unit_zero (S := S256x128) hz2, View.ld_unit_zero (S := S1x256) hz2]

/-- Last tile: the totals as at a middle tile, -/
theorem sC0 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) :
    sout2_C_0 (F := F) c i arg1 harg1 arg2 harg2 arg3 harg3 arg4 harg4 arg5 harg5 arg6 harg6 hc0 hc1 x0 x1 x2 xs0 xs1 = k2_pay5 i x0 x1 xs0 := by
  unfold sout2_C_0
  rw [View.read_writes_eq_canon _ _ _ (scover2_C_0 c i arg1 harg1 arg2 harg2 arg3 harg3 arg4 harg4 arg5 harg5 arg6 harg6 hc0 hc1 x0 x1 x2 xs0 xs1)]
  unfold kernelRun2_C
  dsimp only
  sl_unfold_words
  rw [View.canon_unit_zero hz2]
  simp only [View.readCov_unit_zero (S := S1x256) _ hz2, View.readCov_unit_zero (S := S256x128) _ hz2, View.readAt_eq_ld,
    harg1.read_unread, harg2.read_unread, harg3.read_unread, harg5.read_unread, harg6.read_unread,
    View.ld_unit_zero (S := S4000x1) hz2, View.ld_unit_zero (S := S4000x128) hz2, View.ld_unit_zero (S := S128x1) hz2,
    View.ld_unit_zero (S := S256x128) hz2, View.ld_unit_zero (S := S1x256) hz2]

theorem sC1 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) :
    sout2_C_1 (F := F) c i arg1 harg1 arg2 harg2 arg3 harg3 arg4 harg4 arg5 harg5 arg6 harg6 hc0 hc1 x0 x1 x2 xs0 xs1 = k2_pay6 i x0 xs1 := by
  unfold sout2_C_1
  rw [View.read_writes_eq_canon _ _ _ (scover2_C_1 c i arg1 harg1 arg2 harg2 arg3 harg3 arg4 harg4 arg5 harg5 arg6 harg6 hc0 hc1 x0 x1 x2 xs0 xs1)]
  unfold kernelRun2_C
  dsimp only
  sl_unfold_words
  rw [View.canon_unit_zero hz2]
  simp only [View.readCov_unit_zero (S := S1x256) _ hz2, View.readCov_unit_zero (S := S256x128) _ hz2, View.readAt_eq_ld,
    harg1.read_unread, harg2.read_unread, harg3.read_unread, harg5.read_unread, harg6.read_unread,
    View.ld_unit_zero (S := S4000x1) hz2, View.ld_unit_zero (S := S4000x128) hz2, View.ld_unit_zero (S := S128x1) hz2,
    View.ld_unit_zero (S := S256x128) hz2, View.ld_unit_zero (S := S1x256) hz2]

/-- and the output block: the answers computed from the two totals as this tile has just left them. -/
theorem sC3 (c : Dev nD) (i : grid2.Coords) (arg1 : Memref sig .tc .vmem S4000x1 .i32) (harg1 : arg1.IsWhole) (arg2 : Memref sig .tc .vmem S4000x128 .f32) (harg2 : arg2.IsWhole) (arg3 : Memref sig .tc .vmem S128x1 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S1x256 .f32) (harg6 : arg6.IsWhole) (hc0 : ¬cond2_0 i) (hc1 : cond2_1 i) (x0 : Vec F S4000x1 .i32) (x1 : Vec F S4000x128 .f32) (x2 : Vec F S128x1 .f32) (xs0 : Vec F S256x128 .f32) (xs1 : Vec F S1x256 .f32) :
    out2_C_3 (F := F) c i arg1 harg1 arg2 harg2 arg3 harg3 arg4 harg4 arg5 harg5 arg6 harg6 hc0 hc1 x0 x1 x2 xs0 xs1 = k2_pay1 (k2_pay6 i x0 xs1) (k2_pay5 i x0 x1 xs0) x2 := by
  unfold out2_C_3
  rw [View.read_writes_eq_canon _ _ _ (cover2_C_3 c i arg1 harg1 arg2 harg2 arg3 harg3 arg4 harg4 arg5 harg5 arg6 harg6 hc0 hc1 x0 x1 x2 xs0 xs1)]
  unfold kernelRun2_C
  dsimp only
  sl_unfold_words
  rw [View.canon_unit_zero hz2]
  simp only [View.readCov_unit_zero (S := S1x256) _ hz2, View.readCov_unit_zero (S := S256x128) _ hz2, View.readAt_eq_ld,
    harg1.read_unread, harg2.read_unread, harg3.read_unread, harg5.read_unread, harg6.read_unread,
    View.ld_unit_zero (S := S4000x1) hz2, View.ld_unit_zero (S := S4000x128) hz2, View.ld_unit_zero (S := S128x1) hz2,
    View.ld_unit_zero (S := S256x128) hz2, View.ld_unit_zero (S := S1x256) hz2]

section Regions
variable (V : (c : Dev nD) → (b : Ref sig .tc) → Buf (Elt F) ((c : Thread nD τ).loc b))

/-- After the first tile: zero plus the tile's contribution. -/
theorem tot0_zero (c : Dev nD) (h : 0 < cfg2.N) :
    (outsAt2 V c 0 h).2.1 = k2_pay5 (grid2.coords ⟨0, h⟩) (iblk2 V c 0 ⟨0, h⟩) (iblk2 V c 1 ⟨0, h⟩) (k2_pay2 (F := F)) := by
  have e := outsAt2_A V c ⟨0, h⟩ rfl (by show ¬0 % 10 = 9; decide)
  rw [show outsAt2 V c 0 h = outsAt2 V c (⟨0, h⟩ : Fin cfg2.N).val (⟨0, h⟩ : Fin cfg2.N).isLt from rfl, e]
  dsimp only
  exact sA0 (F := F) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) scM2_0 (Memref.isWhole_whole _) scM2_1 (Memref.isWhole_whole _) _ _ (iblk2 V c 0 ⟨0, h⟩) (iblk2 V c 1 ⟨0, h⟩) (iblk2 V c 2 ⟨0, h⟩)
theorem tot1_zero (c : Dev nD) (h : 0 < cfg2.N) :
    (outsAt2 V c 0 h).2.2 = k2_pay6 (grid2.coords ⟨0, h⟩) (iblk2 V c 0 ⟨0, h⟩) (k2_pay3 (F := F)) := by
  have e := outsAt2_A V c ⟨0, h⟩ rfl (by show ¬0 % 10 = 9; decide)
  rw [show outsAt2 V c 0 h = outsAt2 V c (⟨0, h⟩ : Fin cfg2.N).val (⟨0, h⟩ : Fin cfg2.N).isLt from rfl, e]
  dsimp only
  exact sA1 (F := F) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) scM2_0 (Memref.isWhole_whole _) scM2_1 (Memref.isWhole_whole _) _ _ (iblk2 V c 0 ⟨0, h⟩) (iblk2 V c 1 ⟨0, h⟩) (iblk2 V c 2 ⟨0, h⟩)

/-- After a later tile: what the tile before left plus the tile's contribution. -/
theorem tot0_succ (c : Dev nD) (n : ℕ) (h : n + 1 < cfg2.N) :
    (outsAt2 V c (n + 1) h).2.1 = k2_pay5 (grid2.coords ⟨n + 1, h⟩) (iblk2 V c 0 ⟨n + 1, h⟩) (iblk2 V c 1 ⟨n + 1, h⟩) (outsAt2 V c n (Nat.lt_of_succ_lt h)).2.1 := by
  have hN : cfg2.N = 10 := N_2
  have h0 : ¬(⟨n + 1, h⟩ : Fin cfg2.N).val % 10 = 0 := by dsimp only; omega
  rw [show outsAt2 V c (n + 1) h = outsAt2 V c (⟨n + 1, h⟩ : Fin cfg2.N).val (⟨n + 1, h⟩ : Fin cfg2.N).isLt from rfl]
  by_cases h1 : (⟨n + 1, h⟩ : Fin cfg2.N).val % 10 = 9
  · rw [outsAt2_C V c ⟨n + 1, h⟩ h0 h1]
    dsimp only
    exact (sC0 (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) scM2_0 (Memref.isWhole_whole _) scM2_1 (Memref.isWhole_whole _) _ _ (iblk2 V c 0 ⟨n + 1, h⟩) (iblk2 V c 1 ⟨n + 1, h⟩) (iblk2 V c 2 ⟨n + 1, h⟩) _ _).trans rfl
  · rw [outsAt2_B V c ⟨n + 1, h⟩ h0 h1]
    dsimp only
    exact (sB0 (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) scM2_0 (Memref.isWhole_whole _) scM2_1 (Memref.isWhole_whole _) _ _ (iblk2 V c 0 ⟨n + 1, h⟩) (iblk2 V c 1 ⟨n + 1, h⟩) (iblk2 V c 2 ⟨n + 1, h⟩) _ _).trans rfl
theorem tot1_succ (c : Dev nD) (n : ℕ) (h : n + 1 < cfg2.N) :
    (outsAt2 V c (n + 1) h).2.2 = k2_pay6 (grid2.coords ⟨n + 1, h⟩) (iblk2 V c 0 ⟨n + 1, h⟩) (outsAt2 V c n (Nat.lt_of_succ_lt h)).2.2 := by
  have hN : cfg2.N = 10 := N_2
  have h0 : ¬(⟨n + 1, h⟩ : Fin cfg2.N).val % 10 = 0 := by dsimp only; omega
  rw [show outsAt2 V c (n + 1) h = outsAt2 V c (⟨n + 1, h⟩ : Fin cfg2.N).val (⟨n + 1, h⟩ : Fin cfg2.N).isLt from rfl]
  by_cases h1 : (⟨n + 1, h⟩ : Fin cfg2.N).val % 10 = 9
  · rw [outsAt2_C V c ⟨n + 1, h⟩ h0 h1]
    dsimp only
    exact (sC1 (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) scM2_0 (Memref.isWhole_whole _) scM2_1 (Memref.isWhole_whole _) _ _ (iblk2 V c 0 ⟨n + 1, h⟩) (iblk2 V c 1 ⟨n + 1, h⟩) (iblk2 V c 2 ⟨n + 1, h⟩) _ _).trans rfl
  · rw [outsAt2_B V c ⟨n + 1, h⟩ h0 h1]
    dsimp only
    exact (sB1 (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) scM2_0 (Memref.isWhole_whole _) scM2_1 (Memref.isWhole_whole _) _ _ (iblk2 V c 0 ⟨n + 1, h⟩) (iblk2 V c 1 ⟨n + 1, h⟩) (iblk2 V c 2 ⟨n + 1, h⟩) _ _).trans rfl

/-- After the last tile the output block holds the answers computed from the totals as that tile leaves them. -/
theorem out_last (c : Dev nD) (h : 9 < cfg2.N) :
    (outsAt2 V c 9 h).1 = k2_pay1 (outsAt2 V c 9 h).2.2 (outsAt2 V c 9 h).2.1 (iblk2 V c 2 ⟨9, h⟩) := by
  have h0 : ¬(⟨9, h⟩ : Fin cfg2.N).val % 10 = 0 := by show ¬9 % 10 = 0; decide
  have h1 : (⟨9, h⟩ : Fin cfg2.N).val % 10 = 9 := rfl
  rw [show outsAt2 V c 9 h = outsAt2 V c (⟨9, h⟩ : Fin cfg2.N).val (⟨9, h⟩ : Fin cfg2.N).isLt from rfl, outsAt2_C V c ⟨9, h⟩ h0 h1]
  dsimp only
  rw [sC3 (F := F) c (grid2.coords ⟨9, h⟩) (ms2_0 ⟨9, h⟩) (hs2_0 ⟨9, h⟩) (ms2_1 ⟨9, h⟩) (hs2_1 ⟨9, h⟩) (ms2_2 ⟨9, h⟩) (hs2_2 ⟨9, h⟩) (ms2_3 ⟨9, h⟩) (hs2_3 ⟨9, h⟩) scM2_0 (Memref.isWhole_whole _) scM2_1 (Memref.isWhole_whole _) _ _ (iblk2 V c 0 ⟨9, h⟩) (iblk2 V c 1 ⟨9, h⟩) (iblk2 V c 2 ⟨9, h⟩) _ _, sC0 (F := F) c (grid2.coords ⟨9, h⟩) (ms2_0 ⟨9, h⟩) (hs2_0 ⟨9, h⟩) (ms2_1 ⟨9, h⟩) (hs2_1 ⟨9, h⟩) (ms2_2 ⟨9, h⟩) (hs2_2 ⟨9, h⟩) (ms2_3 ⟨9, h⟩) (hs2_3 ⟨9, h⟩) scM2_0 (Memref.isWhole_whole _) scM2_1 (Memref.isWhole_whole _) _ _ (iblk2 V c 0 ⟨9, h⟩) (iblk2 V c 1 ⟨9, h⟩) (iblk2 V c 2 ⟨9, h⟩) _ _, sC1 (F := F) c (grid2.coords ⟨9, h⟩) (ms2_0 ⟨9, h⟩) (hs2_0 ⟨9, h⟩) (ms2_1 ⟨9, h⟩) (hs2_1 ⟨9, h⟩) (ms2_2 ⟨9, h⟩) (hs2_2 ⟨9, h⟩) (ms2_3 ⟨9, h⟩) (hs2_3 ⟨9, h⟩) scM2_0 (Memref.isWhole_whole _) scM2_1 (Memref.isWhole_whole _) _ _ (iblk2 V c 0 ⟨9, h⟩) (iblk2 V c 1 ⟨9, h⟩) (iblk2 V c 2 ⟨9, h⟩) _ _]

end Regions

end Cert.KernelIdeal.Fr

end
-- ==== Proof.Val.PoolPay.lean ====
/-
  The pooling kernel's pure values, read at one index on the extended reals.

  Per tile of 4000 rows the kernel builds the indicator matrix `[4000, 256]` whose entry `(r, g)` is one when row `r`
  of the tile belongs to graph `g` (the graph word of the row, read signed, is `g`) and zero otherwise, times a factor
  that is one on every row of the table (row `4000 t + r` is below 40000 on each of the ten tiles). The feature sums are
  the product of the indicator's transpose with the tile of features, added to the running sums; the node counts are
  the column sums of the indicator, added to the running counts. The final value divides each graph's feature sums by
  its count (never less than one), contracts the 128 columns against the read-out weights and applies the logistic
  function.

  Each statement reads one such value at `(row, column)` as a closed expression: a `∑` over the tile's rows for the two
  accumulations, a `∑` over the 128 columns for the read-out.
-/
import proofs.«425775_j85358180040740_2_alg».proof.Proof.Gen.KernelIdeal.Skeleton
import proofs.«425775_j85358180040740_2_alg».proof.Proof.Val.Spec
import proofs.«425775_j85358180040740_2_alg».proof.Proof.LibPlainMatmul
import proofs.«425775_j85358180040740_2_alg».proof.Proof.LibColumn
import Idealize.ShloMosaic.Lib.IdealHost
import Idealize.ShloMosaic.Lib.ValueIdx
import Idealize.ShloMosaic.Lib.Pipeline.Value
import Idealize.ShloMosaic.Lib.StableHlo.Predicate
import Idealize.ShloMosaic.PureOps.Ideal.Laws
import Mathlib.Algebra.BigOperators.Fin

noncomputable section

namespace Cert.KernelIdeal.Val

open Idealize.ShloMosaic Idealize.ShloMosaic.ValueIdx Cert.KernelIdeal Cert.KernelIdeal.Gen
open scoped BigOperators

/-! ## Words: the indicator's two comparisons -/

/-- A vector comparison of words is the comparison of the words at each index. -/
theorem cmpi_apply {s : Shape} {w : Nat} (p : CmpIPredicate) (x y : IVec s w) (j : s.Idx) :
    cmpi p x y j = IntOp.cmpi p (x j) (y j) := rfl

/-- A vector sum of words is the sum of the words at each index. -/
theorem addi_apply {s : Shape} {w : Nat} (x y : IVec s w) (j : s.Idx) : addi x y j = IntOp.addi (x j) (y j) := rfl

/-- A one-bit word widened to 32 bits and converted to a float is one when the bit is set and zero when it is not. -/
theorem sitofp_bit (b : BitVec 1) :
    FloatOps.sitofp (F := Ideal) .f32 (b.setWidth 32) = if b = 1#1 then (1 : EReal) else 0 := by
  by_cases h : b = 1#1
  · subst h
    rw [if_pos rfl]
    show (((((1#1 : BitVec 1).setWidth 32).toInt : ℤ) : ℝ) : EReal) = 1
    rw [show ((1#1 : BitVec 1).setWidth 32).toInt = 1 by decide]
    norm_num
  · rw [if_neg h, eq_zero_of_ne_one h]
    show (((((0#1 : BitVec 1).setWidth 32).toInt : ℤ) : ℝ) : EReal) = 0
    rw [show ((0#1 : BitVec 1).setWidth 32).toInt = 0 by decide]
    norm_num

/-- A 32-bit word is the word of a number below 2³¹ exactly when it reads, signed, as that number. -/
theorem word_eq_ofNat_iff (x : BitVec 32) (g : ℕ) (hg : g < 2 ^ 31) : x = BitVec.ofNat 32 g ↔ x.toInt = (g : ℤ) := by
  constructor
  · rintro rfl; exact StableHlo.Predicate.toInt_ofNat_small g hg
  · intro h; apply BitVec.eq_of_toInt_eq; rw [h, StableHlo.Predicate.toInt_ofNat_small g hg]

/-- Row `r` of tile `t` is row `4000 t + r` of the table, which is below 40000 for each of the ten tiles: the word
    arithmetic does not wrap, and the signed comparison holds. -/
theorem row_valid (t r : ℕ) (ht : t < 10) (hr : r < 4000) :
    IntOp.cmpi .slt (IntOp.addi (Scalar.muli (BitVec.ofNat 32 t) 4000#32) (BitVec.ofNat 32 r)) 40000#32 = 1#1 := by
  have e : IntOp.addi (Scalar.muli (BitVec.ofNat 32 t) 4000#32) (BitVec.ofNat 32 r) = BitVec.ofNat 32 (t * 4000 + r) := by
    show BitVec.ofNat 32 t * BitVec.ofNat 32 4000 + BitVec.ofNat 32 r = _
    rw [← BitVec.ofNat_mul, ← BitVec.ofNat_add]
  have hn : (BitVec.ofNat 32 (t * 4000 + r)).toNat = t * 4000 + r := by
    rw [BitVec.toNat_ofNat]; exact Nat.mod_eq_of_lt (by omega)
  rw [e]
  refine (StableHlo.Predicate.slt_iff_toNat ?_ ?_).mpr ?_
  · rw [hn]; omega
  · decide
  · rw [hn, show (40000#32 : BitVec 32).toNat = 40000 from rfl]; omega

/-! ## The zero values the accumulators start from -/

/-- The feature sums start at zero. -/
theorem pay2_apply (g : Fin 256) (d : Fin 128) : k2_pay2 (F := Ideal) (ix2 g d) = 0 := by
  unfold k2_pay2
  rw [shapeCast_self]
  exact Ideal.ofBits_zero_f32

/-- The node counts start at zero. -/
theorem pay3_apply (g : Fin 256) : k2_pay3 (F := Ideal) (ix2 (0 : Fin 1) g) = 0 := by
  unfold k2_pay3
  rw [shapeCast_self]
  exact Ideal.ofBits_zero_f32

/-! ## The indicator: row `r` of the tile belongs to graph `g` -/

/-- The indicator at `(r, g)`: one when the graph word of row `r`, read signed, is `g`, zero otherwise. The column
    number `g` is below 256, so a word equals the word of `g` exactly when it reads as `g`; the row-validity factor is
    one on each of the ten tiles, and `x · 1 = x`. -/
theorem pay4_apply (i : grid2.Coords) (v3 : Vec Ideal S4000x1 .i32) (r : Fin 4000) (g : Fin 256) (hi : (i 0).val < 10) :
    k2_pay4 (F := Ideal) i v3 (ix2 r g) = if (v3 (ix2 r (0 : Fin 1))).toInt = (g.val : ℤ) then 1 else 0 := by
  have hiff : IntOp.cmpi .eq (v3 (ix2 r (0 : Fin 1))) (BitVec.ofNat 32 g.val) = 1#1
      ↔ (v3 (ix2 r (0 : Fin 1))).toInt = (g.val : ℤ) :=
    StableHlo.Predicate.cmpi_eq_iff.trans (word_eq_ofNat_iff _ _ (by have := g.isLt; omega))
  have e1 : iota .tc S4000x256 32 [1] iota_S4000x256_d1_w32 (ix2 r g) = BitVec.ofNat 32 g.val :=
    iota_single_apply .tc S4000x256 32 1 iota_S4000x256_d1_w32 (ix2 r g)
  have e0 : iota .tc S4000x1 32 [0] iota_S4000x1_d0_w32 (ix2 r (0 : Fin 1)) = BitVec.ofNat 32 r.val :=
    iota_single_apply .tc S4000x1 32 0 iota_S4000x1_d0_w32 (ix2 r (0 : Fin 1))
  unfold k2_pay4
  simp only [mulf_apply, sitofp_apply, extui_apply, shapeCast_self, cmpi_apply, addi_apply, broadcast_apply,
    Cert.Lib.Column.broadcastTo_a1_ab_apply]
  rw [sitofp_bit, sitofp_bit, e1, e0, row_valid _ _ hi r.isLt, if_pos rfl, mul_one]
  exact if_congr hiff rfl rfl

/-! ## A product that contracts the row axis of both operands

`[k, a]ᵀ × [k, b] → [a, b]`: the left operand's axis 0 against the right operand's axis 0, no batch axis. Into a zero
accumulator it reads, at `(p, q)`, the sum over `j < k` of `lhs (j, p) · rhs (j, q)`. The contraction index is a
one-coordinate index; the sum is re-indexed through that coordinate and each operand index is identified axis by axis. -/

/-- The dimension numbers of a product over the rows: contract the left's axis 0 with the right's axis 0. -/
abbrev rowDims (k a b : ℕ) (wf : DotDims.WF ⟨2, ![k, a]⟩ ⟨2, ![k, b]⟩ ⟨2, ![a, b]⟩ [0] [0] [1] [1] [] []) :
    DotDims ⟨2, ![k, a]⟩ ⟨2, ![k, b]⟩ ⟨2, ![a, b]⟩ where
  lhsContracting := [0]
  rhsContracting := [0]
  lhsNonContracting := [1]
  rhsNonContracting := [1]
  lhsBatch := []
  rhsBatch := []
  wf := wf

section
variable {k a b : ℕ} (wf : DotDims.WF ⟨2, ![k, a]⟩ ⟨2, ![k, b]⟩ ⟨2, ![a, b]⟩ [0] [0] [1] [1] [] [])

/-- The left operand's row is the contraction coordinate. -/
theorem rowDims_lhs_row (j : (⟨2, ![a, b]⟩ : Shape).Idx) (q : (rowDims k a b wf).contr.Idx) :
    ((rowDims k a b wf).lhsIdx j q 0).val = (q ⟨0, Nat.one_pos⟩).val :=
  (rowDims k a b wf).lhsIdx_val_of_single rfl j q

/-- The left operand's column is the result's row. -/
theorem rowDims_lhs_col (j : (⟨2, ![a, b]⟩ : Shape).Idx) (q : (rowDims k a b wf).contr.Idx) :
    ((rowDims k a b wf).lhsIdx j q 1).val = (j 0).val := by
  unfold DotDims.lhsIdx
  rw [dif_neg (show ¬(1 : Fin 2) ∈ (rowDims k a b wf).lhsBatch from List.not_mem_nil),
    dif_pos (show (1 : Fin 2) ∈ (rowDims k a b wf).lhsNonContracting from List.mem_singleton.mpr rfl)]
  rfl

/-- The right operand's row is the contraction coordinate. -/
theorem rowDims_rhs_row (j : (⟨2, ![a, b]⟩ : Shape).Idx) (q : (rowDims k a b wf).contr.Idx) :
    ((rowDims k a b wf).rhsIdx j q 0).val = (q ⟨0, Nat.one_pos⟩).val :=
  (rowDims k a b wf).rhsIdx_val_of_single rfl j q

/-- The right operand's column is the result's column. -/
theorem rowDims_rhs_col (j : (⟨2, ![a, b]⟩ : Shape).Idx) (q : (rowDims k a b wf).contr.Idx) :
    ((rowDims k a b wf).rhsIdx j q 1).val = (j 1).val := by
  unfold DotDims.rhsIdx
  rw [dif_neg (show ¬(1 : Fin 2) ∈ (rowDims k a b wf).rhsBatch from List.not_mem_nil),
    dif_pos (show (1 : Fin 2) ∈ (rowDims k a b wf).rhsNonContracting from List.mem_singleton.mpr rfl)]
  rfl

/-- The contraction sum of a product over the rows at `(p, q)`, as a sum over `j < k`. -/
theorem contr_sum_rowDims (lhs : (⟨2, ![k, a]⟩ : Shape).Idx → EReal) (rhs : (⟨2, ![k, b]⟩ : Shape).Idx → EReal)
    (p : Fin a) (q : Fin b) :
    (∑ c : (rowDims k a b wf).contr.Idx,
        lhs ((rowDims k a b wf).lhsIdx (ix2 p q) c) * rhs ((rowDims k a b wf).rhsIdx (ix2 p q) c))
      = ∑ j : Fin k, lhs (ix2 j p) * rhs (ix2 j q) := by
  rw [← Equiv.sum_comp (contrEquiv1 (rowDims k a b wf) k rfl rfl).symm]
  refine Finset.sum_congr rfl fun j _ => ?_
  have hk := contrEquiv1_symm_val (rowDims k a b wf) k rfl rfl j
  have el : (rowDims k a b wf).lhsIdx (ix2 p q) ((contrEquiv1 (rowDims k a b wf) k rfl rfl).symm j) = ix2 j p :=
    funext fun ax => Fin.ext (by
      match ax with
      | ⟨0, _⟩ => exact (rowDims_lhs_row wf _ _).trans hk
      | ⟨1, _⟩ => exact rowDims_lhs_col wf _ _)
  have er : (rowDims k a b wf).rhsIdx (ix2 p q) ((contrEquiv1 (rowDims k a b wf) k rfl rfl).symm j) = ix2 j q :=
    funext fun ax => Fin.ext (by
      match ax with
      | ⟨0, _⟩ => exact (rowDims_rhs_row wf _ _).trans hk
      | ⟨1, _⟩ => exact rowDims_rhs_col wf _ _)
  rw [el, er]

end

/-- The product over the rows into a zero accumulator at `(p, q)`, for any record with these dimension numbers: the sum
    over `j < k` of `lhs (j, p) · rhs (j, q)`. -/
theorem matmul_rows_zero_apply {k a b : ℕ} {φ₁ φ₂ : FTy} (d : DotDims ⟨2, ![k, a]⟩ ⟨2, ![k, b]⟩ ⟨2, ![a, b]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (lhs : FVec Ideal ⟨2, ![k, a]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 j p) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_rowDims wf lhs rhs p q

/-! ## The two accumulations over a tile -/

/-- The feature sums after a tile: the running sum at `(g, d)` plus the sum, over the tile's rows that belong to graph
    `g`, of column `d` of the features (written with the indicator as a factor). -/
theorem pay5_apply (i : grid2.Coords) (v3 : Vec Ideal S4000x1 .i32) (v20 : Vec Ideal S4000x128 .f32) (v23 : Vec Ideal S256x128 .f32)
    (g : Fin 256) (d : Fin 128) (hi : (i 0).val < 10) :
    k2_pay5 (F := Ideal) i v3 v20 v23 (ix2 g d)
      = v23 (ix2 g d) + ∑ r : Fin 4000, (if (v3 (ix2 r (0 : Fin 1))).toInt = (g.val : ℤ) then 1 else 0) * v20 (ix2 r d) := by
  unfold k2_pay5
  simp only [shapeCast_self, addf_apply]
  refine congrArg (v23 (ix2 g d) + ·) ?_
  refine (matmul_rows_zero_apply dot_S4000x256_S4000x128_S256x128_0_0_1_1_n_n rfl rfl rfl rfl rfl rfl _ _ _ g d).trans ?_
  exact Finset.sum_congr rfl fun r _ => by rw [pay4_apply i v3 r g hi]

/-- The node counts after a tile: the running count of graph `g` plus the number of the tile's rows that belong to it
    (the column sum of the indicator; a vector of 256 entries seen as one row keeps entry `g` at `(0, g)`). -/
theorem pay6_apply (i : grid2.Coords) (v3 : Vec Ideal S4000x1 .i32) (v28 : Vec Ideal S1x256 .f32) (g : Fin 256)
    (hi : (i 0).val < 10) :
    k2_pay6 (F := Ideal) i v3 v28 (ix2 (0 : Fin 1) g)
      = v28 (ix2 (0 : Fin 1) g) + ∑ r : Fin 4000, (if (v3 (ix2 r (0 : Fin 1))).toInt = (g.val : ℤ) then 1 else 0) := by
  unfold k2_pay6
  simp only [shapeCast_self, addf_apply]
  refine congrArg (v28 (ix2 (0 : Fin 1) g) + ·) ?_
  refine (shapeCast_apply _ shapeCasts_S256_S1x256 (ix2 (0 : Fin 1) g) (ix1 g) ?_).trans ?_
  · rw [Shape.rowMajor_val_two, Shape.rowMajor_val_one]
    show g.val = 0 * 256 + g.val
    omega
  refine (Ideal.multiReduction_add_single (k2_pay4 (F := Ideal) i v3) 0x00000000#32 reduces_S4000x256_S256 (.inl rfl) rfl
    (ix1 g)).trans ?_
  show ∑ r : Fin 4000, k2_pay4 (F := Ideal) i v3 (reduces_S4000x256_S256.lift (ix1 g) r) = _
  refine Finset.sum_congr rfl fun r _ => ?_
  have e : reduces_S4000x256_S256.lift (ix1 g) r = ix2 r g :=
    funext fun ax => Fin.ext (by match ax with | ⟨0, _⟩ => rfl | ⟨1, _⟩ => rfl)
  rw [e, pay4_apply i v3 r g hi]

/-! ## The read-out -/

/-- A one-row matrix transposed to a column reads, at `(p, u)`, the row's entry `p`. -/
theorem transpose_1a_a1_apply {α : Type} {a : ℕ} (x : (⟨2, ![1, a]⟩ : Shape).Idx → α)
    (h : (⟨2, ![1, a]⟩ : Shape).Transposes [1, 0] ⟨2, ![a, 1]⟩) (p : Fin a) (u : Fin 1) :
    transpose ⟨2, ![a, 1]⟩ [1, 0] x h (ix2 p u) = x (ix2 u p) :=
  transpose_apply [1, 0] x h (ix2 p u) (ix2 u p) fun b => by
    match b with
    | ⟨0, _⟩ => rfl
    | ⟨1, _⟩ => rfl

/-- The answer for graph `g`: the logistic function of the sum over the 128 columns of the graph's mean feature (its
    feature sum divided by its count, the count never less than one) times the read-out weight. -/
theorem pay1_apply (v38 : Vec Ideal S1x256 .f32) (v41 : Vec Ideal S256x128 .f32) (v45 : Vec Ideal S128x1 .f32) (g : Fin 256) :
    k2_pay1 (F := Ideal) v38 v41 v45 (ix2 g (0 : Fin 1))
      = Ideal.logistic (∑ d : Fin 128, Ideal.div (v41 (ix2 g d)) (max (v38 (ix2 (0 : Fin 1) g)) 1) * v45 (ix2 d (0 : Fin 1))) := by
  unfold k2_pay1
  refine congrArg Ideal.logistic ?_
  refine (Cert.Lib.PlainMatmul.matmul_zero_apply dot_S256x128_S128x1_S256x1_1_0_0_1_n_n rfl rfl rfl rfl rfl rfl _ _ _ g
    (0 : Fin 1)).trans ?_
  refine Finset.sum_congr rfl fun d _ => ?_
  refine congrArg (· * v45 (ix2 d (0 : Fin 1))) ?_
  rw [divf_apply]
  refine congrArg (Ideal.div (v41 (ix2 g d))) ?_
  rw [Cert.Lib.Column.broadcastTo_a1_ab_apply, transpose_1a_a1_apply, maximumf_apply, broadcast_apply]
  exact congrArg (max (v38 (ix2 (0 : Fin 1) g))) Ideal.ofBits_one_f32

end Cert.KernelIdeal.Val

end
-- ==== Proof.LibTileSum.lean ====
/-
  Sums accumulated tile by tile.

  A range of `T * B` positions is cut into `T` tiles of `B` consecutive positions, tile `t` holding the positions
  `t * B + r`, `r < B`. In a commutative additive monoid this file proves:

  * `acc_eq_sum`, `acc_eq_add_sum` (and the forms bounded by a number of steps): an accumulator that starts from the
    first term (or from a start value plus the first term) and adds one term per step holds the sum of the terms so far;
  * `sum_tiles`, `sum_tiles_prefix`, `sum_tiles_fin'`, `sum_tiles_fin`, `sum_tiles_50_200`: summing tile by tile
    is summing over all positions, over ℕ and over `Fin`;
  * `tile_iff`, `sum_tile_indicator` and its `Fin` forms: a position `j < T * B` lies in exactly one tile, the tile
    `j / B`, so a value added in the tile that holds `j` is added once;
  * `sum_tiles_add_indicator` and its `Fin` forms: the two together.

  Only Mathlib is used.
-/
import Mathlib.Algebra.BigOperators.Group.Finset.Basic
import Mathlib.Algebra.BigOperators.Group.Finset.Piecewise
import Mathlib.Algebra.BigOperators.Fin

namespace Cert.TileSum

open Finset

variable {M : Type*} [AddCommMonoid M]

/-! ### The recursion solved -/

/-- An accumulator that starts at the first term and adds the next term at every step, for the steps below `T`,
holds the sum of the terms so far. -/
theorem acc_eq_sum_of_lt (T : ℕ) (acc term : ℕ → M) (h0 : acc 0 = term 0)
    (hs : ∀ t, t + 1 < T → acc (t + 1) = acc t + term (t + 1)) (t : ℕ) (ht : t < T) :
    acc t = ∑ s ∈ Finset.range (t + 1), term s := by
  induction t with
  | zero => rw [h0, Finset.sum_range_one]
  | succ t ih => rw [hs t ht, ih (Nat.lt_of_succ_lt ht), Finset.sum_range_succ _ (t + 1)]

/-- The same without a bound on the steps. -/
theorem acc_eq_sum (acc term : ℕ → M) (h0 : acc 0 = term 0)
    (hs : ∀ t, acc (t + 1) = acc t + term (t + 1)) (t : ℕ) :
    acc t = ∑ s ∈ Finset.range (t + 1), term s :=
  acc_eq_sum_of_lt (t + 1) acc term h0 (fun t _ => hs t) t (Nat.lt_succ_self t)

/-- The accumulator started from a value `z`: it holds `z` plus the sum of the terms so far. -/
theorem acc_eq_add_sum_of_lt (T : ℕ) (z : M) (acc term : ℕ → M) (h0 : acc 0 = z + term 0)
    (hs : ∀ t, t + 1 < T → acc (t + 1) = acc t + term (t + 1)) (t : ℕ) (ht : t < T) :
    acc t = z + ∑ s ∈ Finset.range (t + 1), term s := by
  induction t with
  | zero => rw [h0, Finset.sum_range_one]
  | succ t ih =>
    rw [hs t ht, ih (Nat.lt_of_succ_lt ht), Finset.sum_range_succ _ (t + 1), add_assoc]

/-- The same without a bound on the steps. -/
theorem acc_eq_add_sum (z : M) (acc term : ℕ → M) (h0 : acc 0 = z + term 0)
    (hs : ∀ t, acc (t + 1) = acc t + term (t + 1)) (t : ℕ) :
    acc t = z + ∑ s ∈ Finset.range (t + 1), term s :=
  acc_eq_add_sum_of_lt (t + 1) z acc term h0 (fun t _ => hs t) t (Nat.lt_succ_self t)

/-! ### Tiles make the whole -/

/-- Position `r` of tile `t` lies under `T * B`. -/
theorem mulAdd_lt {T B : ℕ} (t : Fin T) (r : Fin B) : t.val * B + r.val < T * B :=
  calc t.val * B + r.val < t.val * B + B := Nat.add_lt_add_left r.2 _
    _ = (t.val + 1) * B := (Nat.add_one_mul _ _).symm
    _ ≤ T * B := Nat.mul_le_mul_right B (Nat.succ_le_of_lt t.2)

/-- Summing tile by tile is summing over all `T * B` positions. -/
theorem sum_tiles (T B : ℕ) (g : ℕ → M) :
    ∑ t ∈ Finset.range T, ∑ r ∈ Finset.range B, g (t * B + r) = ∑ i ∈ Finset.range (T * B), g i := by
  induction T with
  | zero => simp
  | succ T ih => rw [Finset.sum_range_succ, ih, Nat.add_one_mul, Finset.sum_range_add]

/-- The first `n + 1` tiles make the first `(n + 1) * B` positions. -/
theorem sum_tiles_prefix (n B : ℕ) (g : ℕ → M) :
    ∑ t ∈ Finset.range (n + 1), ∑ r ∈ Finset.range B, g (t * B + r)
      = ∑ i ∈ Finset.range ((n + 1) * B), g i :=
  sum_tiles (n + 1) B g

/-- Tiles over `Fin`, the position of row `r` of tile `t` given by any `idx t r` whose value is `t * B + r`. -/
theorem sum_tiles_fin' (T B N : ℕ) (hN : N = T * B) (f : Fin N → M) (idx : Fin T → Fin B → Fin N)
    (hidx : ∀ t r, (idx t r).val = t.val * B + r.val) :
    ∑ t : Fin T, ∑ r : Fin B, f (idx t r) = ∑ i : Fin N, f i := by
  subst hN
  -- extend f to all of ℕ, by zero beyond T * B
  obtain ⟨g, hg⟩ : ∃ g : ℕ → M, ∀ i : Fin (T * B), g i.val = f i :=
    ⟨fun k => if h : k < T * B then f ⟨k, h⟩ else 0, fun i => dif_pos i.2⟩
  calc ∑ t : Fin T, ∑ r : Fin B, f (idx t r)
      = ∑ t : Fin T, ∑ r : Fin B, g (t.val * B + r.val) := by
        refine Finset.sum_congr rfl fun t _ => Finset.sum_congr rfl fun r _ => ?_
        rw [← hidx t r, hg]
    _ = ∑ t ∈ Finset.range T, ∑ r ∈ Finset.range B, g (t * B + r) := by
        rw [Finset.sum_range]
        refine Finset.sum_congr rfl fun t _ => ?_
        rw [Finset.sum_range]
    _ = ∑ i ∈ Finset.range (T * B), g i := sum_tiles T B g
    _ = ∑ i : Fin (T * B), f i := by
        rw [Finset.sum_range]
        exact Finset.sum_congr rfl fun i _ => hg i

/-- Tiles over `Fin`, the position built as `t * B + r`. -/
theorem sum_tiles_fin (T B : ℕ) (f : Fin (T * B) → M) :
    ∑ t : Fin T, ∑ r : Fin B, f ⟨t.val * B + r.val, mulAdd_lt t r⟩ = ∑ i : Fin (T * B), f i :=
  sum_tiles_fin' T B (T * B) rfl f (fun t r => ⟨t.val * B + r.val, mulAdd_lt t r⟩) (fun _ _ => rfl)

/-- Fifty tiles of two hundred rows make ten thousand rows, the position written `200 * t + r`. -/
theorem sum_tiles_50_200 (f : Fin 10000 → M) :
    ∑ t : Fin 50, ∑ r : Fin 200, f ⟨200 * t.val + r.val, by omega⟩ = ∑ i : Fin 10000, f i :=
  sum_tiles_fin' 50 200 10000 rfl f (fun t r => ⟨200 * t.val + r.val, by omega⟩)
    (fun t r => congrArg (· + r.val) (Nat.mul_comm 200 t.val))

/-! ### A position lies in exactly one tile -/

/-- Position `j` lies in tile `t` exactly when `t` is `j / B`. -/
theorem tile_iff {B : ℕ} (hB : 0 < B) (t j : ℕ) : (t * B ≤ j ∧ j < t * B + B) ↔ t = j / B := by
  rw [← Nat.le_div_iff_mul_le hB, ← Nat.add_one_mul, ← Nat.div_lt_iff_lt_mul hB]
  omega

/-- A value added in the tile that holds `j` is added exactly once. -/
theorem sum_tile_indicator (T B : ℕ) (u : M) (j : ℕ) (hj : j < T * B) :
    ∑ t ∈ Finset.range T, (if t * B ≤ j ∧ j < t * B + B then u else 0) = u := by
  have hB : 0 < B := Nat.pos_of_ne_zero fun h => by subst h; simp at hj
  have hmem : j / B ∈ Finset.range T := Finset.mem_range.2 ((Nat.div_lt_iff_lt_mul hB).2 hj)
  -- only the tile j / B contributes
  refine (Finset.sum_eq_single_of_mem (j / B) hmem ?_).trans ?_
  · intro t _ hne
    exact if_neg fun h => hne ((tile_iff hB t j).1 h)
  · exact if_pos ((tile_iff hB (j / B) j).2 rfl)

/-- The same with the tiles indexed by `Fin T`. -/
theorem sum_tile_indicator_fin (T B : ℕ) (u : M) (j : ℕ) (hj : j < T * B) :
    ∑ t : Fin T, (if t.val * B ≤ j ∧ j < t.val * B + B then u else 0) = u :=
  (Finset.sum_range fun t => if t * B ≤ j ∧ j < t * B + B then u else 0).symm.trans
    (sum_tile_indicator T B u j hj)

/-- Fifty tiles of two hundred rows: row `j` of ten thousand lies in exactly one tile. -/
theorem sum_tile_indicator_50_200 (u : M) (j : Fin 10000) :
    ∑ t : Fin 50, (if 200 * t.val ≤ j.val ∧ j.val < 200 * t.val + 200 then u else 0) = u := by
  have h := sum_tile_indicator_fin 50 200 u j.val (by have := j.isLt; omega)
  refine Eq.trans (Finset.sum_congr rfl fun t _ => ?_) h
  exact if_congr (by omega) rfl rfl

/-- In the tiling by two hundred, row `j` lies in tile `t` exactly when `t = j / 200`. -/
theorem tile_iff_200 (t j : ℕ) : (200 * t ≤ j ∧ j < 200 * t + 200) ↔ t = j / 200 := by
  omega

/-! ### The two together -/

/-- Tile sums plus a value added in the tile that holds `j`: the whole sum plus that value. -/
theorem sum_tiles_add_indicator (T B : ℕ) (g : ℕ → M) (u : M) (j : ℕ) (hj : j < T * B) :
    ∑ t ∈ Finset.range T, ((∑ r ∈ Finset.range B, g (t * B + r)) + (if t * B ≤ j ∧ j < t * B + B then u else 0))
      = (∑ i ∈ Finset.range (T * B), g i) + u := by
  rw [Finset.sum_add_distrib, sum_tiles, sum_tile_indicator T B u j hj]

/-- The same over `Fin`, the position of row `r` of tile `t` given by any `idx t r` whose value is `t * B + r`. -/
theorem sum_tiles_add_indicator_fin' (T B N : ℕ) (hN : N = T * B) (w : Fin N → M) (idx : Fin T → Fin B → Fin N)
    (hidx : ∀ t r, (idx t r).val = t.val * B + r.val) (u : M) (j : ℕ) (hj : j < N) :
    ∑ t : Fin T, ((∑ r : Fin B, w (idx t r)) + (if t.val * B ≤ j ∧ j < t.val * B + B then u else 0))
      = (∑ i : Fin N, w i) + u := by
  rw [Finset.sum_add_distrib, sum_tiles_fin' T B N hN w idx hidx, sum_tile_indicator_fin T B u j (hN ▸ hj)]

/-- Fifty tiles of two hundred rows, with the value at row `j` added in the tile that holds `j`. -/
theorem sum_tiles_add_self_50_200 (w v : Fin 10000 → M) (j : Fin 10000) :
    ∑ t : Fin 50, ((∑ r : Fin 200, w ⟨200 * t.val + r.val, by omega⟩)
        + (if 200 * t.val ≤ j.val ∧ j.val < 200 * t.val + 200 then v j else 0))
      = (∑ i : Fin 10000, w i) + v j := by
  rw [Finset.sum_add_distrib, sum_tiles_50_200 w, sum_tile_indicator_50_200 (v j) j]

end Cert.TileSum
-- ==== Proof.Val.Pool.lean ====
/-
  What the pooling launch leaves in its output array, read at a graph.

  The launch walks the ten tiles of 4000 rows. Tile `t` holds the rows `4000 t + r`, `r < 4000`, of the node table: their
  graph words and their features. Two totals are carried from tile to tile. Per graph `g` and feature column `d`, the
  first starts from zero and at every tile gains the sum over the tile's rows of [the row's graph word, read signed, is
  `g`] · (the row's feature `d`); per graph, the second gains the number of such rows. After the last tile the ten
  tiles have made all 40000 rows, each once, and `[·] · x` is `x` where the row belongs to the graph and `0` where it
  does not (in the extended reals `0 · x = 0` for every `x`), so the first total is the sum of column `d` over the graph's
  nodes and the second the number of its nodes. The last tile divides the one by the other (never by less than one),
  contracts the 128 columns against the read-out weight and applies the logistic function; that block of 256 answers is
  the one block written back, and it is the whole output array.

  No finiteness is used: every step is an identity of extended reals.
-/
import proofs.«425775_j85358180040740_2_alg».proof.Proof.KI.R2Open
import proofs.«425775_j85358180040740_2_alg».proof.Proof.Val.PoolPay
import proofs.«425775_j85358180040740_2_alg».proof.Proof.Val.Spec
import proofs.«425775_j85358180040740_2_alg».proof.Proof.LibTileSum
import Idealize.ShloMosaic.Lib.ValueIdx
import Idealize.ShloMosaic.Lib.Pipeline.Value

noncomputable section

namespace Cert.KernelIdeal.Val

open Idealize.ShloMosaic Idealize.ShloMosaic.TcCoe Idealize.ShloMosaic.ValueIdx Cert.KernelIdeal Cert.KernelIdeal.Gen Cert.KernelIdeal.Fr
open scoped BigOperators

variable (V : (c : Dev nD) → (b : Ref sig .tc) → Buf (Elt Ideal) ((c : Thread nD τ).loc b))

namespace Pool

/-- The graph word of every node, the node features and the read-out weight as the launch finds them. -/
abbrev batArr (c : Dev nD) : Vec Ideal S40000x1 .i32 := V c main_v43
abbrev featArr (c : Dev nD) : Vec Ideal S40000x128 .f32 := V c main_v42
abbrev wgtArr (c : Dev nD) : Vec Ideal S128x1 .f32 := V c main_arg5

/-- The three input blocks at tile `t`. -/
abbrev batBlk (c : Dev nD) (t : Fin cfg2.N) : Vec Ideal S4000x1 .i32 := iblk2 V c 0 t
abbrev featBlk (c : Dev nD) (t : Fin cfg2.N) : Vec Ideal S4000x128 .f32 := iblk2 V c 1 t
abbrev wgtBlk (c : Dev nD) (t : Fin cfg2.N) : Vec Ideal S128x1 .f32 := iblk2 V c 2 t

/-- The two running totals and the output block after tile `n`. -/
abbrev sumTot (c : Dev nD) (n : ℕ) (h : n < cfg2.N) : Vec Ideal S256x128 .f32 := (outsAt2 V c n h).2.1
abbrev cntTot (c : Dev nD) (n : ℕ) (h : n < cfg2.N) : Vec Ideal S1x256 .f32 := (outsAt2 V c n h).2.2
abbrev outBlk (c : Dev nD) (n : ℕ) (h : n < cfg2.N) : Vec Ideal S256x1 .f32 := (outsAt2 V c n h).1

theorem lt9 : 9 < cfg2.N := by rw [show cfg2.N = 10 from N_2]; decide

/-- The tiles' index maps, decided once over the grid. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ ((grid2.coords t) 0).val = t.val :=
  (by decide +kernel : ∀ t : Fin grid2.N, _)

theorem batBlk_apply (c : Dev nD) (t : Fin cfg2.N) (r : Fin 4000) :
    batBlk V c t (ix2 r (0 : Fin 1)) = batArr V c (ix2 ⟨4000 * t.val + r.val, by have := t.isLt; have : cfg2.N = 10 := N_2; omega⟩ (0 : Fin 1)) := by
  obtain ⟨e0, e1, -⟩ := idx_facts t
  show V c main_v43 (((cfg2.win 0).blk t).view.emb (ix2 r (0 : Fin 1))) = V c main_v43 _
  congr 1
  funext a; apply Fin.ext
  match a with
  | ⟨0, _⟩ => show win2_0.index t (0 : Fin 2) * 4000 + 1 * r.val = 4000 * t.val + r.val; rw [e0]; omega
  | ⟨1, _⟩ => show win2_0.index t (1 : Fin 2) * 1 + 1 * 0 = 0; rw [e1]

theorem featBlk_apply (c : Dev nD) (t : Fin cfg2.N) (r : Fin 4000) (d : Fin 128) :
    featBlk V c t (ix2 r d) = featArr V c (ix2 ⟨4000 * t.val + r.val, by have := t.isLt; have : cfg2.N = 10 := N_2; omega⟩ d) := by
  obtain ⟨-, -, e0, e1, -⟩ := idx_facts t
  show V c main_v42 (((cfg2.win 1).blk t).view.emb (ix2 r d)) = V c main_v42 _
  congr 1
  funext a; apply Fin.ext
  match a with
  | ⟨0, _⟩ => show win2_1.index t (0 : Fin 2) * 4000 + 1 * r.val = 4000 * t.val + r.val; rw [e0]; omega
  | ⟨1, _⟩ => show win2_1.index t (1 : Fin 2) * 128 + 1 * d.val = d.val; rw [e1]; omega

theorem wgtBlk_apply (c : Dev nD) (t : Fin cfg2.N) (d : Fin 128) :
    wgtBlk V c t (ix2 d (0 : Fin 1)) = wgtArr V c (ix2 d (0 : Fin 1)) := by
  obtain ⟨-, -, -, -, e0, e1, -⟩ := idx_facts t
  show V c main_arg5 (((cfg2.win 2).blk t).view.emb (ix2 d (0 : Fin 1))) = V c main_arg5 _
  congr 1
  funext a; apply Fin.ext
  match a with
  | ⟨0, _⟩ => show win2_2.index t (0 : Fin 2) * 128 + 1 * d.val = d.val; rw [e0]; omega
  | ⟨1, _⟩ => show win2_2.index t (1 : Fin 2) * 1 + 1 * 0 = 0; rw [e1]

/-! ## From the one write-back to the array -/

/-- The last tile. -/
abbrev lastTile : Fin cfg2.N := ⟨9, lt9⟩

/-- The one write-back, at the last tile, writes the whole output block: block (0, 0) of the 256 x 1 array read through
    zero offsets is the array. -/
theorem flushed_eq (c : Dev nD) (t : Fin cfg2.N) (hf : (cfg2.win 3).flush t = true) :
    (dat2 V c).flushed 3 t = ((cfg2.win 3).blk t).view.read (Elt Ideal) (outBlk V c 9 lt9) := by
  have hN : cfg2.N = 10 := N_2
  have h9 : t.val = 9 := by have := (flush2_3 t).mp hf; have := t.isLt; omega
  obtain rfl : t = lastTile := Fin.ext h9
  show (cfg2.win 3).cut (grid2.coords lastTile) ((dat2 V c).after 3 lastTile) = _
  rw [after2_3]
  have hz' : (fun a => win2_3.index lastTile a * main_v44.ty.shape.size a) = fun _ => 0 := funext fun a => by fin_cases a <;> decide
  exact (Memref.read_access_unit_zero (Elt Ideal) main_v44 hz' (fun a => by rw [congrFun hz' a]; simp) (outBlk V c 9 lt9)).symm

/-- So the output array ends holding the output block as the last tile leaves it. -/
theorem final_out (c : Dev nD) : (dat2 V c).arrAt 3 cfg2.N = outBlk V c 9 lt9 :=
  (dat2 V c).arrAt_eq_of_cover 3 (outBlk V c 9 lt9) (flushed_eq V c) fun i =>
    ⟨lastTile, (flush2_3 lastTile).mpr rfl, by
      show i ∈ ((View.whole main_v44).slice (win2_3.rect lastTile)).set
      rw [View.set_slice_whole, Rect.mem_set_unit]
      intro a
      have h0 : (i 0 : Nat) < 256 := (i 0).isLt
      have h1 : (i 1 : Nat) < 1 := (i 1).isLt
      match a with
      | ⟨0, _⟩ => show win2_3.index lastTile 0 * win2_3.size 0 ≤ (i 0 : Nat) ∧ (i 0 : Nat) < win2_3.index lastTile 0 * win2_3.size 0 + win2_3.xsize (grid2.coords lastTile) 0
                  rw [show win2_3.index lastTile 0 * win2_3.size 0 = 0 from by decide +kernel, show win2_3.xsize (grid2.coords lastTile) 0 = 256 from by decide +kernel]; omega
      | ⟨1, _⟩ => show win2_3.index lastTile 1 * win2_3.size 1 ≤ (i 1 : Nat) ∧ (i 1 : Nat) < win2_3.index lastTile 1 * win2_3.size 1 + win2_3.xsize (grid2.coords lastTile) 1
                  rw [show win2_3.index lastTile 1 * win2_3.size 1 = 0 from by decide +kernel, show win2_3.xsize (grid2.coords lastTile) 1 = 1 from by decide +kernel]; omega⟩

/-! ## The running totals -/

/-- A tile's grid coordinate is its number, below ten. -/
theorem coord_lt (t : Fin cfg2.N) : ((grid2.coords t) 0).val < 10 := by
  obtain ⟨-, -, -, -, -, -, -, -, e⟩ := idx_facts t
  rw [e]; exact lt_of_lt_of_eq t.isLt N_2

/-- Tile `s`'s contribution to the row-sum total at `(g, d)`: column `d` summed over the tile's rows that belong to
    graph `g`. -/
def sumTerm (c : Dev nD) (g : Fin 256) (d : Fin 128) (s : ℕ) : EReal :=
  if h : s < cfg2.N then
    ∑ r : Fin 4000, (if (batBlk V c ⟨s, h⟩ (ix2 r (0 : Fin 1))).toInt = (g.val : ℤ) then 1 else 0) * featBlk V c ⟨s, h⟩ (ix2 r d)
  else 0

/-- Tile `s`'s contribution to the row-count total at `g`: the number of the tile's rows that belong to graph `g`. -/
def cntTerm (c : Dev nD) (g : Fin 256) (s : ℕ) : EReal :=
  if h : s < cfg2.N then
    ∑ r : Fin 4000, (if (batBlk V c ⟨s, h⟩ (ix2 r (0 : Fin 1))).toInt = (g.val : ℤ) then (1 : EReal) else 0)
  else 0

/-- After tile `n` the row-sum total is zero plus the contributions of the tiles `0 … n`. -/
theorem sumTot_eq (c : Dev nD) (g : Fin 256) (d : Fin 128) (n : ℕ) (h : n < cfg2.N) :
    sumTot V c n h (ix2 g d) = 0 + ∑ s ∈ Finset.range (n + 1), sumTerm V c g d s := by
  have h0 : 0 < cfg2.N := Nat.lt_of_le_of_lt (Nat.zero_le _) h
  have key := Cert.TileSum.acc_eq_add_sum_of_lt cfg2.N (0 : EReal)
    (fun n => if h : n < cfg2.N then sumTot V c n h (ix2 g d) else 0) (sumTerm V c g d)
    (by
      show (if h : 0 < cfg2.N then sumTot V c 0 h (ix2 g d) else 0) = 0 + sumTerm V c g d 0
      rw [dif_pos h0]; unfold sumTerm; rw [dif_pos h0]
      refine (congrFun (tot0_zero V c h0) (ix2 g d)).trans ?_
      refine (pay5_apply (grid2.coords ⟨0, h0⟩) (batBlk V c ⟨0, h0⟩) (featBlk V c ⟨0, h0⟩) (k2_pay2 (F := Ideal)) g d (coord_lt ⟨0, h0⟩)).trans ?_
      rw [pay2_apply])
    (by
      intro t ht
      show (if h : t + 1 < cfg2.N then sumTot V c (t + 1) h (ix2 g d) else 0)
        = (if h : t < cfg2.N then sumTot V c t h (ix2 g d) else 0) + sumTerm V c g d (t + 1)
      rw [dif_pos ht, dif_pos (Nat.lt_of_succ_lt ht)]; unfold sumTerm; rw [dif_pos ht]
      refine (congrFun (tot0_succ V c t ht) (ix2 g d)).trans ?_
      exact pay5_apply (grid2.coords ⟨t + 1, ht⟩) (batBlk V c ⟨t + 1, ht⟩) (featBlk V c ⟨t + 1, ht⟩) (sumTot V c t (Nat.lt_of_succ_lt ht)) g d (coord_lt ⟨t + 1, ht⟩))
    n h
  have key' : (if h : n < cfg2.N then sumTot V c n h (ix2 g d) else 0) = 0 + ∑ s ∈ Finset.range (n + 1), sumTerm V c g d s := key
  rw [dif_pos h] at key'
  exact key'

/-- After tile `n` the row-count total is zero plus the contributions of the tiles `0 … n`. -/
theorem cntTot_eq (c : Dev nD) (g : Fin 256) (n : ℕ) (h : n < cfg2.N) :
    cntTot V c n h (ix2 (0 : Fin 1) g) = 0 + ∑ s ∈ Finset.range (n + 1), cntTerm V c g s := by
  have h0 : 0 < cfg2.N := Nat.lt_of_le_of_lt (Nat.zero_le _) h
  have key := Cert.TileSum.acc_eq_add_sum_of_lt cfg2.N (0 : EReal)
    (fun n => if h : n < cfg2.N then cntTot V c n h (ix2 (0 : Fin 1) g) else 0) (cntTerm V c g)
    (by
      show (if h : 0 < cfg2.N then cntTot V c 0 h (ix2 (0 : Fin 1) g) else 0) = 0 + cntTerm V c g 0
      rw [dif_pos h0]; unfold cntTerm; rw [dif_pos h0]
      refine (congrFun (tot1_zero V c h0) (ix2 (0 : Fin 1) g)).trans ?_
      refine (pay6_apply (grid2.coords ⟨0, h0⟩) (batBlk V c ⟨0, h0⟩) (k2_pay3 (F := Ideal)) g (coord_lt ⟨0, h0⟩)).trans ?_
      rw [pay3_apply])
    (by
      intro t ht
      show (if h : t + 1 < cfg2.N then cntTot V c (t + 1) h (ix2 (0 : Fin 1) g) else 0)
        = (if h : t < cfg2.N then cntTot V c t h (ix2 (0 : Fin 1) g) else 0) + cntTerm V c g (t + 1)
      rw [dif_pos ht, dif_pos (Nat.lt_of_succ_lt ht)]; unfold cntTerm; rw [dif_pos ht]
      refine (congrFun (tot1_succ V c t ht) (ix2 (0 : Fin 1) g)).trans ?_
      exact pay6_apply (grid2.coords ⟨t + 1, ht⟩) (batBlk V c ⟨t + 1, ht⟩) (cntTot V c t (Nat.lt_of_succ_lt ht)) g (coord_lt ⟨t + 1, ht⟩))
    n h
  have key' : (if h : n < cfg2.N then cntTot V c n h (ix2 (0 : Fin 1) g) else 0) = 0 + ∑ s ∈ Finset.range (n + 1), cntTerm V c g s := key
  rw [dif_pos h] at key'
  exact key'

/-- Row `r` of tile `s` is row `4000 s + r` of the table. -/
abbrev rowAt (s : Fin 10) (r : Fin 4000) : Fin 40000 := ⟨4000 * s.val + r.val, by omega⟩

/-- After the last tile the row-sum total is the sum over all the graph's nodes: the ten tiles make the 40000 rows. -/
theorem sumTot_last (c : Dev nD) (g : Fin 256) (d : Fin 128) :
    sumTot V c 9 lt9 (ix2 g d)
      = Cert.Spec.gsum (fun r => batArr V c (ix2 r (0 : Fin 1))) (fun r => featArr V c (ix2 r d)) g := by
  rw [sumTot_eq V c g d 9 lt9]
  unfold Cert.Spec.gsum
  refine congrArg ((0 : EReal) + ·) ?_
  show ∑ s ∈ Finset.range 10, sumTerm V c g d s = _
  rw [Finset.sum_range]
  have hterm : ∀ s : Fin 10, sumTerm V c g d s.val
      = ∑ r : Fin 4000, (fun i : Fin 40000 => if (batArr V c (ix2 i (0 : Fin 1))).toInt = (g.val : ℤ) then featArr V c (ix2 i d) else 0) (rowAt s r) := by
    intro s
    have hs : s.val < cfg2.N := lt_of_lt_of_eq s.isLt N_2.symm
    unfold sumTerm; rw [dif_pos hs]
    refine Finset.sum_congr rfl fun r _ => ?_
    rw [batBlk_apply V c ⟨s.val, hs⟩ r, featBlk_apply V c ⟨s.val, hs⟩ r d, ite_mul, one_mul, zero_mul]
  rw [Finset.sum_congr rfl fun s _ => hterm s]
  exact Cert.TileSum.sum_tiles_fin' (M := EReal) 10 4000 40000 rfl
    (fun i : Fin 40000 => if (batArr V c (ix2 i (0 : Fin 1))).toInt = (g.val : ℤ) then featArr V c (ix2 i d) else 0) rowAt
    (fun t r => by show 4000 * t.val + r.val = t.val * 4000 + r.val; omega)

/-- After the last tile the row-count total is the number of the graph's nodes. -/
theorem cntTot_last (c : Dev nD) (g : Fin 256) :
    cntTot V c 9 lt9 (ix2 (0 : Fin 1) g)
      = Cert.Spec.gsum (fun r => batArr V c (ix2 r (0 : Fin 1))) (fun _ => 1) g := by
  rw [cntTot_eq V c g 9 lt9]
  unfold Cert.Spec.gsum
  refine congrArg ((0 : EReal) + ·) ?_
  show ∑ s ∈ Finset.range 10, cntTerm V c g s = _
  rw [Finset.sum_range]
  have hterm : ∀ s : Fin 10, cntTerm V c g s.val
      = ∑ r : Fin 4000, (fun i : Fin 40000 => if (batArr V c (ix2 i (0 : Fin 1))).toInt = (g.val : ℤ) then (1 : EReal) else 0) (rowAt s r) := by
    intro s
    have hs : s.val < cfg2.N := lt_of_lt_of_eq s.isLt N_2.symm
    unfold cntTerm; rw [dif_pos hs]
    refine Finset.sum_congr rfl fun r _ => ?_
    rw [batBlk_apply V c ⟨s.val, hs⟩ r]
  rw [Finset.sum_congr rfl fun s _ => hterm s]
  exact Cert.TileSum.sum_tiles_fin' (M := EReal) 10 4000 40000 rfl
    (fun i : Fin 40000 => if (batArr V c (ix2 i (0 : Fin 1))).toInt = (g.val : ℤ) then (1 : EReal) else 0) rowAt
    (fun t r => by show 4000 * t.val + r.val = t.val * 4000 + r.val; omega)

end Pool

open Pool

/-! ## The output array -/

/-- What the pooling launch leaves in its output array at graph `g`: the logistic function of the graph's mean
    features against the read-out weight. -/
theorem arr2_apply (c : Dev nD) (g : Fin 256) :
    (dat2 (F := Ideal) V c).arrAt 3 cfg2.N (ix2 g (0 : Fin 1))
      = Ideal.logistic (∑ d : Fin 128, Cert.Spec.pooled (fun r => batArr V c (ix2 r (0 : Fin 1))) (fun r d => featArr V c (ix2 r d)) g d
          * wgtArr V c (ix2 d (0 : Fin 1))) := by
  refine (congrFun (final_out V c) (ix2 g (0 : Fin 1))).trans ?_
  refine (congrFun (out_last V c lt9) (ix2 g (0 : Fin 1))).trans ?_
  refine (pay1_apply (cntTot V c 9 lt9) (sumTot V c 9 lt9) (wgtBlk V c lastTile) g).trans ?_
  refine congrArg Ideal.logistic (Finset.sum_congr rfl fun d _ => ?_)
  rw [sumTot_last V c g d, cntTot_last V c g, wgtBlk_apply V c lastTile d]
  rfl

end Cert.KernelIdeal.Val

end
-- ==== Proof.Val.Kernel.lean ====
/-
  The whole program's result as plain mathematics: the value the third launch leaves for graph g is the network's
  answer for g, as a function of the six argument arrays.

  The program alternates three host stretches with three launches. Read backwards from the result: the third launch
  leaves, for each graph, the logistic function of the graph's mean features against the read-out weight, where the
  features are what the second launch wrote and the graph numbers are the third argument as a column. The second
  launch wrote the linear layer of what the first launch wrote beside its neighbour averages, which the second stretch
  computed from the edge list, against the two halves of the second weight. The first launch wrote the same layer of
  the node features beside their neighbour averages, which the first stretch computed, against the halves of the first
  weight, cut off below at zero. Each stage is the specification's own definition of that stage, so stage by stage,
  innermost first, the result is the specification's answer.
-/
import proofs.«425775_j85358180040740_2_alg».proof.Proof.KI.Run
import proofs.«425775_j85358180040740_2_alg».proof.Proof.Val.Conv
import proofs.«425775_j85358180040740_2_alg».proof.Proof.Val.Host
import proofs.«425775_j85358180040740_2_alg».proof.Proof.Val.Pool
import proofs.«425775_j85358180040740_2_alg».proof.Proof.Val.Spec

noncomputable section

namespace Cert.KernelIdeal.Val

open Idealize.ShloMosaic Idealize.ShloMosaic.TcCoe Idealize.ShloMosaic.ValueIdx Cert.KernelIdeal Cert.KernelIdeal.Gen Cert.KernelIdeal.Fr
open scoped BigOperators

/-! ## The two layers, from the arrays a launch finds -/

section Stages
variable (V : (c : Dev nD) → (b : Ref sig .tc) → Buf (Elt Ideal) ((c : Thread nD τ).loc b))

/-- The first launch's output array is the first hidden layer, when the launch finds: the node features, their
    neighbour averages, and the first weight's upper and lower 128 rows. -/
theorem hidden1_of (c : Dev nD) (row : Fin 640000 → Fin 40000) (dst : Fin 640000 → BitVec 32)
    (xf : Fin 40000 → Fin 128 → EReal) (W1 : Fin 256 → Fin 128 → EReal)
    (a0 a1 : Vec Ideal S40000x128 .f32) (w0 w1 : Vec Ideal S128x128 .f32)
    (h0 : a0 = V c main_arg0) (h1 : a1 = V c main_v24) (h2 : w0 = V c main_v25) (h3 : w1 = V c main_v26)
    (e0 : ∀ p k, a0 (ix2 p k) = xf p k) (e1 : ∀ p k, a1 (ix2 p k) = Cert.Spec.mean row dst xf p k)
    (e2 : ∀ k q : Fin 128, w0 (ix2 k q) = W1 ⟨k.val, by omega⟩ q)
    (e3 : ∀ k q : Fin 128, w1 (ix2 k q) = W1 ⟨128 + k.val, by omega⟩ q)
    (p : Fin 40000) (q : Fin 128) :
    (dat0 (F := Ideal) V c).arrAt 4 cfg0.N (ix2 p q) = Cert.Spec.hidden1 row dst xf W1 p q := by
  rw [arr0_apply V c p q a0 a1 w0 w1 h0 h1 h2 h3]
  unfold Cert.Spec.hidden1 Cert.Spec.layer
  simp only [e0, e1, e2, e3]

/-- The second launch's output array is the layer of what it finds: a feature array, its neighbour averages, and the
    second weight's upper and lower 128 rows. -/
theorem layer2_of (c : Dev nD) (row : Fin 640000 → Fin 40000) (dst : Fin 640000 → BitVec 32)
    (hf : Fin 40000 → Fin 128 → EReal) (W2 : Fin 256 → Fin 128 → EReal)
    (a0 a1 : Vec Ideal S40000x128 .f32) (w0 w1 : Vec Ideal S128x128 .f32)
    (h0 : a0 = V c main_v27) (h1 : a1 = V c main_v39) (h2 : w0 = V c main_v40) (h3 : w1 = V c main_v41)
    (e0 : ∀ p k, a0 (ix2 p k) = hf p k) (e1 : ∀ p k, a1 (ix2 p k) = Cert.Spec.mean row dst hf p k)
    (e2 : ∀ k q : Fin 128, w0 (ix2 k q) = W2 ⟨k.val, by omega⟩ q)
    (e3 : ∀ k q : Fin 128, w1 (ix2 k q) = W2 ⟨128 + k.val, by omega⟩ q)
    (p : Fin 40000) (q : Fin 128) :
    (dat1 (F := Ideal) V c).arrAt 4 cfg1.N (ix2 p q) = Cert.Spec.layer hf (Cert.Spec.mean row dst hf) W2 p q := by
  rw [arr1_apply V c p q a0 a1 w0 w1 h0 h1 h2 h3]
  unfold Cert.Spec.layer
  simp only [e0, e1, e2, e3]

end Stages

/-! ## The program's result -/

section Result
variable (m : (ℓ : Loc nD τ sig) → Buf (Elt Ideal) ℓ) (ρ : Dev nD → PrngReg) (c : Dev nD)

/-- The read-out weight on core c, a column of 128 extended reals. -/
abbrev wfc : FVec Ideal S128x1 .f32 := m ((c : Thread nD τ).loc main_arg5)

/-- What the first launch leaves in its output array is the specification's first hidden layer of the arguments: it
    finds the features as launched, their neighbour averages, and the first weight's two halves. -/
theorem first_layer (p : Fin 40000) (q : Fin 128) :
    (dat0 (F := Ideal) (V1 m ρ) c).arrAt 4 cfg0.N (ix2 p q)
      = Cert.Spec.hidden1 (fun e => Cert.Spec.rowOf (src m c e)) (dst m c) (fun p k => xa m c (ix2 p k))
          (fun k q => W1a m c (ix2 k q)) p q :=
  hidden1_of (V1 m ρ) c _ _ (fun p k => xa m c (ix2 p k)) (fun k q => W1a m c (ix2 k q))
    (xa m c) (V1 m ρ c main_v24) (V1 m ρ c main_v25) (V1 m ρ c main_v26)
    (V1_arg0 m ρ c).symm rfl rfl rfl (fun _ _ => rfl)
    (fun p k => V1_v24 m ρ c p k) (fun k q => V1_v25 m ρ c k q) (fun k q => V1_v26 m ρ c k q) p q

/-- The second launch finds the first hidden layer in its first array. -/
theorem second_input :
    (fun (p : Fin 40000) (k : Fin 128) => (V3 m ρ c main_v27 : S40000x128.Idx → EReal) (ix2 p k))
      = Cert.Spec.hidden1 (fun e => Cert.Spec.rowOf (src m c e)) (dst m c) (fun p k => xa m c (ix2 p k))
          (fun k q => W1a m c (ix2 k q)) :=
  funext fun p => funext fun k => (congrFun (V3_v27 m ρ c) (ix2 p k)).trans (first_layer m ρ c p k)

/-- What the second launch leaves in its output array is the specification's second hidden layer. -/
theorem second_layer (p : Fin 40000) (q : Fin 128) :
    (dat1 (F := Ideal) (V3 m ρ) c).arrAt 4 cfg1.N (ix2 p q)
      = Cert.Spec.hidden2 (fun e => Cert.Spec.rowOf (src m c e)) (dst m c) (fun p k => xa m c (ix2 p k))
          (fun k q => W1a m c (ix2 k q)) (fun k q => W2a m c (ix2 k q)) p q :=
  layer2_of (V3 m ρ) c _ _ _ (fun k q => W2a m c (ix2 k q))
    (V3 m ρ c main_v27) (V3 m ρ c main_v39) (V3 m ρ c main_v40) (V3 m ρ c main_v41) rfl rfl rfl rfl
    (fun p k => congrFun (congrFun (second_input m ρ c) p) k)
    (fun p k => (V3_v39 m ρ c p k).trans (by rw [second_input]))
    (fun k q => V3_v40 m ρ c k q) (fun k q => V3_v41 m ρ c k q) p q

/-- The third launch finds the second hidden layer in its feature array. -/
theorem third_input :
    (fun (r : Fin 40000) (d : Fin 128) => Pool.featArr (V5 m ρ) c (ix2 r d))
      = Cert.Spec.hidden2 (fun e => Cert.Spec.rowOf (src m c e)) (dst m c) (fun p k => xa m c (ix2 p k))
          (fun k q => W1a m c (ix2 k q)) (fun k q => W2a m c (ix2 k q)) :=
  funext fun p => funext fun k => (congrFun (V5_v42 m ρ c) (ix2 p k)).trans (second_layer m ρ c p k)

/-- THE RESULT AT GRAPH g: the network's answer for g, of the six arguments. -/
theorem kernel_answer (g : Fin 256) :
    (W6 m ρ c (Proc.devRef .tc main_v44) : S256x1.Idx → EReal) (ix2 g (0 : Fin 1))
      = Cert.Spec.answer (fun e => Cert.Spec.rowOf (src m c e)) (dst m c) (fun r => bta m c (ix1 r))
          (fun p k => xa m c (ix2 p k)) (fun k q => W1a m c (ix2 k q)) (fun k q => W2a m c (ix2 k q))
          (fun d => wfc m c (ix2 d (0 : Fin 1))) g := by
  refine (congrFun (W6_arr m ρ c 3) (ix2 g (0 : Fin 1))).trans ((arr2_apply (V5 m ρ) c g).trans ?_)
  have eb : (fun r : Fin 40000 => Pool.batArr (V5 m ρ) c (ix2 r (0 : Fin 1))) = fun r => bta m c (ix1 r) :=
    funext fun r => V5_v43 m ρ c r
  have ew : Pool.wgtArr (V5 m ρ) c = wfc m c := V5_arg5 m ρ c
  unfold Cert.Spec.answer
  rw [eb, third_input, ew]

/-- THE RESULT ARRAY: one entry per graph, each the network's answer. -/
theorem kernel_result :
    (W6 m ρ c (Proc.devRef .tc main_v44) : S256x1.Idx → EReal)
      = fun j : S256x1.Idx => Cert.Spec.answer (fun e => Cert.Spec.rowOf (src m c e)) (dst m c) (fun r => bta m c (ix1 r))
          (fun p k => xa m c (ix2 p k)) (fun k q => W1a m c (ix2 k q)) (fun k q => W2a m c (ix2 k q))
          (fun d => wfc m c (ix2 d (0 : Fin 1))) ⟨(j 0).val, (j 0).isLt⟩ := by
  funext j
  obtain ⟨g, u, rfl⟩ : ∃ (g : Fin 256) (u : Fin 1), j = ix2 g u := ⟨j 0, j 1, eq_ix2 j⟩
  obtain rfl : u = 0 := Subsingleton.elim _ _
  exact kernel_answer m ρ c g

end Result

end Cert.KernelIdeal.Val

end
-- ==== Proof.Val.Ref.lean ====
/-
  The reference program's result, at the extended reals, is the network of the specification.

  The reference computes, on the host: for each of two layers, the average over a node's incoming edges of the source
  nodes' features (a row lookup by the normalised source words, the looked-up rows added up per destination word, the
  number of arrivals counted the same way and raised to at least one, the quotient), the node's features joined with that
  average times a 256 x 128 weight, and after the first layer the cut-off at zero; then per graph the mean of the second
  layer's output over the graph's nodes; then the product with a 128-vector and the logistic function, written
  1 / (1 + exp (-z)).

  Each of these is read here at an index as the sum the specification writes: a row lookup reads the table's row the
  word names; a sum built by adding updates into a zero array is zero plus the sum, over all updates, of the update if
  its word names the place and of zero if not; a product with the joined table splits its sum over 256 columns into the
  first 128 and the last 128. The neighbour average and the layer are proved once, over an arbitrary feature table,
  and used for both layers.
-/
import proofs.«425775_j85358180040740_2_alg».proof.Proof.Gen.ReferenceIdeal.Run
import proofs.«425775_j85358180040740_2_alg».proof.Proof.Gen.ReferenceIdeal.Read
import proofs.«425775_j85358180040740_2_alg».proof.Proof.Val.Spec
import proofs.«425775_j85358180040740_2_alg».proof.Defs
import proofs.«425775_j85358180040740_2_alg».proof.Proof.Gen.Pre_finite_inputs
import proofs.«425775_j85358180040740_2_alg».proof.Proof.LibRowGatherScatter
import proofs.«425775_j85358180040740_2_alg».proof.Proof.LibScatterAdd1
import proofs.«425775_j85358180040740_2_alg».proof.Proof.LibPlainMatmul
import Idealize.ShloMosaic.Lib.IdealHost
import Idealize.ShloMosaic.Lib.ValueIdx
import Idealize.ShloMosaic.Lib.Pipeline.Value
import Idealize.ShloMosaic.PureOps.Ideal.Laws
import Mathlib.Algebra.BigOperators.Fin

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Read
open scoped BigOperators

/-! ## The host operations the network is made of, read at an index -/

/-- A scalar constant spread over any shape holds the constant everywhere. -/
theorem splat_apply {t : Shape} (h : S_.BroadcastsInDim t ![]) (b : BitVec 32) (j : t.Idx) :
    broadcastInDim t ![] h (constant (F := Ideal) S_ .f32 b) j = Ideal.ofBits .f32 b := rfl

/-- The row lookup at edge `e`, column `c`: the table's row named by the edge's index word, read signed and brought
    into the table's range. -/
theorem gather_apply (feat : FVec Ideal S40000x128 .f32) (gi : IVec S640000x1 32) (e : Fin 640000) (c : Fin 128) :
    Host.gather gather_S40000x128_S640000x1_S640000x128_1_0_n_n_0_1_1128 feat gi (ix2 e c)
      = feat (ix2 ⟨min (gi (ix2 e (0 : Fin 1))).toInt.toNat 39999, by omega⟩ c) :=
  Cert.Lib.RowGS.gather_rows_apply (N := 40000) (D := 128) (E := 640000) (by decide)
    gather_S40000x128_S640000x1_S640000x128_1_0_n_n_0_1_1128 rfl rfl rfl rfl rfl rfl rfl feat gi e c

/-- At the extended reals the host's accumulating scatter is the exact sum. -/
theorem scatterAdd_eq {s si u : Shape} {w : Nat} {φ : FTy} (d : ScatterDims s si u) (x : FVec Ideal s φ) (idx : IVec si w)
    (upd : FVec Ideal u φ) : Host.scatterAdd d x idx upd = Ideal.hostScatterAdd d x idx upd := rfl

/-- Rows added into a zero table: at node `n`, column `c`, zero plus the rows of the edges whose word is `n`. -/
theorem scatterRows_apply (si : IVec S640000x1 32) (upd : FVec Ideal S640000x128 .f32) (n : Fin 40000) (c : Fin 128) :
    Host.scatterAdd scatter_S40000x128_S640000x1_S640000x128_1_0_0_1
        (broadcastInDim S40000x128 ![] bcast_S_S40000x128 (constant (F := Ideal) S_ .f32 0x00000000#32)) si upd (ix2 n c)
      = (0 + ∑ e : Fin 640000, if (si (ix2 e (0 : Fin 1))).toInt = (n.val : ℤ) then upd (ix2 e c) else 0 : EReal) := by
  rw [scatterAdd_eq, Cert.Lib.RowGS.scatterAdd_rows_apply (N := 40000) (D := 128) (E := 640000)
    scatter_S40000x128_S640000x1_S640000x128_1_0_0_1 rfl rfl rfl rfl _ si upd n c, splat_apply, Ideal.ofBits_zero_f32]

/-- Ones added into a zero vector: at node `n`, zero plus one for every edge whose word is `n`. -/
theorem scatterOnes_apply (si : IVec S640000x1 32) (n : Fin 40000) :
    Host.scatterAdd scatter_S40000_S640000x1_S640000_n_0_0_1
        (broadcastInDim S40000 ![] bcast_S_S40000 (constant (F := Ideal) S_ .f32 0x00000000#32)) si
        (broadcastInDim S640000 ![] bcast_S_S640000 (constant (F := Ideal) S_ .f32 0x3F800000#32)) (ix1 n)
      = (0 + ∑ e : Fin 640000, if (si (ix2 e (0 : Fin 1))).toInt = (n.val : ℤ) then 1 else 0 : EReal) := by
  rw [Cert.LibScatterAdd1.scatterAdd_apply 40000 640000
    scatter_S40000_S640000x1_S640000_n_0_0_1 rfl rfl rfl rfl _ si _ n, splat_apply, Ideal.ofBits_zero_f32]
  refine congrArg (fun z : EReal => 0 + z) (Finset.sum_congr rfl fun e _ => ?_)
  rw [splat_apply, Ideal.ofBits_one_f32]

/-- The host's quotient, element by element. -/
theorem hdivf_apply {s : Shape} {φ : FTy} (x y : FVec Ideal s φ) (i : s.Idx) : Host.divf x y i = Ideal.div (x i) (y i) := rfl

/-- A vector seen as a column reads the vector's entry. -/
theorem col_apply {α : Type} {a : ℕ} (ha : a ≠ 1) (h : (⟨1, ![a]⟩ : Shape).BroadcastsInDim ⟨2, ![a, 1]⟩ ![0])
    (v : (⟨1, ![a]⟩ : Shape).Idx → α) (n : Fin a) (u : Fin 1) :
    broadcastInDim ⟨2, ![a, 1]⟩ ![0] h v (ix2 n u) = v (ix1 n) :=
  broadcastInDim_apply _ h v (ix2 n u) (ix1 n) (fun ax => match ax with
    | ⟨0, _⟩ => by show n.val = if a = 1 then 0 else n.val; rw [if_neg ha])

/-- A column spread across `b` columns reads the column's entry of the same row. -/
theorem spread_apply {α : Type} {a b : ℕ} (ha : a ≠ 1) (h : (⟨2, ![a, 1]⟩ : Shape).BroadcastsInDim ⟨2, ![a, b]⟩ ![0, 1])
    (v : (⟨2, ![a, 1]⟩ : Shape).Idx → α) (n : Fin a) (c : Fin b) :
    broadcastInDim ⟨2, ![a, b]⟩ ![0, 1] h v (ix2 n c) = v (ix2 n (0 : Fin 1)) :=
  broadcastInDim_apply _ h v (ix2 n c) (ix2 n (0 : Fin 1)) (fun ax => match ax with
    | ⟨0, _⟩ => by show n.val = if a = 1 then 0 else n.val; rw [if_neg ha]
    | ⟨1, _⟩ => by show 0 = if (1 : ℕ) = 1 then 0 else c.val; rw [if_pos rfl])

/-! ## The neighbour average -/

/-- The neighbour average as the program builds it from a feature table `feat`, the column of row-lookup words `gi`
    and two columns of destination words `si`, `si'`: the looked-up rows added up per destination, divided by the
    number of arrivals or by one. -/
def meanT (feat : FVec Ideal S40000x128 .f32) (gi si si' : IVec S640000x1 32) : FVec Ideal S40000x128 .f32 :=
  Host.divf
    (Host.scatterAdd scatter_S40000x128_S640000x1_S640000x128_1_0_0_1
      (broadcastInDim S40000x128 ![] bcast_S_S40000x128 (constant S_ .f32 0x00000000#32)) si
      (Host.gather gather_S40000x128_S640000x1_S640000x128_1_0_n_n_0_1_1128 feat gi))
    (broadcastInDim S40000x128 ![0, 1] bcast_S40000x1_S40000x128_0_1
      (broadcastInDim S40000x1 ![0] bcast_S40000_S40000x1_0
        (maximumf
          (Host.scatterAdd scatter_S40000_S640000x1_S640000_n_0_0_1
            (broadcastInDim S40000 ![] bcast_S_S40000 (constant S_ .f32 0x00000000#32)) si'
            (broadcastInDim S640000 ![] bcast_S_S640000 (constant S_ .f32 0x3F800000#32)))
          (broadcastInDim S40000 ![] bcast_S_S40000 (constant S_ .f32 0x3F800000#32)))))

/-- The neighbour average at node `n`, column `c`, as sums over the edges. -/
theorem meanT_apply (feat : FVec Ideal S40000x128 .f32) (gi si si' : IVec S640000x1 32) (n : Fin 40000) (c : Fin 128) :
    meanT feat gi si si' (ix2 n c)
      = Ideal.div
          (0 + ∑ e : Fin 640000, if (si (ix2 e (0 : Fin 1))).toInt = (n.val : ℤ)
            then feat (ix2 ⟨min (gi (ix2 e (0 : Fin 1))).toInt.toNat 39999, by omega⟩ c) else 0)
          (max (0 + ∑ e : Fin 640000, if (si' (ix2 e (0 : Fin 1))).toInt = (n.val : ℤ) then 1 else 0) 1) := by
  unfold meanT
  rw [hdivf_apply, scatterRows_apply, spread_apply (by decide), col_apply (by decide), maximumf_apply, scatterOnes_apply,
    splat_apply, Ideal.ofBits_one_f32]
  simp only [gather_apply]

/-- The neighbour average is the specification's, once the lookup words are the normalised source words and the
    destination columns hold the destination words. -/
theorem meanT_spec (feat : FVec Ideal S40000x128 .f32) (gi si si' : IVec S640000x1 32) (src dst : Fin 640000 → BitVec 32)
    (hgi : ∀ e, gi (ix2 e (0 : Fin 1)) = Cert.Spec.srcWord (src e)) (hsi : ∀ e, si (ix2 e (0 : Fin 1)) = dst e)
    (hsi' : ∀ e, si' (ix2 e (0 : Fin 1)) = dst e) (n : Fin 40000) (c : Fin 128) :
    meanT feat gi si si' (ix2 n c)
      = Cert.Spec.mean (fun e => Cert.Spec.rowOf (src e)) dst (fun p k => feat (ix2 p k)) n c := by
  rw [meanT_apply]
  simp only [hgi, hsi, hsi']
  unfold Cert.Spec.mean Cert.Spec.degree Cert.Spec.seg Cert.Spec.rowOf
  rfl

/-! ## The edge list's words -/

section Words
variable (x1 : (⟨S2x640000, .i32⟩ : BufTy).Contents (Elt Ideal))

/-- The first row of the edge list, as a vector: the source words. -/
theorem v1_apply (e : Fin 640000) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- The second row of the edge list, as a vector: the destination words. -/
theorem v3_apply (e : Fin 640000) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-- The source words as the row lookup normalises them. -/
theorem v8_apply (e : Fin 640000) :
    val_main_v8 (F := Ideal) x1 (ix1 e) = Cert.Spec.srcWord (x1 (ix2 (0 : Fin 2) e)) := by
  rw [val_main_v8_apply, val_main_v5_apply, val_main_v7_apply, val_main_v4_apply, val_main_v6_apply, v1_apply]
  rfl

/-- The column of lookup words. -/
theorem v9_apply (e : Fin 640000) (u : Fin 1) :
    val_main_v9 (F := Ideal) x1 (ix2 e u) = Cert.Spec.srcWord (x1 (ix2 (0 : Fin 2) e)) := by
  rw [val_main_v9_apply, show idx_main_v9 (ix2 e u) = ix1 e from funext fun a => match a with | ⟨0, _⟩ => rfl, v8_apply]

/-- The two columns of destination words. -/
theorem v12_apply (e : Fin 640000) (u : Fin 1) : val_main_v12 (F := Ideal) x1 (ix2 e u) = x1 (ix2 (1 : Fin 2) e) := by
  rw [val_main_v12_apply, show idx_main_v12 (ix2 e u) = ix1 e from funext fun a => match a with | ⟨0, _⟩ => rfl, v3_apply]
theorem v16_apply (e : Fin 640000) (u : Fin 1) : val_main_v16 (F := Ideal) x1 (ix2 e u) = x1 (ix2 (1 : Fin 2) e) := by
  rw [val_main_v16_apply, show idx_main_v16 (ix2 e u) = ix1 e from funext fun a => match a with | ⟨0, _⟩ => rfl, v3_apply]

/-- The second layer rebuilds the same three columns from the same edge list. -/
theorem v35_eq : val_main_v35 (F := Ideal) x1 = val_main_v9 (F := Ideal) x1 := rfl
theorem v38_eq : val_main_v38 (F := Ideal) x1 = val_main_v12 (F := Ideal) x1 := rfl
theorem v42_eq : val_main_v42 (F := Ideal) x1 = val_main_v16 (F := Ideal) x1 := rfl

end Words

/-! ## A layer -/

/-- A layer as the program builds it: a feature table `a` with a second table `b` joined on its right, times the
    weight. -/
def layerT (a b : FVec Ideal S40000x128 .f32) (W : FVec Ideal S256x128 .f32) : FVec Ideal S40000x128 .f32 :=
  Host.dotGeneral dot_S40000x256_S256x128_S40000x128_1_0_0_1_n_n none
    (concatenate S40000x256 1 [⟨S40000x128, a⟩, ⟨S40000x128, b⟩] concatenates_S40000x128_S40000x128_S40000x256_d1) W

/-- The joined table at a column of its left half is the first table's. -/
theorem join_left (a b : FVec Ideal S40000x128 .f32) (p : Fin 40000) (k : Fin 128) :
    concatenate S40000x256 1 [⟨S40000x128, a⟩, ⟨S40000x128, b⟩] concatenates_S40000x128_S40000x128_S40000x256_d1
      (ix2 p (⟨k.val, by omega⟩ : Fin 256)) = a (ix2 p k) :=
  concatenate_pair_apply_left (t := S40000x256) (1 : Fin 2) a b concatenates_S40000x128_S40000x128_S40000x256_d1
    (ix2 p (⟨k.val, by omega⟩ : Fin 256)) rfl (ix2 p k)
    (fun ax => match ax with
      | ⟨0, _⟩ => rfl
      | ⟨1, _⟩ => rfl)

/-- The joined table at a column of its right half is the second table's. -/
theorem join_right (a b : FVec Ideal S40000x128 .f32) (p : Fin 40000) (k : Fin 128) :
    concatenate S40000x256 1 [⟨S40000x128, a⟩, ⟨S40000x128, b⟩] concatenates_S40000x128_S40000x128_S40000x256_d1
      (ix2 p (⟨128 + k.val, by omega⟩ : Fin 256)) = b (ix2 p k) :=
  concatenate_pair_apply_right (t := S40000x256) (1 : Fin 2) a b concatenates_S40000x128_S40000x128_S40000x256_d1
    (ix2 p (⟨128 + k.val, by omega⟩ : Fin 256)) rfl rfl (ix2 p k)
    (fun ax => match ax with
      | ⟨0, _⟩ => fun _ => rfl
      | ⟨1, _⟩ => fun h => absurd rfl h)
    (show k.val + 128 = 128 + k.val from Nat.add_comm _ _)

/-- A sum over 256 columns is the sum over the first 128 plus the sum over the last 128. -/
theorem sum_256 (f : Fin 256 → EReal) :
    ∑ j : Fin 256, f j = (∑ k : Fin 128, f ⟨k.val, by omega⟩) + ∑ k : Fin 128, f ⟨128 + k.val, by omega⟩ :=
  Fin.sum_univ_add (a := 128) (b := 128) f

/-- The layer at node `p`, output column `q`: the specification's. -/
theorem layerT_apply (a b : FVec Ideal S40000x128 .f32) (W : FVec Ideal S256x128 .f32) (p : Fin 40000) (q : Fin 128) :
    layerT a b W (ix2 p q)
      = Cert.Spec.layer (fun p k => a (ix2 p k)) (fun p k => b (ix2 p k)) (fun k q => W (ix2 k q)) p q := by
  unfold layerT Cert.Spec.layer
  simp only [Host.dotGeneral]
  rw [Cert.Lib.PlainMatmul.dotGeneral_apply (a := 40000) (k := 256) (b := 128)
    dot_S40000x256_S256x128_S40000x128_1_0_0_1_n_n rfl rfl rfl rfl rfl rfl none .single _ W p q, sum_256]
  simp only [join_left, join_right]

/-! ## The two layers -/

/-- The specification's arguments, read off the argument arrays: the row an edge's source word names, an edge's
    destination word, a two-axis array as a function of its two coordinates. -/
abbrev rowF (x1 : (⟨S2x640000, .i32⟩ : BufTy).Contents (Elt Ideal)) : Fin 640000 → Fin 40000 :=
  fun e => Cert.Spec.rowOf (x1 (ix2 (0 : Fin 2) e))
abbrev dstF (x1 : (⟨S2x640000, .i32⟩ : BufTy).Contents (Elt Ideal)) : Fin 640000 → BitVec 32 :=
  fun e => x1 (ix2 (1 : Fin 2) e)
abbrev tab {a b : ℕ} (x : FVec Ideal ⟨2, ![a, b]⟩ .f32) : Fin a → Fin b → EReal := fun p k => x (ix2 p k)

section Net
variable (x0 : (⟨S40000x128, .f32⟩ : BufTy).Contents (Elt Ideal)) (x1 : (⟨S2x640000, .i32⟩ : BufTy).Contents (Elt Ideal))
  (x2 : (⟨S40000, .i32⟩ : BufTy).Contents (Elt Ideal)) (x3 x4 : (⟨S256x128, .f32⟩ : BufTy).Contents (Elt Ideal))
  (x5 : (⟨S128x1, .f32⟩ : BufTy).Contents (Elt Ideal))

/-- The first neighbour average is the construction above, on the node features. -/
theorem v22_eq : val_main_v22 (F := Ideal) x0 x1
    = meanT x0 (val_main_v9 (F := Ideal) x1) (val_main_v12 (F := Ideal) x1) (val_main_v16 (F := Ideal) x1) := rfl

theorem v22_spec (n : Fin 40000) (c : Fin 128) :
    val_main_v22 (F := Ideal) x0 x1 (ix2 n c) = Cert.Spec.mean (rowF x1) (dstF x1) (tab x0) n c := by
  rw [v22_eq]
  exact meanT_spec x0 _ _ _ (fun e => x1 (ix2 (0 : Fin 2) e)) (dstF x1) (fun e => v9_apply x1 e 0)
    (fun e => v12_apply x1 e 0) (fun e => v16_apply x1 e 0) n c

/-- The first layer before its cut-off is the layer construction on the features and their average. -/
theorem v24_eq : val_main_v24 (F := Ideal) x0 x1 x3 = layerT x0 (val_main_v22 (F := Ideal) x0 x1) x3 := rfl

/-- The first layer's output. -/
theorem v25_spec (p : Fin 40000) (q : Fin 128) :
    val_main_v25 (F := Ideal) x0 x1 x3 (ix2 p q) = Cert.Spec.hidden1 (rowF x1) (dstF x1) (tab x0) (tab x3) p q := by
  rw [val_main_v25_apply, v24_eq, layerT_apply, val_main_call0_v0_apply, val_main_call0_cst_apply, Ideal.maximumf_def,
    Ideal.ofBits_def, Ideal.ofBits_zero_f32]
  simp only [v22_spec]
  unfold Cert.Spec.hidden1
  rfl

/-- The second neighbour average is the same construction, on the first layer's output. -/
theorem v48_eq : val_main_v48 (F := Ideal) x0 x1 x3
    = meanT (val_main_v25 (F := Ideal) x0 x1 x3) (val_main_v35 (F := Ideal) x1) (val_main_v38 (F := Ideal) x1)
        (val_main_v42 (F := Ideal) x1) := rfl

theorem v48_spec (n : Fin 40000) (c : Fin 128) :
    val_main_v48 (F := Ideal) x0 x1 x3 (ix2 n c)
      = Cert.Spec.mean (rowF x1) (dstF x1) (Cert.Spec.hidden1 (rowF x1) (dstF x1) (tab x0) (tab x3)) n c := by
  rw [v48_eq, v35_eq, v38_eq, v42_eq,
    meanT_spec (val_main_v25 (F := Ideal) x0 x1 x3) _ _ _ (fun e => x1 (ix2 (0 : Fin 2) e)) (dstF x1)
      (fun e => v9_apply x1 e 0) (fun e => v12_apply x1 e 0) (fun e => v16_apply x1 e 0) n c]
  simp only [v25_spec]

/-- The second layer is the layer construction on the first layer's output and its average. -/
theorem v50_eq : val_main_v50 (F := Ideal) x0 x1 x3 x4
    = layerT (val_main_v25 (F := Ideal) x0 x1 x3) (val_main_v48 (F := Ideal) x0 x1 x3) x4 := rfl

/-- The second layer's output. -/
theorem v50_spec (p : Fin 40000) (q : Fin 128) :
    val_main_v50 (F := Ideal) x0 x1 x3 x4 (ix2 p q)
      = Cert.Spec.hidden2 (rowF x1) (dstF x1) (tab x0) (tab x3) (tab x4) p q := by
  rw [v50_eq, layerT_apply]
  simp only [v25_spec, v48_spec]
  unfold Cert.Spec.hidden2
  rfl

/-! ## The mean over each graph's nodes -/

/-- Rows added into a zero table of 256 rows: at graph `g`, column `d`, zero plus the rows of the nodes whose word is
    `g`. -/
theorem scatterGraphs_apply (si : IVec S40000x1 32) (upd : FVec Ideal S40000x128 .f32) (g : Fin 256) (d : Fin 128) :
    Host.scatterAdd scatter_S256x128_S40000x1_S40000x128_1_0_0_1
        (broadcastInDim S256x128 ![] bcast_S_S256x128 (constant (F := Ideal) S_ .f32 0x00000000#32)) si upd (ix2 g d)
      = (0 + ∑ r : Fin 40000, if (si (ix2 r (0 : Fin 1))).toInt = (g.val : ℤ) then upd (ix2 r d) else 0 : EReal) := by
  rw [scatterAdd_eq, Cert.Lib.RowGS.scatterAdd_rows_apply (N := 256) (D := 128) (E := 40000)
    scatter_S256x128_S40000x1_S40000x128_1_0_0_1 rfl rfl rfl rfl _ si upd g d, splat_apply, Ideal.ofBits_zero_f32]

/-- Ones added into a zero vector of 256 entries: at graph `g`, zero plus one for every node whose word is `g`. -/
theorem scatterGraphOnes_apply (si : IVec S40000x1 32) (g : Fin 256) :
    Host.scatterAdd scatter_S256_S40000x1_S40000_n_0_0_1
        (broadcastInDim S256 ![] bcast_S_S256 (constant (F := Ideal) S_ .f32 0x00000000#32)) si
        (broadcastInDim S40000 ![] bcast_S_S40000 (constant (F := Ideal) S_ .f32 0x3F800000#32)) (ix1 g)
      = (0 + ∑ r : Fin 40000, if (si (ix2 r (0 : Fin 1))).toInt = (g.val : ℤ) then 1 else 0 : EReal) := by
  rw [Cert.LibScatterAdd1.scatterAdd_apply 256 40000
    scatter_S256_S40000x1_S40000_n_0_0_1 rfl rfl rfl rfl _ si _ g, splat_apply, Ideal.ofBits_zero_f32]
  refine congrArg (fun z : EReal => 0 + z) (Finset.sum_congr rfl fun r _ => ?_)
  rw [splat_apply, Ideal.ofBits_one_f32]

/-- The two columns of graph words. -/
theorem v52_apply (r : Fin 40000) (u : Fin 1) : val_main_v52 (F := Ideal) x2 (ix2 r u) = x2 (ix1 r) := by
  rw [val_main_v52_apply, show idx_main_v52 (ix2 r u) = ix1 r from funext fun a => match a with | ⟨0, _⟩ => rfl]
theorem v56_apply (r : Fin 40000) (u : Fin 1) : val_main_v56 (F := Ideal) x2 (ix2 r u) = x2 (ix1 r) := by
  rw [val_main_v56_apply, show idx_main_v56 (ix2 r u) = ix1 r from funext fun a => match a with | ⟨0, _⟩ => rfl]

/-- The sum of the second layer's output over a graph's nodes. -/
theorem v53_spec (g : Fin 256) (d : Fin 128) :
    val_main_v53 (F := Ideal) x0 x1 x2 x3 x4 (ix2 g d)
      = Cert.Spec.gsum (fun r => x2 (ix1 r))
          (fun r => Cert.Spec.hidden2 (rowF x1) (dstF x1) (tab x0) (tab x3) (tab x4) r d) g := by
  unfold val_main_v53 val_main_v51 val_main_cst_10
  rw [scatterGraphs_apply]
  simp only [v52_apply, v50_spec]
  unfold Cert.Spec.gsum
  rfl

/-- The number of a graph's nodes, and never less than one, spread over the columns. -/
theorem v61_spec (g : Fin 256) (d : Fin 128) :
    val_main_v61 (F := Ideal) x2 (ix2 g d) = max (Cert.Spec.gsum (fun r => x2 (ix1 r)) (fun _ => 1) g) 1 := by
  unfold val_main_v61 val_main_v60 val_main_v59 val_main_v57 val_main_v55 val_main_cst_12 val_main_v54 val_main_cst_11
    val_main_v58 val_main_cst_13
  rw [spread_apply (by decide), col_apply (by decide), maximumf_apply, scatterGraphOnes_apply, splat_apply,
    Ideal.ofBits_one_f32]
  simp only [v56_apply]
  unfold Cert.Spec.gsum
  rfl

/-- The mean of the second layer's output over a graph's nodes. -/
theorem v62_spec (g : Fin 256) (d : Fin 128) :
    val_main_v62 (F := Ideal) x0 x1 x2 x3 x4 (ix2 g d)
      = Cert.Spec.pooled (fun r => x2 (ix1 r)) (Cert.Spec.hidden2 (rowF x1) (dstF x1) (tab x0) (tab x3) (tab x4)) g d := by
  rw [val_main_v62_apply, Ideal.hostDivf_def, v53_spec, v61_spec]
  unfold Cert.Spec.pooled
  rfl

/-! ## The read-out and the answer -/

/-- THE REFERENCE'S RESULT for graph `g` is the specification's answer at the argument arrays. -/
theorem ref_answer (g : Fin 256) :
    val_main_v69 (F := Ideal) x0 x1 x2 x3 x4 x5 (ix2 g (0 : Fin 1))
      = Cert.Spec.answer (fun e => Cert.Spec.rowOf (x1 (ix2 (0 : Fin 2) e))) (fun e => x1 (ix2 (1 : Fin 2) e))
          (fun r => x2 (ix1 r)) (fun p k => x0 (ix2 p k)) (fun k q => x3 (ix2 k q)) (fun k q => x4 (ix2 k q))
          (fun d => x5 (ix2 d (0 : Fin 1))) g := by
  have hl : ∀ k : Fin 128, lidx_main_v63 (ix2 g (0 : Fin 1)) k = ix2 g k := fun k => funext fun a => match a with
    | ⟨0, _⟩ => rfl
    | ⟨1, _⟩ => rfl
  have hr : ∀ k : Fin 128, ridx_main_v63 (ix2 g (0 : Fin 1)) k = ix2 k (0 : Fin 1) := fun k => funext fun a => match a with
    | ⟨0, _⟩ => rfl
    | ⟨1, _⟩ => rfl
  rw [val_main_v69_apply, val_main_v67_apply, val_main_v65_apply, val_main_v64_apply, val_main_v63_apply,
    val_main_v68_apply, val_main_cst_15_apply, val_main_v66_apply, val_main_cst_14_apply, Ideal.hostDivf_def,
    Ideal.addf_def, Ideal.hostUnary_exp_def, Ideal.hostNegf_def, Ideal.negf_def, Ideal.ofBits_def, Ideal.ofBits_one_f32]
  simp only [hl, hr, v62_spec]
  unfold Cert.Spec.answer Ideal.logistic
  rfl

/-- The same for the whole result column. -/
theorem ref_result :
    val_main_v69 (F := Ideal) x0 x1 x2 x3 x4 x5
      = fun j : S256x1.Idx => Cert.Spec.answer (fun e => Cert.Spec.rowOf (x1 (ix2 (0 : Fin 2) e)))
          (fun e => x1 (ix2 (1 : Fin 2) e)) (fun r => x2 (ix1 r)) (fun p k => x0 (ix2 p k)) (fun k q => x3 (ix2 k q))
          (fun k q => x4 (ix2 k q)) (fun d => x5 (ix2 d (0 : Fin 1))) ⟨(j 0).val, (j 0).isLt⟩ := by
  funext j
  obtain ⟨g, u, rfl⟩ : ∃ (g : Fin 256) (u : Fin 1), j = ix2 g u := ⟨j 0, j 1, eq_ix2 j⟩
  obtain rfl : u = 0 := Subsingleton.elim _ _
  exact ref_answer x0 x1 x2 x3 x4 x5 g

end Net

/-- The reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of a two-layer neighbour-averaging network with a per-graph mean and a logistic read-out, computed by
  three kernel launches among host operations, against its plain reference.

  Three frames: each program runs to the end, faults nowhere and leaves its six argument arrays as launched. The kernel's
  program — three stretches of host operations alternating with three launches over ten row tiles each — is run segment
  by segment: a host stretch rewrites only the buffers its operations write; a launch leaves in its output array what its
  tiles wrote back and everything else alone. The first two launches keep nothing between tiles; the third carries two
  running totals (per-graph row sums and row counts) from tile to tile and writes its answers back after the last one.
  The same run is made once at the word level and once on the extended reals. The reference is host operations only.

  The idealized kernel is the kernel's own text read on the extended reals, so nothing is owed for that step.

  The two idealized programs agree: both compute, for every graph, the logistic function of the read-out of the mean over
  the graph's nodes of the second layer's output. The kernel multiplies a node's neighbour sum by the reciprocal of the
  (never zero) neighbour count where the reference divides by the count; it multiplies the two halves of each layer's
  weight separately where the reference multiplies the concatenation; it sums a graph's rows tile by tile through a
  0/1 membership matrix where the reference adds each row to its graph's total. On the extended reals these are the same
  sums and the same quotients, with no appeal to finiteness.
-/
import proofs.«425775_j85358180040740_2_alg».proof.Defs
import proofs.«425775_j85358180040740_2_alg».proof.Proof.Gen.Kernel
import proofs.«425775_j85358180040740_2_alg».proof.Proof.Gen.KernelIdeal
import proofs.«425775_j85358180040740_2_alg».proof.Proof.Gen.ReferenceIdeal
import proofs.«425775_j85358180040740_2_alg».proof.Proof.Gen.Pre_finite_inputs
import proofs.«425775_j85358180040740_2_alg».proof.Proof.K.Run
import proofs.«425775_j85358180040740_2_alg».proof.Proof.KI.Run
import proofs.«425775_j85358180040740_2_alg».proof.Proof.Val.Kernel
import proofs.«425775_j85358180040740_2_alg».proof.Proof.Val.Ref
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Fr.frame (F := Bits) m ρ

/-- So does the kernel program on the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference runs and keeps its arguments. -/
theorem frame_ri : Cert.frame_ReferenceIdeal (hReferenceIdeal := Cert.ReferenceIdeal.Gen.facts) (hPre_finite_inputs := Cert.Pre_finite_inputs.Gen.facts) :=
  Cert.ReferenceIdeal.RefValue.frame_ri

open Idealize.ShloMosaic.ValueIdx in
/-- On the extended reals both programs end with, for every graph, the specification's answer computed from the launch
    memory's argument arrays: the kernel by its run over all segments and the value of its last launch's output array,
    the reference by its generated run and reads; the two memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun j : Cert.KernelIdeal.S256x1.Idx => Cert.Spec.answer
      (fun e => Cert.Spec.rowOf (Cert.KernelIdeal.Val.src m c e)) (Cert.KernelIdeal.Val.dst m c)
      (fun r => Cert.KernelIdeal.Val.bta m c (ix1 r)) (fun p k => Cert.KernelIdeal.Val.xa m c (ix2 p k))
      (fun k q => Cert.KernelIdeal.Val.W1a m c (ix2 k q)) (fun k q => Cert.KernelIdeal.Val.W2a m c (ix2 k q))
      (fun d => Cert.KernelIdeal.Val.wfc m c (ix2 d (0 : Fin 1))) ⟨(j 0).val, (j 0).isLt⟩), ?_, ?_⟩
  · refine (θ_run Cert.KernelIdeal.defs _ _).mono (fun r h c => ⟨?_, ?_⟩) (Cert.KernelIdeal.Fr.run_all (F := Ideal) m ρ)
    · exact (h c _ (Cert.KernelIdeal.Fr.mem_uc Cert.KernelIdeal.main_v44 (by decide))).trans (Cert.KernelIdeal.Val.kernel_result m ρ c)
    · exact ⟨(h c _ (Cert.KernelIdeal.Fr.mem_uc Cert.KernelIdeal.main_arg0 (by decide))).trans (Cert.KernelIdeal.Fr.W6_main_arg0 m ρ c),
        (h c _ (Cert.KernelIdeal.Fr.mem_uc Cert.KernelIdeal.main_arg1 (by decide))).trans (Cert.KernelIdeal.Fr.W6_main_arg1 m ρ c),
        (h c _ (Cert.KernelIdeal.Fr.mem_uc Cert.KernelIdeal.main_arg2 (by decide))).trans (Cert.KernelIdeal.Fr.W6_main_arg2 m ρ c),
        (h c _ (Cert.KernelIdeal.Fr.mem_uc Cert.KernelIdeal.main_arg3 (by decide))).trans (Cert.KernelIdeal.Fr.W6_main_arg3 m ρ c),
        (h c _ (Cert.KernelIdeal.Fr.mem_uc Cert.KernelIdeal.main_arg4 (by decide))).trans (Cert.KernelIdeal.Fr.W6_main_arg4 m ρ c),
        (h c _ (Cert.KernelIdeal.Fr.mem_uc Cert.KernelIdeal.main_arg5 (by decide))).trans (Cert.KernelIdeal.Fr.W6_main_arg5 m ρ c)⟩
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v69_eq m' c).trans ?_)
    rw [(hagree c).1, (hagree c).2.1, (hagree c).2.2.1, (hagree c).2.2.2.1, (hagree c).2.2.2.2.1, (hagree c).2.2.2.2.2]
    exact Cert.ReferenceIdeal.RefValue.ref_result _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
